-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S51200x64 : Shape := ⟨2, ![51200, 64]⟩
abbrev S51200x1 : Shape := ⟨2, ![51200, 1]⟩
abbrev S2x819200 : Shape := ⟨2, ![2, 819200]⟩
abbrev S51200 : Shape := ⟨1, ![51200]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S51200x64 : S_.BroadcastsInDim S51200x64 (![] : Fin 0 → Fin S51200x64.rank)
  reducesTo_S51200x64_S_d0_1 : S51200x64.ReducesTo [0, 1] S_
  h_S_ : 0 < S_.numel
  bcast_S_S51200x1 : S_.BroadcastsInDim S51200x1 (![] : Fin 0 → Fin S51200x1.rank)
  reducesTo_S51200x1_S_d0_1 : S51200x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S51200 : S_.BroadcastsInDim S51200 (![] : Fin 0 → Fin S51200.rank)
  reducesTo_S51200_S_d0 : S51200.ReducesTo [0] S_

variable [Facts]

def fn_part3 {F : FTy → Type} [FloatOps F] (main_arg3 : IVec S51200 32) (main_v48 : IVec S_ 1) (main_v50 : IVec S51200 1) : IVec S_ 1 :=
  let main_c_19 : IVec S_ 32 := constantI S_ 32 64#32
  let main_v51 : IVec S51200 32 := broadcastInDim S51200 ![] bcast_S_S51200 main_c_19
  let main_v52 : IVec S51200 1 := cmpi .slt main_arg3 main_v51
  let main_v53 : IVec S51200 1 := andi main_v50 main_v52
  let main_c_20 : IVec S_ 1 := constantI S_ 1 1#1
  let main_v54 : IVec S_ 1 := (fun x v => Host.reduce IntOp.andi x v reducesTo_S51200_S_d0 h_S_) main_v53 main_c_20
  let main_v55 : IVec S_ 1 := andi main_v48 main_v54
  main_v55

def fn_part2 {F : FTy → Type} [FloatOps F] (main_arg3 : IVec S51200 32) (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S51200 32 := broadcastInDim S51200 ![] bcast_S_S51200 main_c_18
  let main_v50 : IVec S51200 1 := cmpi .sge main_arg3 main_v49
  fn_part3 (F := F) main_arg3 main_v48 main_v50

def fn_part1 {F : FTy → Type} [FloatOps F] (main_arg3 : IVec S51200 32) (main_arg6 : FVec F S128x64 .f32) (main_arg7 : FVec F S64 .f32) (main_arg8 : FVec F S256x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg3 main_arg9 main_arg10 main_arg11 main_v33

def fn {F : FTy → Type} [FloatOps F] (main_arg0 : FVec F S51200x64 .f32) (main_arg1 : FVec F S51200x1 .f32) (main_arg2 : IVec S2x819200 32) (main_arg3 : IVec S51200 32) (main_arg4 : FVec F S128x128 .f32) (main_arg5 : FVec F S128 .f32) (main_arg6 : FVec F S128x64 .f32) (main_arg7 : FVec F S64 .f32) (main_arg8 : FVec F S256x128 .f32) (main_arg9 : FVec F S128 .f32) (main_arg10 : FVec F S128x1 .f32) (main_arg11 : FVec F S1 .f32) : IVec S_ 1 :=
  let main_v0 : FVec F S51200x64 .f32 := Host.absf main_arg0
  let main_cst : FVec F S_ .f32 := constant S_ .f32 0x7F800000#32
  let main_v1 : FVec F S51200x64 .f32 := broadcastInDim S51200x64 ![] bcast_S_S51200x64 main_cst
  let main_v2 : IVec S51200x64 1 := cmpf .olt main_v0 main_v1
  let main_c : IVec S_ 1 := constantI S_ 1 1#1
  let main_v3 : IVec S_ 1 := (fun x v => Host.reduce IntOp.andi x v reducesTo_S51200x64_S_d0_1 h_S_) main_v2 main_c
  let main_v4 : FVec F S51200x1 .f32 := Host.absf main_arg1
  let main_cst_0 : FVec F S_ .f32 := constant S_ .f32 0x7F800000#32
  let main_v5 : FVec F S51200x1 .f32 := broadcastInDim S51200x1 ![] bcast_S_S51200x1 main_cst_0
  let main_v6 : IVec S51200x1 1 := cmpf .olt main_v4 main_v5
  let main_c_1 : IVec S_ 1 := constantI S_ 1 1#1
  let main_v7 : IVec S_ 1 := (fun x v => Host.reduce IntOp.andi x v reducesTo_S51200x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_arg9 main_arg10 main_arg11 main_v13 main_v16
-- ==== Kernel.lean ====
abbrev S51200x64 : Shape := ⟨2, ![51200, 64]⟩
abbrev S51200x1 : Shape := ⟨2, ![51200, 1]⟩
abbrev S2x819200 : Shape := ⟨2, ![2, 819200]⟩
abbrev S51200 : Shape := ⟨1, ![51200]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x128 : Shape := ⟨2, ![256, 128]⟩
abbrev S128x1 : Shape := ⟨2, ![128, 1]⟩
abbrev S1 : Shape := ⟨1, ![1]⟩
abbrev S1x819200 : Shape := ⟨2, ![1, 819200]⟩
abbrev S819200 : Shape := ⟨1, ![819200]⟩
abbrev S1x51200 : Shape := ⟨2, ![1, 51200]⟩
abbrev S_ : Shape := ⟨0, ![]⟩
abbrev S819200x1 : Shape := ⟨2, ![819200, 1]⟩
abbrev S819200x64 : Shape := ⟨2, ![819200, 64]⟩
abbrev S819200x128 : Shape := ⟨2, ![819200, 128]⟩
abbrev S1x128 : Shape := ⟨2, ![1, 128]⟩
abbrev S1x64 : Shape := ⟨2, ![1, 64]⟩
abbrev S4096x128 : Shape := ⟨2, ![4096, 128]⟩
abbrev S4096x1 : Shape := ⟨2, ![4096, 1]⟩
abbrev S4096x64 : Shape := ⟨2, ![4096, 64]⟩
abbrev S64x64 : Shape := ⟨2, ![64, 64]⟩
abbrev S1x5120 : Shape := ⟨2, ![1, 5120]⟩
abbrev S5120x64 : Shape := ⟨2, ![5120, 64]⟩
abbrev S64x5120 : Shape := ⟨2, ![64, 5120]⟩
abbrev S51200x128 : Shape := ⟨2, ![51200, 128]⟩
abbrev S5120x128 : Shape := ⟨2, ![5120, 128]⟩
abbrev S819200x256 : Shape := ⟨2, ![819200, 256]⟩
abbrev S1x1 : Shape := ⟨2, ![1, 1]⟩
abbrev S4096x256 : Shape := ⟨2, ![4096, 256]⟩

abbrev nBuf : Space → Nat
  | .hbm => 80
  | .vmem => 30
  | .smem => 0
  | _ => 0

abbrev bufTy : (tb : Table) → Fin (tcTables nBuf tb) → BufTy
  | .hbm, ⟨0, _⟩ => ⟨S51200x64, .f32⟩
  | .hbm, ⟨1, _⟩ => ⟨S51200x1, .f32⟩
  | .hbm, ⟨2, _⟩ => ⟨S2x819200, .i32⟩
  | .hbm, ⟨3, _⟩ => ⟨S51200, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x819200, .i32⟩
  | .hbm, ⟨13, _⟩ => ⟨S819200, .i32⟩
  | .hbm, ⟨14, _⟩ => ⟨S1x819200, .i32⟩
  | .hbm, ⟨15, _⟩ => ⟨S819200, .i32⟩
  | .hbm, ⟨16, _⟩ => ⟨S1x51200, .i32⟩
  | .hbm, ⟨17, _⟩ => ⟨S_, .i32⟩
  | .hbm, ⟨18, _⟩ => ⟨S819200, .i32⟩
  | .hbm, ⟨19, _⟩ => ⟨S819200, .i1⟩
  | .hbm, ⟨20, _⟩ => ⟨S_, .i32⟩
  | .hbm, ⟨21, _⟩ => ⟨S819200, .i32⟩
  | .hbm, ⟨22, _⟩ => ⟨S819200, .i32⟩
  | .hbm, ⟨23, _⟩ => ⟨S819200, .i32⟩
  | .hbm, ⟨24, _⟩ => ⟨S819200x1, .i32⟩
  | .hbm, ⟨25, _⟩ => ⟨S819200x64, .f32⟩
  | .hbm, ⟨26, _⟩ => ⟨S_, .i32⟩
  | .hbm, ⟨27, _⟩ => ⟨S819200, .i32⟩
  | .hbm, ⟨28, _⟩ => ⟨S819200, .i1⟩
  | .hbm, ⟨29, _⟩ => ⟨S_, .i32⟩
  | .hbm, ⟨30, _⟩ => ⟨S819200, .i32⟩
  | .hbm, ⟨31, _⟩ => ⟨S819200, .i32⟩
  | .hbm, ⟨32, _⟩ => ⟨S819200, .i32⟩
  | .hbm, ⟨33, _⟩ => ⟨S819200x1, .i32⟩
  | .hbm, ⟨34, _⟩ => ⟨S819200x64, .f32⟩
  | .hbm, ⟨35, _⟩ => ⟨S819200x128, .f32⟩
  | .hbm, ⟨36, _⟩ => ⟨S_, .i32⟩
  | .hbm, ⟨37, _⟩ => ⟨S819200, .i32⟩
  | .hbm, ⟨38, _⟩ => ⟨S819200, .i1⟩
  | .hbm, ⟨39, _⟩ => ⟨S_, .i32⟩
  | .hbm, ⟨40, _⟩ => ⟨S819200, .i32⟩
  | .hbm, ⟨41, _⟩ => ⟨S819200, .i32⟩
  | .hbm, ⟨42, _⟩ => ⟨S819200, .i32⟩
  | .hbm, ⟨43, _⟩ => ⟨S819200x1, .i32⟩
  | .hbm, ⟨44, _⟩ => ⟨S819200x1, .f32⟩
  | .hbm, ⟨45, _⟩ => ⟨S1x128, .f32⟩
  | .hbm, ⟨46, _⟩ => ⟨S1x64, .f32⟩
  | .hbm, ⟨47, _⟩ => ⟨S819200x64, .f32⟩
  | .hbm, ⟨48, _⟩ => ⟨S_, .f32⟩
  | .hbm, ⟨49, _⟩ => ⟨S51200x64, .f32⟩
  | .hbm, ⟨50, _⟩ => ⟨S819200x1, .i32⟩
  | .hbm, ⟨51, _⟩ => ⟨S51200x64, .f32⟩
  | .hbm, ⟨52, _⟩ => ⟨S64x64, .f32⟩
  | .hbm, ⟨53, _⟩ => ⟨S51200x128, .f32⟩
  | .hbm, ⟨54, _⟩ => ⟨S_, .i32⟩
  | .hbm, ⟨55, _⟩ => ⟨S819200, .i32⟩
  | .hbm, ⟨56, _⟩ => ⟨S819200, .i1⟩
  | .hbm, ⟨57, _⟩ => ⟨S_, .i32⟩
  | .hbm, ⟨58, _⟩ => ⟨S819200, .i32⟩
  | .hbm, ⟨59, _⟩ => ⟨S819200, .i32⟩
  | .hbm, ⟨60, _⟩ => ⟨S819200, .i32⟩
  | .hbm, ⟨61, _⟩ => ⟨S819200x1, .i32⟩
  | .hbm, ⟨62, _⟩ => ⟨S819200x128, .f32⟩
  | .hbm, ⟨63, _⟩ => ⟨S_, .i32⟩
  | .hbm, ⟨64, _⟩ => ⟨S819200, .i32⟩
  | .hbm, ⟨65, _⟩ => ⟨S819200, .i1⟩
  | .hbm, ⟨66, _⟩ => ⟨S_, .i32⟩
  | .hbm, ⟨67, _⟩ => ⟨S819200, .i32⟩
  | .hbm, ⟨68, _⟩ => ⟨S819200, .i32⟩
  | .hbm, ⟨69, _⟩ => ⟨S819200, .i32⟩
  | .hbm, ⟨70, _⟩ => ⟨S819200x1, .i32⟩
  | .hbm, ⟨71, _⟩ => ⟨S819200x128, .f32⟩
  | .hbm, ⟨72, _⟩ => ⟨S819200x256, .f32⟩
  | .hbm, ⟨73, _⟩ => ⟨S1x128, .f32⟩
  | .hbm, ⟨74, _⟩ => ⟨S1x1, .f32⟩
  | .hbm, ⟨75, _⟩ => ⟨S819200x1, .f32⟩
  | .hbm, ⟨76, _⟩ => ⟨S_, .f32⟩
  | .hbm, ⟨77, _⟩ => ⟨S51200x1, .f32⟩
  | .hbm, ⟨78, _⟩ => ⟨S819200x1, .i32⟩
  | .hbm, ⟨79, _⟩ => ⟨S51200x1, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S4096x1, .f32⟩
  | .local _ .vmem, ⟨7, _⟩ => ⟨S4096x1, .f32⟩
  | .local _ .vmem, ⟨8, _⟩ => ⟨S4096x64, .f32⟩
  | .local _ .vmem, ⟨9, _⟩ => ⟨S4096x64, .f32⟩
  | .local _ .vmem, ⟨10, _⟩ => ⟨S1x5120, .i32⟩
  | .local _ .vmem, ⟨11, _⟩ => ⟨S1x5120, .i32⟩
  | .local _ .vmem, ⟨12, _⟩ => ⟨S5120x64, .f32⟩
  | .local _ .vmem, ⟨13, _⟩ => ⟨S5120x64, .f32⟩
  | .local _ .vmem, ⟨14, _⟩ => ⟨S64x64, .f32⟩
  | .local _ .vmem, ⟨15, _⟩ => ⟨S1x5120, .i32⟩
  | .local _ .vmem, ⟨16, _⟩ => ⟨S1x5120, .i32⟩
  | .local _ .vmem, ⟨17, _⟩ => ⟨S5120x64, .f32⟩
  | .local _ .vmem, ⟨18, _⟩ => ⟨S5120x64, .f32⟩
  | .local _ .vmem, ⟨19, _⟩ => ⟨S64x64, .f32⟩
  | .local _ .vmem, ⟨20, _⟩ => ⟨S5120x128, .f32⟩
  | .local _ .vmem, ⟨21, _⟩ => ⟨S5120x128, .f32⟩
  | .local _ .vmem, ⟨22, _⟩ => ⟨S4096x256, .f32⟩
  | .local _ .vmem, ⟨23, _⟩ => ⟨S4096x256, .f32⟩
  | .local _ .vmem, ⟨24, _⟩ => ⟨S256x128, .f32⟩
  | .local _ .vmem, ⟨25, _⟩ => ⟨S1x128, .f32⟩
  | .local _ .vmem, ⟨26, _⟩ => ⟨S128x1, .f32⟩
  | .local _ .vmem, ⟨27, _⟩ => ⟨S1x1, .f32⟩
  | .local _ .vmem, ⟨28, _⟩ => ⟨S4096x1, .f32⟩
  | .local _ .vmem, ⟨29, _⟩ => ⟨S4096x1, .f32⟩
  | _, _ => ⟨S51200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x5120 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5120x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x5120 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5120x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5120x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x819200_S1x819200_0_0 : S2x819200.Slices ![0, 0] S1x819200
  shapeCasts_S1x819200_S819200 : S1x819200.ShapeCasts S819200
  slices_S2x819200_S1x819200_1_0 : S2x819200.Slices ![1, 0] S1x819200
  shapeCasts_S51200_S1x51200 : S51200.ShapeCasts S1x51200
  bcast_S_S819200 : S_.BroadcastsInDim S819200 (![] : Fin 0 → Fin S819200.rank)
  bcast_S819200_S819200x1_0 : S819200.BroadcastsInDim S819200x1 (![0] : Fin 1 → Fin S819200x1.rank)
  concatenates_S819200x64_S819200x64_S819200x128_d1 : Shape.Concatenates [S819200x64, S819200x64] S819200x128 1
  shapeCasts_S128_S1x128 : S128.ShapeCasts S1x128
  shapeCasts_S64_S1x64 : S64.ShapeCasts S1x64
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  bcast_S_S51200x64 : S_.BroadcastsInDim S51200x64 (![] : Fin 0 → Fin S51200x64.rank)
  inb_S64x64_S64x64_0_0 : ∀ a, (![0, 0] : Fin 2 → Nat) a + S64x64.size a ≤ S64x64.size a
  h_S64x64 : 0 < S64x64.numel
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  iota_S64x5120_d0_w32 : S64x5120.Iotas .tc 32 [0]
  broadcasts_S1x5120_S64x5120 : S1x5120.Broadcasts S64x5120
  natLt_1_32 : 1 < 32
  inb_S5120x64_S5120x64_0_0 : ∀ a, (![0, 0] : Fin 2 → Nat) a + S5120x64.size a ≤ S5120x64.size a
  h_S5120x64 : 0 < S5120x64.numel
  shapeCasts_S5120x64_S5120x64 : S5120x64.ShapeCasts S5120x64
  shapeCasts_S64x64_S64x64 : S64x64.ShapeCasts S64x64
  concatenates_S5120x64_S5120x64_S5120x128_d1 : Shape.Concatenates [S5120x64, S5120x64] S5120x128 1
  inb_S5120x128_S5120x128_0_0 : ∀ a, (![0, 0] : Fin 2 → Nat) a + S5120x128.size a ≤ S5120x128.size a
  h_S5120x128 : 0 < S5120x128.numel
  concatenates_S819200x128_S819200x128_S819200x256_d1 : Shape.Concatenates [S819200x128, S819200x128] S819200x256 1
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  bcast_S_S51200x1 : S_.BroadcastsInDim S51200x1 (![] : Fin 0 → Fin S51200x1.rank)
  gather_S51200x64_S819200x1_S819200x64_1_0_n_n_0_1_164_wf : GatherDims.WF S51200x64 S819200x1 S819200x64 [1] [0] [] [0] [] 1 ![1, 64]
  gather_S51200x1_S819200x1_S819200x1_1_0_n_n_0_1_11_wf : GatherDims.WF S51200x1 S819200x1 S819200x1 [1] [0] [] [0] [] 1 ![1, 1]
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  scatter_S51200x64_S819200x1_S819200x64_1_0_0_1_wf : ScatterDims.WF S51200x64 S819200x1 S819200x64 [1] [0] [0] 1
  dot_S64x5120_S5120x64_S64x64_1_0_0_1_n_n_wf : DotDims.WF S64x5120 S5120x64 S64x64 [1] [0] [0] [1] [] []
  dot_S64x5120_S64x64_S5120x64_0_0_1_1_n_n_wf : DotDims.WF S64x5120 S64x64 S5120x64 [0] [0] [1] [1] [] []
  gather_S51200x128_S819200x1_S819200x128_1_0_n_n_0_1_1128_wf : GatherDims.WF S51200x128 S819200x1 S819200x128 [1] [0] [] [0] [] 1 ![1, 128]
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []
  scatter_S51200x1_S819200x1_S819200x1_1_0_0_1_wf : ScatterDims.WF S51200x1 S819200x1 S819200x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S819200x128.size a
  hwx0_0 : ∀ i : grid0.Coords, EltTy.bits .f32 = 32 ∨ (Rect.block (s := S819200x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S819200x1.size a
  hwx0_5 : ∀ i : grid0.Coords, EltTy.bits .f32 = 32 ∨ (Rect.block (s := S819200x1) S4096x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S819200x64.size a
  hwx0_6 : ∀ i : grid0.Coords, EltTy.bits .f32 = 32 ∨ (Rect.block (s := S819200x64) S4096x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5120.size a ≤ S1x51200.size a
  hwx1_0 : ∀ i : grid1.Coords, EltTy.bits .i32 = 32 ∨ (Rect.block (s := S1x51200) S1x5120.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x64.size a ≤ S51200x64.size a
  hwx1_1 : ∀ i : grid1.Coords, EltTy.bits .f32 = 32 ∨ (Rect.block (s := S51200x64) S5120x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5120.size a ≤ S1x51200.size a
  hwx2_0 : ∀ i : grid2.Coords, EltTy.bits .i32 = 32 ∨ (Rect.block (s := S1x51200) S1x5120.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x64.size a ≤ S51200x64.size a
  hwx2_1 : ∀ i : grid2.Coords, EltTy.bits .f32 = 32 ∨ (Rect.block (s := S51200x64) S5120x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5120x128.size a ≤ S51200x128.size a
  hwx2_3 : ∀ i : grid2.Coords, EltTy.bits .f32 = 32 ∨ (Rect.block (s := S51200x128) S5120x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S819200x256.size a
  hwx3_0 : ∀ i : grid3.Coords, EltTy.bits .f32 = 32 ∨ (Rect.block (s := S819200x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x1.size a ≤ S819200x1.size a
  hwx3_5 : ∀ i : grid3.Coords, EltTy.bits .f32 = 32 ∨ (Rect.block (s := S819200x1) S4096x1.size (cc3_transform_5 i) (hinb3_5 i)).WholeWords (EltTy.packing .f32)

variable [Facts₀]

def gather_S51200x64_S819200x1_S819200x64_1_0_n_n_0_1_164 : GatherDims S51200x64 S819200x1 S819200x64 where
  offsetDims := [1]
  collapsedSliceDims := [0]
  operandBatchingDims := []
  startIndicesBatchingDims := []
  startIndexMap := [0]
  indexVectorDim := 1
  sliceSizes := ![1, 64]
  wf := gather_S51200x64_S819200x1_S819200x64_1_0_n_n_0_1_164_wf
def gather_S51200x1_S819200x1_S819200x1_1_0_n_n_0_1_11 : GatherDims S51200x1 S819200x1 S819200x1 where
  offsetDims := [1]
  collapsedSliceDims := [0]
  operandBatchingDims := []
  startIndicesBatchingDims := []
  startIndexMap := [0]
  indexVectorDim := 1
  sliceSizes := ![1, 1]
  wf := gather_S51200x1_S819200x1_S819200x1_1_0_n_n_0_1_11_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def scatter_S51200x64_S819200x1_S819200x64_1_0_0_1 : ScatterDims S51200x64 S819200x1 S819200x64 where
  updateWindowDims := [1]
  insertedWindowDims := [0]
  scatterDimsToOperandDims := [0]
  indexVectorDim := 1
  wf := scatter_S51200x64_S819200x1_S819200x64_1_0_0_1_wf
def dot_S64x5120_S5120x64_S64x64_1_0_0_1_n_n : DotDims S64x5120 S5120x64 S64x64 where
  lhsContracting := [1]
  rhsContracting := [0]
  lhsNonContracting := [0]
  rhsNonContracting := [1]
  lhsBatch := []
  rhsBatch := []
  wf := dot_S64x5120_S5120x64_S64x64_1_0_0_1_n_n_wf
def dot_S64x5120_S64x64_S5120x64_0_0_1_1_n_n : DotDims S64x5120 S64x64 S5120x64 where
  lhsContracting := [0]
  rhsContracting := [0]
  lhsNonContracting := [1]
  rhsNonContracting := [1]
  lhsBatch := []
  rhsBatch := []
  wf := dot_S64x5120_S64x64_S5120x64_0_0_1_1_n_n_wf
def gather_S51200x128_S819200x1_S819200x128_1_0_n_n_0_1_1128 : GatherDims S51200x128 S819200x1 S819200x128 where
  offsetDims := [1]
  collapsedSliceDims := [0]
  operandBatchingDims := []
  startIndicesBatchingDims := []
  startIndexMap := [0]
  indexVectorDim := 1
  sliceSizes := ![1, 128]
  wf := gather_S51200x128_S819200x1_S819200x128_1_0_n_n_0_1_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def scatter_S51200x1_S819200x1_S819200x1_1_0_0_1 : ScatterDims S51200x1 S819200x1 S819200x1 where
  updateWindowDims := [1]
  insertedWindowDims := [0]
  scatterDimsToOperandDims := [0]
  indexVectorDim := 1
  wf := scatter_S51200x1_S819200x1_S819200x1_1_0_0_1_wf

abbrev win0_0 : Pipeline.Window sig grid0 :=
  Pipeline.Window.ofSpec (Memref.whole main_v19) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4096x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4) S1x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5120x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S64x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1x5120.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5120x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5120x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S4096x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S51200x64 : Shape := ⟨2, ![51200, 64]⟩
abbrev S51200x1 : Shape := ⟨2, ![51200, 1]⟩
abbrev S2x819200 : Shape := ⟨2, ![2, 819200]⟩
abbrev S51200 : Shape := ⟨1, ![51200]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x128 : Shape := ⟨2, ![256, 128]⟩
abbrev S128x1 : Shape := ⟨2, ![128, 1]⟩
abbrev S1 : Shape := ⟨1, ![1]⟩
abbrev S1x819200 : Shape := ⟨2, ![1, 819200]⟩
abbrev S819200 : Shape := ⟨1, ![819200]⟩
abbrev S_ : Shape := ⟨0, ![]⟩
abbrev S819200x1 : Shape := ⟨2, ![819200, 1]⟩
abbrev S819200x64 : Shape := ⟨2, ![819200, 64]⟩
abbrev S819200x128 : Shape := ⟨2, ![819200, 128]⟩
abbrev S1x128 : Shape := ⟨2, ![1, 128]⟩
abbrev S1x64 : Shape := ⟨2, ![1, 64]⟩
abbrev S64x64 : Shape := ⟨2, ![64, 64]⟩
abbrev S51200x128 : Shape := ⟨2, ![51200, 128]⟩
abbrev S819200x256 : Shape := ⟨2, ![819200, 256]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S51200x64, .f32⟩
  | .hbm, ⟨1, _⟩ => ⟨S51200x1, .f32⟩
  | .hbm, ⟨2, _⟩ => ⟨S2x819200, .i32⟩
  | .hbm, ⟨3, _⟩ => ⟨S51200, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x819200, .i32⟩
  | .hbm, ⟨13, _⟩ => ⟨S819200, .i32⟩
  | .hbm, ⟨14, _⟩ => ⟨S1x819200, .i32⟩
  | .hbm, ⟨15, _⟩ => ⟨S819200, .i32⟩
  | .hbm, ⟨16, _⟩ => ⟨S_, .i32⟩
  | .hbm, ⟨17, _⟩ => ⟨S819200, .i32⟩
  | .hbm, ⟨18, _⟩ => ⟨S819200, .i1⟩
  | .hbm, ⟨19, _⟩ => ⟨S_, .i32⟩
  | .hbm, ⟨20, _⟩ => ⟨S819200, .i32⟩
  | .hbm, ⟨21, _⟩ => ⟨S819200, .i32⟩
  | .hbm, ⟨22, _⟩ => ⟨S819200, .i32⟩
  | .hbm, ⟨23, _⟩ => ⟨S819200x1, .i32⟩
  | .hbm, ⟨24, _⟩ => ⟨S819200x64, .f32⟩
  | .hbm, ⟨25, _⟩ => ⟨S_, .i32⟩
  | .hbm, ⟨26, _⟩ => ⟨S819200, .i32⟩
  | .hbm, ⟨27, _⟩ => ⟨S819200, .i1⟩
  | .hbm, ⟨28, _⟩ => ⟨S_, .i32⟩
  | .hbm, ⟨29, _⟩ => ⟨S819200, .i32⟩
  | .hbm, ⟨30, _⟩ => ⟨S819200, .i32⟩
  | .hbm, ⟨31, _⟩ => ⟨S819200, .i32⟩
  | .hbm, ⟨32, _⟩ => ⟨S819200x1, .i32⟩
  | .hbm, ⟨33, _⟩ => ⟨S819200x64, .f32⟩
  | .hbm, ⟨34, _⟩ => ⟨S819200x128, .f32⟩
  | .hbm, ⟨35, _⟩ => ⟨S819200x128, .f32⟩
  | .hbm, ⟨36, _⟩ => ⟨S1x128, .f32⟩
  | .hbm, ⟨37, _⟩ => ⟨S819200x128, .f32⟩
  | .hbm, ⟨38, _⟩ => ⟨S819200x128, .f32⟩
  | .hbm, ⟨39, _⟩ => ⟨S_, .f32⟩
  | .hbm, ⟨40, _⟩ => ⟨S819200x128, .f32⟩
  | .hbm, ⟨41, _⟩ => ⟨S819200x128, .f32⟩
  | .hbm, ⟨42, _⟩ => ⟨S819200x64, .f32⟩
  | .hbm, ⟨43, _⟩ => ⟨S1x64, .f32⟩
  | .hbm, ⟨44, _⟩ => ⟨S819200x64, .f32⟩
  | .hbm, ⟨45, _⟩ => ⟨S819200x64, .f32⟩
  | .hbm, ⟨46, _⟩ => ⟨S_, .f32⟩
  | .hbm, ⟨47, _⟩ => ⟨S51200x64, .f32⟩
  | .hbm, ⟨48, _⟩ => ⟨S819200x1, .i32⟩
  | .hbm, ⟨49, _⟩ => ⟨S51200x64, .f32⟩
  | .hbm, ⟨50, _⟩ => ⟨S51200x64, .f32⟩
  | .hbm, ⟨51, _⟩ => ⟨S51200x64, .f32⟩
  | .hbm, ⟨52, _⟩ => ⟨S_, .f32⟩
  | .hbm, ⟨53, _⟩ => ⟨S64x64, .f32⟩
  | .hbm, ⟨54, _⟩ => ⟨S51200x1, .i32⟩
  | .hbm, ⟨55, _⟩ => ⟨S64x64, .f32⟩
  | .hbm, ⟨56, _⟩ => ⟨S_, .i32⟩
  | .hbm, ⟨57, _⟩ => ⟨S51200, .i32⟩
  | .hbm, ⟨58, _⟩ => ⟨S51200, .i1⟩
  | .hbm, ⟨59, _⟩ => ⟨S_, .i32⟩
  | .hbm, ⟨60, _⟩ => ⟨S51200, .i32⟩
  | .hbm, ⟨61, _⟩ => ⟨S51200, .i32⟩
  | .hbm, ⟨62, _⟩ => ⟨S51200, .i32⟩
  | .hbm, ⟨63, _⟩ => ⟨S51200x1, .i32⟩
  | .hbm, ⟨64, _⟩ => ⟨S51200x64, .f32⟩
  | .hbm, ⟨65, _⟩ => ⟨S51200x128, .f32⟩
  | .hbm, ⟨66, _⟩ => ⟨S1x819200, .i32⟩
  | .hbm, ⟨67, _⟩ => ⟨S819200, .i32⟩
  | .hbm, ⟨68, _⟩ => ⟨S1x819200, .i32⟩
  | .hbm, ⟨69, _⟩ => ⟨S819200, .i32⟩
  | .hbm, ⟨70, _⟩ => ⟨S_, .i32⟩
  | .hbm, ⟨71, _⟩ => ⟨S819200, .i32⟩
  | .hbm, ⟨72, _⟩ => ⟨S819200, .i1⟩
  | .hbm, ⟨73, _⟩ => ⟨S_, .i32⟩
  | .hbm, ⟨74, _⟩ => ⟨S819200, .i32⟩
  | .hbm, ⟨75, _⟩ => ⟨S819200, .i32⟩
  | .hbm, ⟨76, _⟩ => ⟨S819200, .i32⟩
  | .hbm, ⟨77, _⟩ => ⟨S819200x1, .i32⟩
  | .hbm, ⟨78, _⟩ => ⟨S819200x128, .f32⟩
  | .hbm, ⟨79, _⟩ => ⟨S_, .i32⟩
  | .hbm, ⟨80, _⟩ => ⟨S819200, .i32⟩
  | .hbm, ⟨81, _⟩ => ⟨S819200, .i1⟩
  | .hbm, ⟨82, _⟩ => ⟨S_, .i32⟩
  | .hbm, ⟨83, _⟩ => ⟨S819200, .i32⟩
  | .hbm, ⟨84, _⟩ => ⟨S819200, .i32⟩
  | .hbm, ⟨85, _⟩ => ⟨S819200, .i32⟩
  | .hbm, ⟨86, _⟩ => ⟨S819200x1, .i32⟩
  | .hbm, ⟨87, _⟩ => ⟨S819200x128, .f32⟩
  | .hbm, ⟨88, _⟩ => ⟨S819200x256, .f32⟩
  | .hbm, ⟨89, _⟩ => ⟨S819200x128, .f32⟩
  | .hbm, ⟨90, _⟩ => ⟨S1x128, .f32⟩
  | .hbm, ⟨91, _⟩ => ⟨S819200x128, .f32⟩
  | .hbm, ⟨92, _⟩ => ⟨S819200x128, .f32⟩
  | .hbm, ⟨93, _⟩ => ⟨S_, .f32⟩
  | .hbm, ⟨94, _⟩ => ⟨S819200x128, .f32⟩
  | .hbm, ⟨95, _⟩ => ⟨S819200x128, .f32⟩
  | .hbm, ⟨96, _⟩ => ⟨S819200x1, .f32⟩
  | .hbm, ⟨97, _⟩ => ⟨S1x1, .f32⟩
  | .hbm, ⟨98, _⟩ => ⟨S819200x1, .f32⟩
  | .hbm, ⟨99, _⟩ => ⟨S819200x1, .f32⟩
  | .hbm, ⟨100, _⟩ => ⟨S_, .f32⟩
  | .hbm, ⟨101, _⟩ => ⟨S51200x1, .f32⟩
  | .hbm, ⟨102, _⟩ => ⟨S819200x1, .i32⟩
  | .hbm, ⟨103, _⟩ => ⟨S51200x1, .f32⟩
  | _, _ => ⟨S51200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_cst : Ref sig .tc := ⟨.hbm, 93, rfl⟩
abbrev main_call1_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  slices_S2x819200_S1x819200_0_0 : S2x819200.Slices ![0, 0] S1x819200
  shapeCasts_S1x819200_S819200 : S1x819200.ShapeCasts S819200
  slices_S2x819200_S1x819200_1_0 : S2x819200.Slices ![1, 0] S1x819200
  bcast_S_S819200 : S_.BroadcastsInDim S819200 (![] : Fin 0 → Fin S819200.rank)
  bcast_S819200_S819200x1_0 : S819200.BroadcastsInDim S819200x1 (![0] : Fin 1 → Fin S819200x1.rank)
  concatenates_S819200x64_S819200x64_S819200x128_d1 : Shape.Concatenates [S819200x64, S819200x64] S819200x128 1
  bcast_S128_S1x128_1 : S128.BroadcastsInDim S1x128 (![1] : Fin 1 → Fin S1x128.rank)
  bcast_S1x128_S819200x128_0_1 : S1x128.BroadcastsInDim S819200x128 (![0, 1] : Fin 2 → Fin S819200x128.rank)
  bcast_S_S819200x128 : S_.BroadcastsInDim S819200x128 (![] : Fin 0 → Fin S819200x128.rank)
  bcast_S64_S1x64_1 : S64.BroadcastsInDim S1x64 (![1] : Fin 1 → Fin S1x64.rank)
  bcast_S1x64_S819200x64_0_1 : S1x64.BroadcastsInDim S819200x64 (![0, 1] : Fin 2 → Fin S819200x64.rank)
  bcast_S_S51200x64 : S_.BroadcastsInDim S51200x64 (![] : Fin 0 → Fin S51200x64.rank)
  bcast_S51200x1_S51200x64_0_1 : S51200x1.BroadcastsInDim S51200x64 (![0, 1] : Fin 2 → Fin S51200x64.rank)
  bcast_S_S64x64 : S_.BroadcastsInDim S64x64 (![] : Fin 0 → Fin S64x64.rank)
  bcast_S51200_S51200x1_0 : S51200.BroadcastsInDim S51200x1 (![0] : Fin 1 → Fin S51200x1.rank)
  bcast_S_S51200 : S_.BroadcastsInDim S51200 (![] : Fin 0 → Fin S51200.rank)
  concatenates_S51200x64_S51200x64_S51200x128_d1 : Shape.Concatenates [S51200x64, S51200x64] S51200x128 1
  concatenates_S819200x128_S819200x128_S819200x256_d1 : Shape.Concatenates [S819200x128, S819200x128] S819200x256 1
  bcast_S1_S1x1_1 : S1.BroadcastsInDim S1x1 (![1] : Fin 1 → Fin S1x1.rank)
  bcast_S1x1_S819200x1_0_1 : S1x1.BroadcastsInDim S819200x1 (![0, 1] : Fin 2 → Fin S819200x1.rank)
  bcast_S_S51200x1 : S_.BroadcastsInDim S51200x1 (![] : Fin 0 → Fin S51200x1.rank)
  gather_S51200x64_S819200x1_S819200x64_1_0_n_n_0_1_164_wf : GatherDims.WF S51200x64 S819200x1 S819200x64 [1] [0] [] [0] [] 1 ![1, 64]
  dot_S819200x128_S128x128_S819200x128_1_0_0_1_n_n_wf : DotDims.WF S819200x128 S128x128 S819200x128 [1] [0] [0] [1] [] []
  dot_S819200x128_S128x64_S819200x64_1_0_0_1_n_n_wf : DotDims.WF S819200x128 S128x64 S819200x64 [1] [0] [0] [1] [] []
  scatter_S51200x64_S819200x1_S819200x64_1_0_0_1_wf : ScatterDims.WF S51200x64 S819200x1 S819200x64 [1] [0] [0] 1
  scatter_S64x64_S51200x1_S51200x64_1_0_0_1_wf : ScatterDims.WF S64x64 S51200x1 S51200x64 [1] [0] [0] 1
  gather_S64x64_S51200x1_S51200x64_1_0_n_n_0_1_164_wf : GatherDims.WF S64x64 S51200x1 S51200x64 [1] [0] [] [0] [] 1 ![1, 64]
  gather_S51200x128_S819200x1_S819200x128_1_0_n_n_0_1_1128_wf : GatherDims.WF S51200x128 S819200x1 S819200x128 [1] [0] [] [0] [] 1 ![1, 128]
  dot_S819200x256_S256x128_S819200x128_1_0_0_1_n_n_wf : DotDims.WF S819200x256 S256x128 S819200x128 [1] [0] [0] [1] [] []
  dot_S819200x128_S128x1_S819200x1_1_0_0_1_n_n_wf : DotDims.WF S819200x128 S128x1 S819200x1 [1] [0] [0] [1] [] []
  scatter_S51200x1_S819200x1_S819200x1_1_0_0_1_wf : ScatterDims.WF S51200x1 S819200x1 S819200x1 [1] [0] [0] 1

variable [Facts₀]

def gather_S51200x64_S819200x1_S819200x64_1_0_n_n_0_1_164 : GatherDims S51200x64 S819200x1 S819200x64 where
  offsetDims := [1]
  collapsedSliceDims := [0]
  operandBatchingDims := []
  startIndicesBatchingDims := []
  startIndexMap := [0]
  indexVectorDim := 1
  sliceSizes := ![1, 64]
  wf := gather_S51200x64_S819200x1_S819200x64_1_0_n_n_0_1_164_wf
def dot_S819200x128_S128x128_S819200x128_1_0_0_1_n_n : DotDims S819200x128 S128x128 S819200x128 where
  lhsContracting := [1]
  rhsContracting := [0]
  lhsNonContracting := [0]
  rhsNonContracting := [1]
  lhsBatch := []
  rhsBatch := []
  wf := dot_S819200x128_S128x128_S819200x128_1_0_0_1_n_n_wf
def dot_S819200x128_S128x64_S819200x64_1_0_0_1_n_n : DotDims S819200x128 S128x64 S819200x64 where
  lhsContracting := [1]
  rhsContracting := [0]
  lhsNonContracting := [0]
  rhsNonContracting := [1]
  lhsBatch := []
  rhsBatch := []
  wf := dot_S819200x128_S128x64_S819200x64_1_0_0_1_n_n_wf
def scatter_S51200x64_S819200x1_S819200x64_1_0_0_1 : ScatterDims S51200x64 S819200x1 S819200x64 where
  updateWindowDims := [1]
  insertedWindowDims := [0]
  scatterDimsToOperandDims := [0]
  indexVectorDim := 1
  wf := scatter_S51200x64_S819200x1_S819200x64_1_0_0_1_wf
def scatter_S64x64_S51200x1_S51200x64_1_0_0_1 : ScatterDims S64x64 S51200x1 S51200x64 where
  updateWindowDims := [1]
  insertedWindowDims := [0]
  scatterDimsToOperandDims := [0]
  indexVectorDim := 1
  wf := scatter_S64x64_S51200x1_S51200x64_1_0_0_1_wf
def gather_S64x64_S51200x1_S51200x64_1_0_n_n_0_1_164 : GatherDims S64x64 S51200x1 S51200x64 where
  offsetDims := [1]
  collapsedSliceDims := [0]
  operandBatchingDims := []
  startIndicesBatchingDims := []
  startIndexMap := [0]
  indexVectorDim := 1
  sliceSizes := ![1, 64]
  wf := gather_S64x64_S51200x1_S51200x64_1_0_n_n_0_1_164_wf
def gather_S51200x128_S819200x1_S819200x128_1_0_n_n_0_1_1128 : GatherDims S51200x128 S819200x1 S819200x128 where
  offsetDims := [1]
  collapsedSliceDims := [0]
  operandBatchingDims := []
  startIndicesBatchingDims := []
  startIndexMap := [0]
  indexVectorDim := 1
  sliceSizes := ![1, 128]
  wf := gather_S51200x128_S819200x1_S819200x128_1_0_n_n_0_1_1128_wf
def dot_S819200x256_S256x128_S819200x128_1_0_0_1_n_n : DotDims S819200x256 S256x128 S819200x128 where
  lhsContracting := [1]
  rhsContracting := [0]
  lhsNonContracting := [0]
  rhsNonContracting := [1]
  lhsBatch := []
  rhsBatch := []
  wf := dot_S819200x256_S256x128_S819200x128_1_0_0_1_n_n_wf
def dot_S819200x128_S128x1_S819200x1_1_0_0_1_n_n : DotDims S819200x128 S128x1 S819200x1 where
  lhsContracting := [1]
  rhsContracting := [0]
  lhsNonContracting := [0]
  rhsNonContracting := [1]
  lhsBatch := []
  rhsBatch := []
  wf := dot_S819200x128_S128x1_S819200x1_1_0_0_1_n_n_wf
def scatter_S51200x1_S819200x1_S819200x1_1_0_0_1 : ScatterDims S51200x1 S819200x1 S819200x1 where
  updateWindowDims := [1]
  insertedWindowDims := [0]
  scatterDimsToOperandDims := [0]
  indexVectorDim := 1
  wf := scatter_S51200x1_S819200x1_S819200x1_1_0_0_1_wf

class Facts : Prop extends Facts₀ where

variable [Facts]
-- ==== Proof.Spec.lean ====
/-
  The mathematics both programs compute, stated once over the extended reals, with no program in sight.

  Nodes i < N = 51200 carry features x[i, 0:64] and a weight e[i, 0]; edges k < E = 819200 have a destination
  node and a source node, given as index arrays (one 32-bit word per edge; a word is read as a signed integer).
  A row GATHER reads, for every row of an index array, the operand's row at that index clamped into range; a row
  SCATTER-ADD adds every update row onto the operand's row its index names, and drops the update when the index
  names no row. An edge perceptron is  relu(h · W1 + b1) · W2 + b2  on every row.

  The reference: g[i] = e[i] · Σ_{dst k = i} mlp(h_k);  pooled[b] = Σ_{batch i = b} g[i];  xl = [x | pooled[batch]];
  w[i] = Σ_{dst k = i} mlp'(hl_k).   The kernel weights each edge message by e[dst k] BEFORE the sum, pools by a
  product with a one-hot matrix of the graph labels, and reads pooled rows back by the transposed product.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns, and a vector. -/
abbrev Arr2 (a b : Nat) : Type := (⟨2, ![a, b]⟩ : Shape).Idx → EReal
abbrev Arr1 (a : Nat) : Type := (⟨1, ![a]⟩ : Shape).Idx → EReal
/-- A column of 32-bit words, one per row. -/
abbrev IdxCol (r : Nat) : Type := (⟨2, ![r, 1]⟩ : Shape).Idx → BitVec 32

/-- The row and the column of a matrix index, as plain bounded numbers. -/
abbrev r0 {a b : Nat} (y : (⟨2, ![a, b]⟩ : Shape).Idx) : Fin a := ⟨(y 0).val, idx2_lt0 y⟩
abbrev r1 {a b : Nat} (y : (⟨2, ![a, b]⟩ : Shape).Idx) : Fin b := ⟨(y 1).val, idx2_lt1 y⟩

/-- A negative index counts from the end: `v + n` when `v < 0` (as a signed word), else `v`. -/
def wrapN (n : Nat) (v : BitVec 32) : BitVec 32 := if v.toInt < 0 then v + BitVec.ofNat 32 n else v

/-- Row `clamp(idx[r])` of `x` in row `r`. -/
def rowGather {N C R : Nat} (hN : 0 < N) (x : Arr2 N C) (idx : IdxCol R) : Arr2 R C :=
  fun y => x (ix2 ⟨min (idx (ix2 (r0 y) 0)).toInt.toNat (N - 1), by omega⟩ (r1 y))

/-- What a scatter-add of the rows of `u` at the indices `idx` ADDS to entry `y` of an `N`-row operand: the sum of
    the entries `u[k, col y]` over the rows `k` whose index is `row y`. -/
def rowScatterSum {N C R : Nat} (idx : IdxCol R) (u : Arr2 R C) : Arr2 N C :=
  fun y => ∑ k : Fin R, if (idx (ix2 k 0)).toInt = ((r0 y).val : Int) then u (ix2 k (r1 y)) else 0

/-- Two matrices side by side. -/
def catCols {R A B : Nat} (C : Nat) (a : Arr2 R A) (b : Arr2 R B) : Arr2 R C :=
  fun y => if h : (r1 y).val < A then a (ix2 (r0 y) ⟨(r1 y).val, h⟩)
    else if h' : (r1 y).val - A < B then b (ix2 (r0 y) ⟨(r1 y).val - A, h'⟩) else 0

/-- The two-layer perceptron's entry `(k, j)`:  Σ_b relu(Σ_a h[k,a]·W1[a,b] + b1[b]) · W2[b,j]  +  b2[j]. -/
def mlpAt {R Din Dh Dout : Nat} (h : Arr2 R Din) (W1 : Arr2 Din Dh) (b1 : Arr1 Dh) (W2 : Arr2 Dh Dout) (b2 : Arr1 Dout)
    (k : Fin R) (j : Fin Dout) : EReal :=
  (∑ b : Fin Dh, max ((∑ a : Fin Din, h (ix2 k a) * W1 (ix2 a b)) + b1 (ix1 b)) 0 * W2 (ix2 b j)) + b2 (ix1 j)

def mlp {R Din Dh Dout : Nat} (h : Arr2 R Din) (W1 : Arr2 Din Dh) (b1 : Arr1 Dh) (W2 : Arr2 Dh Dout) (b2 : Arr1 Dout) :
    Arr2 R Dout := fun y => mlpAt h W1 b1 W2 b2 (r0 y) (r1 y)

/-- Entry `(b, i)` of the one-hot matrix of the labels: 1 where node `i`'s label is `b`, else 0. -/
def onehot (b : Nat) (v : BitVec 32) : EReal := if BitVec.ofNat 32 b = v then 1 else 0

/-- Pooling by the one-hot product: `Σ_i onehot[b, i] · g[i, j]`. -/
def poolOH {N G : Nat} (nb : Nat) (bt : Fin N → BitVec 32) (g : Arr2 N G) : Arr2 nb G :=
  fun y => ∑ i : Fin N, onehot (r0 y).val (bt i) * g (ix2 i (r1 y))

/-- Reading pooled rows back by the transposed product: `Σ_b onehot[b, i] · p[b, j]`. -/
def backOH {N G nb : Nat} (bt : Fin N → BitVec 32) (p : Arr2 nb G) : Arr2 N G :=
  fun y => ∑ b : Fin nb, onehot b.val (bt (r0 y)) * p (ix2 b (r1 y))

/-- The edge list's two rows as index columns: row 1 holds the destinations, row 0 the sources. -/
def dstCol (ei : (⟨2, ![2, 819200]⟩ : Shape).Idx → BitVec 32) : IdxCol 819200 := fun y => ei (ix2 1 (r0 y))
def srcCol (ei : (⟨2, ![2, 819200]⟩ : Shape).Idx → BitVec 32) : IdxCol 819200 := fun y => ei (ix2 0 (r0 y))
/-- An index column with its negative entries wrapped. -/
def wrapCol {R : Nat} (n : Nat) (v : IdxCol R) : IdxCol R := fun y => wrapN n (v y)

/-- The one coordinate of a vector index, as a plain bounded number. -/
abbrev c0 {a : Nat} (j : (⟨1, ![a]⟩ : Shape).Idx) : Fin a := ⟨(j 0).val, (j 0).isLt⟩
/-- A one-row matrix read as a vector, and a one-row matrix of words read as a function of the column. -/
def row1 {a : Nat} (v : Arr2 1 a) : Arr1 a := fun j => v (ix2 0 (c0 j))
def lab {n : Nat} (v : (⟨2, ![1, n]⟩ : Shape).Idx → BitVec 32) : Fin n → BitVec 32 := fun i => v (ix2 0 i)

/-- An extended real that is a real number. -/
def IsReal (v : EReal) : Prop := ∃ r : ℝ, v = (r : EReal)

/-! ## The two programs' results, as functions of the inputs

`D` holds each edge's destination as given (the scatter index); `Dw`, `Sw` the destinations and sources with
negative ones wrapped (the gather indices); `bt` the graph label of each node. -/

section
variable (x : Arr2 51200 64) (e : Arr2 51200 1) (D Dw Sw : IdxCol 819200) (bt : Fin 51200 → BitVec 32)
  (gW1 : Arr2 128 128) (gb1 : Arr1 128) (gW2 : Arr2 128 64) (gb2 : Arr1 64)
  (lW1 : Arr2 256 128) (lb1 : Arr1 128) (lW2 : Arr2 128 1) (lb2 : Arr1 1)

/-- The edge inputs `[x[dst] | x[src]]`. -/
def edgeIn : Arr2 819200 128 := catCols 128 (rowGather (by decide) x Dw) (rowGather (by decide) x Sw)

/-- The reference's node sums, weighted after the sum. -/
def gRef : Arr2 51200 64 := fun y => e (ix2 (r0 y) 0) * (0 + rowScatterSum D (mlp (edgeIn x Dw Sw) gW1 gb1 gW2 gb2) y)
/-- The kernel's node sums, each message weighted by its destination's weight before the sum. -/
def gKer : Arr2 51200 64 := fun y => 0 + rowScatterSum D
  (fun u => mlpAt (edgeIn x Dw Sw) gW1 gb1 gW2 gb2 (r0 u) (r1 u) * rowGather (by decide) e Dw (ix2 (r0 u) 0)) y

/-- The reference's pooled sums (a scatter-add at the labels) and the rows it reads back (a gather at the wrapped labels). -/
def pRef : Arr2 64 64 := fun y => 0 + rowScatterSum (fun u => bt (r0 u)) (gRef x e D Dw Sw gW1 gb1 gW2 gb2) y
def scRef : Arr2 51200 64 := rowGather (by decide) (pRef x e D Dw Sw bt gW1 gb1 gW2 gb2) (fun u => wrapN 64 (bt (r0 u)))
/-- The kernel's pooled sums and read-back, by the one-hot products. -/
def pKer : Arr2 64 64 := poolOH 64 bt (gKer x e D Dw Sw gW1 gb1 gW2 gb2)
def scKer : Arr2 51200 64 := backOH bt (pKer x e D Dw Sw bt gW1 gb1 gW2 gb2)

/-- The second perceptron over `[xl[dst] | xl[src]]`, `xl = [x | sc]`, summed onto the destinations. -/
def outOf (sc : Arr2 51200 64) : Arr2 51200 1 :=
  fun y => 0 + rowScatterSum D (mlp (catCols 256 (rowGather (by decide) (catCols 128 x sc) Dw)
    (rowGather (by decide) (catCols (B := 64) 128 x sc) Sw)) lW1 lb1 lW2 lb2) y

def RSpec : Arr2 51200 1 := outOf x D Dw Sw lW1 lb1 lW2 lb2 (scRef x e D Dw Sw bt gW1 gb1 gW2 gb2)
def KSpec : Arr2 51200 1 := outOf x D Dw Sw lW1 lb1 lW2 lb2 (scKer x e D Dw Sw bt gW1 gb1 gW2 gb2)

end

end Cert.Spec

end
-- ==== Proof.Reg0Value.lean ====
import proofs.«431037_j76441827934550_1_alg».proof.Proof.KernelIdealFrameP
import proofs.«431037_j76441827934550_1_alg».proof.Proof.Spec
import Idealize.ShloMosaic.PureOps.Ideal.Laws
import Idealize.ShloMosaic.Lib.Pipeline.Value

set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec

namespace R0

/-! ## The perceptron's two matrix products at an entry -/

theorem lhs_dotA_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_dotA_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_dotA_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_dotA_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The first product (a block of rows times the first weight matrix, accumulated into zero) at an entry: the sum over
    the 128 inner coordinates. -/
theorem dotA_apply (x : FVec Ideal S4096x128 .bf16) (w : FVec Ideal S128x128 .bf16) (p : Fin 4096) (b : Fin 128) :
    matmul dot_S4096x128_S128x128_S4096x128_1_0_0_1_n_n none x w (constant (F := Ideal) S4096x128 .f32 0x00000000#32) (ix2 p b)
      = ∑ a : Fin 128, x (ix2 p a) * w (ix2 a b) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p b) ((ValueIdx.contrEquiv1 dot_S4096x128_S128x128_S4096x128_1_0_0_1_n_n 128 rfl rfl).symm k) = ix2 p k := funext fun a => Fin.ext (by
    match a with
    | ⟨0, _⟩ => exact lhs_dotA_0 _ _
    | ⟨1, _⟩ => exact (lhs_dotA_1 _ _).trans hk)
  have er : dot_S4096x128_S128x128_S4096x128_1_0_0_1_n_n.rhsIdx (ix2 p b) ((ValueIdx.contrEquiv1 dot_S4096x128_S128x128_S4096x128_1_0_0_1_n_n 128 rfl rfl).symm k) = ix2 k b := funext fun a => Fin.ext (by
    match a with
    | ⟨0, _⟩ => exact (rhs_dotA_0 _ _).trans hk
    | ⟨1, _⟩ => exact rhs_dotA_1 _ _)
  rw [el, er]

theorem lhs_dotB_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs_dotB_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs_dotB_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs_dotB_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The second product (the hidden rows times the second weight matrix, accumulated into zero) at an entry. -/
theorem dotB_apply (x : FVec Ideal S4096x128 .bf16) (w : FVec Ideal S128x64 .bf16) (p : Fin 4096) (b : Fin 64) :
    matmul dot_S4096x128_S128x64_S4096x64_1_0_0_1_n_n none x w (constant (F := Ideal) S4096x64 .f32 0x00000000#32) (ix2 p b)
      = ∑ a : Fin 128, x (ix2 p a) * w (ix2 a b) := by
  simp only [matmul]
  rw [Ideal.matmul_constant_zero_apply, ← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ix2 p b) ((ValueIdx.contrEquiv1 dot_S4096x128_S128x64_S4096x64_1_0_0_1_n_n 128 rfl rfl).symm k) = ix2 p k := funext fun a => Fin.ext (by
    match a with
    | ⟨0, _⟩ => exact lhs_dotB_0 _ _
    | ⟨1, _⟩ => exact (lhs_dotB_1 _ _).trans hk)
  have er : dot_S4096x128_S128x64_S4096x64_1_0_0_1_n_n.rhsIdx (ix2 p b) ((ValueIdx.contrEquiv1 dot_S4096x128_S128x64_S4096x64_1_0_0_1_n_n 128 rfl rfl).symm k) = ix2 k b := funext fun a => Fin.ext (by
    match a with
    | ⟨0, _⟩ => exact (rhs_dotB_0 _ _).trans hk
    | ⟨1, _⟩ => exact rhs_dotB_1 _ _)
  rw [el, er]

/-! ## The broadcasts at an entry -/

/-- A one-row matrix spread over 4096 rows reads its entry in the same column. -/
theorem rowsA_apply {α : Type} (v : S1x128.Idx → α) (p : Fin 4096) (b : Fin 128) :
    broadcastTo S4096x128 v broadcasts_S1x128_S4096x128 (ix2 p b) = v (ix2 0 b) :=
  broadcastTo_apply v _ _ (ix2 0 b) fun a => by
    match a with
    | ⟨0, _⟩ => rfl
    | ⟨1, _⟩ => rfl
theorem rowsB_apply {α : Type} (v : S1x64.Idx → α) (p : Fin 4096) (q : Fin 64) :
    broadcastTo S4096x64 v broadcasts_S1x64_S4096x64 (ix2 p q) = v (ix2 0 q) :=
  broadcastTo_apply v _ _ (ix2 0 q) fun a => by
    match a with
    | ⟨0, _⟩ => rfl
    | ⟨1, _⟩ => rfl
/-- A one-column matrix spread over 64 columns reads its entry in the same row. -/
theorem cols_apply {α : Type} (v : S4096x1.Idx → α) (p : Fin 4096) (q : Fin 64) :
    broadcastTo S4096x64 v broadcasts_S4096x1_S4096x64 (ix2 p q) = v (ix2 p 0) :=
  broadcastTo_apply v _ _ (ix2 p 0) fun a => by
    match a with
    | ⟨0, _⟩ => rfl
    | ⟨1, _⟩ => rfl

/-! ## The body's arithmetic at an entry -/

/-- The body's result at entry (p, q) of a block: the two-layer perceptron of row p of the block of inputs, at
    column q, times the weight of row p. -/
theorem pay_apply (x0 : Vec Ideal S4096x128 .f32) (x1 : Vec Ideal S128x128 .f32) (x3 : Vec Ideal S128x64 .f32)
    (x2 : Vec Ideal S1x128 .f32) (x4 : Vec Ideal S1x64 .f32) (x5 : Vec Ideal S4096x1 .f32) (p : Fin 4096) (q : Fin 64) :
    k0_pay1 (F := Ideal) x0 x1 x3 x2 x4 x5 (ix2 p q)
      = mlpAt (x0 : Arr2 4096 128) (x1 : Arr2 128 128) (row1 (x2 : Arr2 1 128)) (x3 : Arr2 128 64) (row1 (x4 : Arr2 1 64)) p q
          * (x5 : Arr2 4096 1) (ix2 p 0) := by
  unfold k0_pay1
  simp only [shapeCast_self]
  rw [mulf_apply, addf_apply, dotB_apply, rowsB_apply, cols_apply]
  unfold mlpAt
  refine congrArg (· * _) (congrArg₂ (· + ·) (Finset.sum_congr rfl fun b _ => ?_) rfl)
  rw [truncf_apply, truncf_apply, maximumf_apply, addf_apply, dotA_apply, rowsA_apply, broadcast_apply]
  refine congrArg₂ (· * ·) (congrArg₂ max (congrArg₂ (· + ·) (Finset.sum_congr rfl fun a _ => ?_) rfl) Ideal.ofBits_zero_f32) rfl
  rw [truncf_apply, truncf_apply]

/-! ## The blocks the body reads and writes, as parts of the arrays -/

theorem zero2 : (![0, 0] : Fin 2 → Nat) = fun _ => 0 := funext fun a => by fin_cases a <;> rfl

/-- The printed index maps, decided once over the 200 points: the blocks of edge rows (the inputs, the edge weights,
    the output) step with the point; the weights and biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's block is row 4096 t + p of the array. -/
theorem row_lt (t : Fin cfg0.N) (p : Fin 4096) : t.val * 4096 + p.val < 819200 := by
  have h1 := t.isLt
  have h2 : cfg0.N = 200 := N_0
  have h3 := p.isLt
  omega

section
variable (V : (c : Dev nD) → (b : Ref sig .tc) → Buf (Elt Ideal) ((c : Thread nD τ).loc b)) (c : Dev nD)

/-- The block of inputs at point t: rows 4096 t … of the edge inputs. -/
theorem blk0_apply (t : Fin cfg0.N) (p : Fin 4096) (a : Fin 128) :
    (iblk0 (F := Ideal) V c 0 t : Arr2 4096 128) (ix2 p a) = (V c main_v19 : Arr2 819200 128) (ix2 ⟨t.val * 4096 + p.val, row_lt t p⟩ a) := by
  obtain ⟨e0, e1, -⟩ := idx_facts t
  unfold iblk0
  rw [View.read_apply]
  show V c main_v19 _ = V c main_v19 _
  congr 1
  funext d
  apply Fin.ext
  match d with
  | ⟨0, _⟩ => show win0_0.index t (0 : Fin 2) * 4096 + 1 * p.val = t.val * 4096 + p.val; omega
  | ⟨1, _⟩ => show win0_0.index t (1 : Fin 2) * 128 + 1 * a.val = a.val; omega

/-- The first weight matrix's block is the matrix, at every point. -/
theorem blk1_apply (t : Fin cfg0.N) (a : Fin 128) (b : Fin 128) :
    (iblk0 (F := Ideal) V c 1 t : Arr2 128 128) (ix2 a b) = (V c main_arg4 : Arr2 128 128) (ix2 a b) := by
  obtain ⟨-, -, e0, e1, -⟩ := idx_facts t
  unfold iblk0
  rw [View.read_apply]
  show V c main_arg4 _ = V c main_arg4 _
  congr 1
  funext d
  apply Fin.ext
  match d with
  | ⟨0, _⟩ => show win0_1.index t (0 : Fin 2) * 128 + 1 * a.val = a.val; omega
  | ⟨1, _⟩ => show win0_1.index t (1 : Fin 2) * 128 + 1 * b.val = b.val; omega

/-- The first bias's block is the bias row. -/
theorem blk2_apply (t : Fin cfg0.N) (z : Fin 1) (b : Fin 128) :
    (iblk0 (F := Ideal) V c 2 t : Arr2 1 128) (ix2 z b) = (V c main_v27 : Arr2 1 128) (ix2 z b) := by
  obtain ⟨-, -, -, -, e0, e1, -⟩ := idx_facts t
  unfold iblk0
  rw [View.read_apply]
  show V c main_v27 _ = V c main_v27 _
  congr 1
  funext d
  apply Fin.ext
  match d with
  | ⟨0, _⟩ => show win0_2.index t (0 : Fin 2) * 1 + 1 * z.val = z.val; omega
  | ⟨1, _⟩ => show win0_2.index t (1 : Fin 2) * 128 + 1 * b.val = b.val; omega

/-- The second weight matrix's block is the matrix. -/
theorem blk3_apply (t : Fin cfg0.N) (b : Fin 128) (q : Fin 64) :
    (iblk0 (F := Ideal) V c 3 t : Arr2 128 64) (ix2 b q) = (V c main_arg6 : Arr2 128 64) (ix2 b q) := by
  obtain ⟨-, -, -, -, -, -, e0, e1, -⟩ := idx_facts t
  unfold iblk0
  rw [View.read_apply]
  show V c main_arg6 _ = V c main_arg6 _
  congr 1
  funext d
  apply Fin.ext
  match d with
  | ⟨0, _⟩ => show win0_3.index t (0 : Fin 2) * 128 + 1 * b.val = b.val; omega
  | ⟨1, _⟩ => show win0_3.index t (1 : Fin 2) * 64 + 1 * q.val = q.val; omega

/-- The second bias's block is the bias row. -/
theorem blk4_apply (t : Fin cfg0.N) (z : Fin 1) (q : Fin 64) :
    (iblk0 (F := Ideal) V c 4 t : Arr2 1 64) (ix2 z q) = (V c main_v28 : Arr2 1 64) (ix2 z q) := by
  obtain ⟨-, -, -, -, -, -, -, -, e0, e1, -⟩ := idx_facts t
  unfold iblk0
  rw [View.read_apply]
  show V c main_v28 _ = V c main_v28 _
  congr 1
  funext d
  apply Fin.ext
  match d with
  | ⟨0, _⟩ => show win0_4.index t (0 : Fin 2) * 1 + 1 * z.val = z.val; omega
  | ⟨1, _⟩ => show win0_4.index t (1 : Fin 2) * 64 + 1 * q.val = q.val; omega

/-- The block of edge weights at point t: rows 4096 t … of the weights' column. -/
theorem blk5_apply (t : Fin cfg0.N) (p : Fin 4096) (z : Fin 1) :
    (iblk0 (F := Ideal) V c 5 t : Arr2 4096 1) (ix2 p z) = (V c main_v26 : Arr2 819200 1) (ix2 ⟨t.val * 4096 + p.val, row_lt t p⟩ z) := by
  obtain ⟨-, -, -, -, -, -, -, -, -, -, e0, e1, -⟩ := idx_facts t
  unfold iblk0
  rw [View.read_apply]
  show V c main_v26 _ = V c main_v26 _
  congr 1
  funext d
  apply Fin.ext
  match d with
  | ⟨0, _⟩ => show win0_5.index t (0 : Fin 2) * 4096 + 1 * p.val = t.val * 4096 + p.val; omega
  | ⟨1, _⟩ => show win0_5.index t (1 : Fin 2) * 1 + 1 * z.val = z.val; omega

/-- A block written back at point t is rows 4096 t … of an array G as soon as its entries are G's there. -/
theorem cut_eq_read (t : Fin cfg0.N) (X : Vec Ideal S4096x64 .f32) (G : Arr2 819200 64)
    (h : ∀ (p : Fin 4096) (q : Fin 64), X (ix2 p q) = G (ix2 ⟨t.val * 4096 + p.val, row_lt t p⟩ q)) :
    (cfg0.win 6).cut (grid0.coords t) X = ((cfg0.win 6).blk t).view.read (Elt Ideal) G := by
  obtain ⟨-, -, -, -, -, -, -, -, -, -, -, -, e0, e1⟩ := idx_facts t
  refine funext fun (j : S4096x64.Idx) => ?_
  obtain ⟨p, q, rfl⟩ : ∃ (p : Fin 4096) (q : Fin 64), j = ix2 p q := ⟨j 0, j 1, eq_ix2 j⟩
  show X (ix2 p q) = G (((cfg0.win 6).blk t).view.emb (ix2 p q))
  rw [h p q]
  congr 1
  funext d
  apply Fin.ext
  match d with
  | ⟨0, _⟩ => show t.val * 4096 + p.val = win0_6.index t (0 : Fin 2) * 4096 + 1 * p.val; omega
  | ⟨1, _⟩ => show q.val = win0_6.index t (1 : Fin 2) * 64 + 1 * q.val; omega

/-! ## The region's output array -/

/-- What the output array ends holding: every edge's message, weighted. -/
abbrev G0 : Arr2 819200 64 := fun y =>
  mlpAt (V c main_v19) (V c main_arg4) (row1 (V c main_v27)) (V c main_arg6) (row1 (V c main_v28)) (r0 y) (r1 y)
    * (V c main_v26 : Arr2 819200 1) (ix2 (r0 y) 0)

/-- What point t writes back is rows 4096 t … of that array. -/
theorem flushed_eq (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero zero2]
  simp only [View.ld_unit_zero (S := S4096x128) zero2, View.ld_unit_zero (S := S128x128) zero2, View.ld_unit_zero (S := S128x64) zero2,
    View.ld_unit_zero (S := S1x128) zero2, View.ld_unit_zero (S := S1x64) zero2, View.ld_unit_zero (S := S4096x1) zero2]
  refine cut_eq_read t _ _ fun p q => ?_
  rw [pay_apply]
  show mlpAt _ _ _ _ _ p q * _ = mlpAt _ _ _ _ _ ⟨t.val * 4096 + p.val, _⟩ q * (V c main_v26 : Arr2 819200 1) (ix2 ⟨t.val * 4096 + p.val, _⟩ 0)
  unfold mlpAt row1
  simp only [blk0_apply, blk1_apply, blk2_apply, blk3_apply, blk4_apply, blk5_apply]

end

/-- An index of the output array is in point t's block iff each coordinate is in the block's range on its axis. -/
theorem mem_blk (t : Fin cfg0.N) (i : S819200x64.Idx) :
    i ∈ ((cfg0.win 6).blk t).view.set ↔ ∀ a : Fin 2, win0_6.index t a * S4096x64.size a ≤ (i a).val
      ∧ (i a).val < win0_6.index t a * S4096x64.size a + S4096x64.size a := by
  show i ∈ ((View.whole main_v29).slice (win0_6.rect t)).set ↔ _
  rw [View.set_slice_whole, Rect.mem_set_unit]
  exact Iff.rfl

/-- The blocks cover the array: row r lies in the block of point r / 4096. -/
theorem cover (i : S819200x64.Idx) :
    ∃ t : Fin cfg0.N, (cfg0.win 6).flush t = true ∧ i ∈ ((cfg0.win 6).blk t).view.set := by
  have hi0 : (i 0).val < 819200 := (i 0).isLt
  have hi1 : (i 1).val < 64 := (i 1).isLt
  have hN : cfg0.N = 200 := N_0
  obtain ⟨t, ht⟩ : ∃ t : Fin cfg0.N, t.val = (i 0).val / 4096 := ⟨⟨(i 0).val / 4096, by omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 4096 ≤ (i 0).val ∧ (i 0).val < win0_6.index t (0 : Fin 2) * 4096 + 4096
    omega
  | ⟨1, _⟩ =>
    show win0_6.index t (1 : Fin 2) * 64 ≤ (i 1).val ∧ (i 1).val < win0_6.index t (1 : Fin 2) * 64 + 64
    omega

end R0

open R0 in
/-- Region 0 (the weighted edge perceptron, 200 blocks of 4096 edges): its output array after the region, as one
    function of the arrays the region finds. -/
theorem arr0 (V : (c : Dev nD) → (b : Ref sig .tc) → Buf (Elt Ideal) ((c : Thread nD τ).loc b)) (c : Dev nD) :
    ((dat0 (F := Ideal) V c).arrAt 6 cfg0.N : Arr2 819200 64) =
      fun y => mlpAt (V c main_v19) (V c main_arg4) (row1 (V c main_v27)) (V c main_arg6) (row1 (V c main_v28)) (r0 y) (r1 y)
        * (V c main_v26 : Arr2 819200 1) (ix2 (r0 y) 0) :=
  (dat0 (F := Ideal) V c).arrAt_eq_of_cover 6 (G0 V c) (fun t _ => flushed_eq V c t) cover

end Cert.KernelIdeal.KV

end
-- ==== Proof.Reg1Value.lean ====
import proofs.«431037_j76441827934550_1_alg».proof.Proof.KernelIdealFrameP
import proofs.«431037_j76441827934550_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec
open Idealize.ShloMosaic.Pipeline (Dat)

namespace R1

section AnyF
variable {F : FTy → Type} [FloatOps F]

theorem hz : (![0, 0] : Fin 2 → Nat) = fun _ => 0 := funext fun a => by fin_cases a <;> rfl

/-- At a later block the body leaves acc + onehot(labels block) · (g block), acc being what the buffer held. -/
theorem out_B (c : Dev nD) (i : grid1.Coords) (a1 : Memref sig .tc .vmem S1x5120 .i32) (h1 : a1.IsWhole)
    (a2 : Memref sig .tc .vmem S5120x64 .f32) (h2 : a2.IsWhole) (a3 : Memref sig .tc .vmem S64x64 .f32) (h3 : a3.IsWhole)
    (hc : ¬cond1_0 i) (x0 : Vec F S1x5120 .i32) (x1 : Vec F S5120x64 .f32) (xo : Vec F S64x64 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  simp only [View.readAt_eq_ld, h1.read_unread, h2.read_unread, h3.read_unread, View.ld_unit_zero (S := S1x5120) hz,
    View.ld_unit_zero (S := S5120x64) hz, View.ld_unit_zero (S := S64x64) hz]

/-- At the first block the body zeroes the buffer, reads the zeros back and leaves 0 + onehot(labels block) · (g block). -/
theorem out_A (c : Dev nD) (i : grid1.Coords) (a1 : Memref sig .tc .vmem S1x5120 .i32) (h1 : a1.IsWhole)
    (a2 : Memref sig .tc .vmem S5120x64 .f32) (h2 : a2.IsWhole) (a3 : Memref sig .tc .vmem S64x64 .f32) (h3 : a3.IsWhole)
    (hc : cond1_0 i) (x0 : Vec F S1x5120 .i32) (x1 : Vec F S5120x64 .f32) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S64x64) hz, View.readCov_unit_zero (S := S64x64) _ hz]
  simp only [View.readAt_eq_ld, h1.read_unread, h2.read_unread, View.ld_unit_zero (S := S1x5120) hz,
    View.ld_unit_zero (S := S5120x64) hz]

end AnyF

/-! ## The payload at an entry, over the extended reals -/

/-- "row number = label", widened and converted, is the one-hot entry: 1 where they agree, else 0. -/
theorem onehot_word (b : Nat) (w : BitVec 32) :
    FloatOps.sitofp (F := Ideal) .f32 ((IntOp.cmpi .eq (BitVec.ofNat 32 b) w).setWidth 32) = onehot b w := by
  show ((((BitVec.ofBool (BitVec.ofNat 32 b == w)).setWidth 32).toInt : ℝ) : EReal) = _
  unfold onehot
  by_cases h : BitVec.ofNat 32 b = w
  · have e : (BitVec.ofNat 32 b == w) = true := by simpa using h
    have e1 : ((BitVec.ofBool true).setWidth 32).toInt = 1 := by decide
    rw [e, if_pos h, e1]; simp
  · have e : (BitVec.ofNat 32 b == w) = false := by simpa using h
    have e0 : ((BitVec.ofBool false).setWidth 32).toInt = 0 := by decide
    rw [e, if_neg h, e0]; simp

/-- The product's dimension numbers: rows by the contraction, the contraction by columns. -/
abbrev dd : DotDims S64x5120 S5120x64 S64x64 := dot_S64x5120_S5120x64_S64x64_1_0_0_1_n_n

theorem lhs0 (i : S64x64.Idx) (k : dd.contr.Idx) : (dd.lhsIdx i k 0).val = (i 0).val := by
  unfold DotDims.lhsIdx
  rw [dif_neg (show ¬(0 : Fin S64x5120.rank) ∈ dd.lhsBatch by decide), dif_pos (show (0 : Fin S64x5120.rank) ∈ dd.lhsNonContracting by decide)]
  rfl
theorem lhs1 (i : S64x64.Idx) (k : dd.contr.Idx) : (dd.lhsIdx i k 1).val = (k ⟨0, by decide⟩).val :=
  dd.lhsIdx_val_of_single rfl i k
theorem rhs0 (i : S64x64.Idx) (k : dd.contr.Idx) : (dd.rhsIdx i k 0).val = (k ⟨0, by decide⟩).val :=
  dd.rhsIdx_val_of_single rfl i k
theorem rhs1 (i : S64x64.Idx) (k : dd.contr.Idx) : (dd.rhsIdx i k 1).val = (i 1).val := by
  unfold DotDims.rhsIdx
  rw [dif_neg (show ¬(1 : Fin S5120x64.rank) ∈ dd.rhsBatch by decide), dif_pos (show (1 : Fin S5120x64.rank) ∈ dd.rhsNonContracting by decide)]
  rfl

/-- Entry (p, r) of the one-hot matrix the body builds from a block of labels. -/
theorem oh_entry (lb : Vec Ideal S1x5120 .i32) (p : Fin 64) (r : Fin 5120) :
    (truncf .bf16 (sitofp (F := Ideal) .f32 (extui 32 (cmpi .eq (iota .tc S64x5120 32 [0] iota_S64x5120_d0_w32)
      (broadcastTo S64x5120 (shapeCast S1x5120 lb shapeCasts_S1x5120_S1x5120) broadcasts_S1x5120_S64x5120)) natLt_1_32))
      bitsLt_bf16_f32 : FVec Ideal S64x5120 .bf16) (ix2 p r) = onehot p.val (lb (ix2 0 r)) := by
  show FloatOps.sitofp (F := Ideal) .f32 ((IntOp.cmpi .eq (iota .tc S64x5120 32 [0] iota_S64x5120_d0_w32 (ix2 p r))
    (broadcastTo S64x5120 (shapeCast S1x5120 lb shapeCasts_S1x5120_S1x5120) broadcasts_S1x5120_S64x5120 (ix2 p r))).setWidth 32) = _
  rw [iota_single_apply, broadcastTo_apply _ broadcasts_S1x5120_S64x5120 (ix2 p r) (ix2 0 r)
    (fun a => by match a with | ⟨0, _⟩ => rfl | ⟨1, _⟩ => rfl), shapeCast_self]
  exact onehot_word p.val _

/-- The body's stored value at entry (p, q): what the buffer held plus the block's one-hot product there. -/
theorem pay2_apply (lb : Vec Ideal S1x5120 .i32) (g : Vec Ideal S5120x64 .f32) (acc : Vec Ideal S64x64 .f32) (p q : Fin 64) :
    k1_pay2 (F := Ideal) lb g acc (ix2 p q) = acc (ix2 p q) + ∑ r : Fin 5120, onehot p.val (lb (ix2 0 r)) * g (ix2 r q) := by
  unfold k1_pay2
  refine (addf_apply _ _ (ix2 p q)).trans ?_
  refine congrArg₂ (· + ·) (congrFun (shapeCast_self acc _) (ix2 p q)) ?_
  refine (Ideal.matmul_constant_zero_apply dd none _ _ (ix2 p q)).trans ?_
  rw [← Equiv.sum_comp (contrEquiv1 dd 5120 rfl rfl).symm]
  refine Finset.sum_congr rfl fun r _ => ?_
  have hk := contrEquiv1_symm_val dd 5120 rfl rfl r
  have el : dd.lhsIdx (ix2 p q) ((contrEquiv1 dd 5120 rfl rfl).symm r) = ix2 p r := funext fun a => Fin.ext (by
    match a with
    | ⟨0, _⟩ => exact lhs0 _ _
    | ⟨1, _⟩ => exact (lhs1 _ _).trans hk)
  have er : dd.rhsIdx (ix2 p q) ((contrEquiv1 dd 5120 rfl rfl).symm r) = ix2 r q := funext fun a => Fin.ext (by
    match a with
    | ⟨0, _⟩ => exact (rhs0 _ _).trans hk
    | ⟨1, _⟩ => exact rhs1 _ _)
  rw [el, er]
  refine congrArg₂ (· * ·) (oh_entry lb p r) ?_
  show (shapeCast S5120x64 g shapeCasts_S5120x64_S5120x64) (ix2 r q) = _
  rw [shapeCast_self]

/-- The reset value is zero everywhere. -/
theorem pay1_apply (y : S64x64.Idx) : k1_pay1 (F := Ideal) y = 0 := by
  show Ideal.ofBits .f32 0x00000000#32 = 0
  exact Ideal.ofBits_zero_f32

/-! ## The blocks the windows read -/

section Blocks
variable {F : FTy → Type} [FloatOps F]
variable (V : (c : Dev nD) → (b : Ref sig .tc) → Buf (Elt F) ((c : Thread nD τ).loc b))

/-- The block of labels and the block of g at a point, and the two whole arrays, over their literal shapes. -/
abbrev lblk (c : Dev nD) (t : Fin cfg1.N) : Vec F S1x5120 .i32 := iblk1 V c 0 t
abbrev gblk (c : Dev nD) (t : Fin cfg1.N) : Vec F S5120x64 .f32 := iblk1 V c 1 t
abbrev larr (c : Dev nD) : Vec F S1x51200 .i32 := V c main_v4
abbrev garr (c : Dev nD) : Vec F S51200x64 .f32 := V c main_v32

/-- Block t of the labels is the labels of the nodes 5120·t + r. -/
theorem lblk_apply (c : Dev nD) (t : Fin cfg1.N) (r : Fin 5120) (h : t.val * 5120 + r.val < 51200) :
    lblk V c t (ix2 0 r) = larr V c (ix2 0 ⟨t.val * 5120 + r.val, h⟩) := by
  have hi : win1_0.index t 0 = 0 ∧ win1_0.index t 1 = t.val := by
    rcases fin_N1 t with rfl | rfl | rfl | rfl | rfl | rfl | rfl | rfl | rfl | rfl <;> decide
  unfold lblk larr iblk1
  rw [View.read_apply]
  show V c main_v4 _ = V c main_v4 _
  congr 1
  funext a
  apply Fin.ext
  match a with
  | ⟨0, _⟩ => show win1_0.index t 0 * 1 + 1 * 0 = 0; rw [hi.1]
  | ⟨1, _⟩ => show win1_0.index t 1 * 5120 + 1 * r.val = t.val * 5120 + r.val; rw [hi.2]; omega

/-- Block t of g is the rows 5120·t + r of g. -/
theorem gblk_apply (c : Dev nD) (t : Fin cfg1.N) (r : Fin 5120) (q : Fin 64) (h : t.val * 5120 + r.val < 51200) :
    gblk V c t (ix2 r q) = garr V c (ix2 ⟨t.val * 5120 + r.val, h⟩ q) := by
  have hi : win1_1.index t 0 = t.val ∧ win1_1.index t 1 = 0 := by
    rcases fin_N1 t with rfl | rfl | rfl | rfl | rfl | rfl | rfl | rfl | rfl | rfl <;> decide
  unfold gblk garr iblk1
  rw [View.read_apply]
  show V c main_v32 _ = V c main_v32 _
  congr 1
  funext a
  apply Fin.ext
  match a with
  | ⟨0, _⟩ => show win1_1.index t 0 * 5120 + 1 * r.val = t.val * 5120 + r.val; rw [hi.1]; omega
  | ⟨1, _⟩ => show win1_1.index t 1 * 64 + 1 * q.val = q.val; rw [hi.2]; omega

end Blocks

/-! ## The accumulation over the grid -/

section Acc
variable (V : (c : Dev nD) → (b : Ref sig .tc) → Buf (Elt Ideal) ((c : Thread nD τ).loc b))

/-- Node i's term of the pooled entry (p, q); zero past the last node. -/
def term (c : Dev nD) (p q : Fin 64) (i : ℕ) : EReal :=
  if h : i < 51200 then onehot p.val (larr V c (ix2 0 ⟨i, h⟩)) * garr V c (ix2 ⟨i, h⟩ q) else 0

/-- A block's one-hot product at (p, q) is the sum of its nodes' terms. -/
theorem blk_sum (c : Dev nD) (t : Fin cfg1.N) (p q : Fin 64) :
    ∑ r : Fin 5120, onehot p.val (lblk V c t (ix2 0 r)) * gblk V c t (ix2 r q)
      = ∑ r ∈ Finset.range 5120, term V c p q (t.val * 5120 + r) := by
  have hN : t.val < 10 := lt_of_lt_of_eq t.isLt (show cfg1.N = 10 from N_1)
  rw [← Fin.sum_univ_eq_sum_range (fun r => term V c p q (t.val * 5120 + r)) 5120]
  refine Finset.sum_congr rfl fun r _ => ?_
  have h : t.val * 5120 + r.val < 51200 := by have := r.isLt; omega
  unfold term
  rw [dif_pos h, lblk_apply V c t r h, gblk_apply V c t r q h]

/-- After point n the buffer holds, at (p, q), the partial sum over the nodes below 5120·(n+1). -/
theorem outsAt_apply (c : Dev nD) (p q : Fin 64) : ∀ (n : ℕ) (h : n < cfg1.N),
    (outsAt1 V c n h : Vec Ideal S64x64 .f32) (ix2 p q) = ∑ i ∈ Finset.range ((n + 1) * 5120), term V c p q i
  | 0, h => by
    rw [outsAt1_A V c ⟨0, h⟩ rfl]
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (lblk V c ⟨0, h⟩) (gblk V c ⟨0, h⟩)) (ix2 p q)).trans ?_
    rw [pay2_apply, pay1_apply, zero_add, blk_sum V c ⟨0, h⟩ p q]
    show ∑ r ∈ Finset.range 5120, term V c p q (0 * 5120 + r) = _
    rw [show (0 + 1) * 5120 = 5120 from rfl]
    exact Finset.sum_congr rfl fun r _ => by rw [Nat.zero_mul, Nat.zero_add]
  | n + 1, h => by
    have hN : cfg1.N = 10 := N_1
    have hB : ¬(⟨n + 1, h⟩ : Fin cfg1.N).val % 10 = 0 := by dsimp only; omega
    rw [outsAt1_B V c ⟨n + 1, h⟩ hB]
    refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (lblk V c ⟨n + 1, h⟩) (gblk V c ⟨n + 1, h⟩)
      (outsAt1 V c n (Nat.lt_of_succ_lt h))) (ix2 p q)).trans ?_
    refine (pay2_apply _ _ _ p q).trans ?_
    refine (congrArg₂ (· + ·) (outsAt_apply c p q n (Nat.lt_of_succ_lt h)) (blk_sum V c ⟨n + 1, h⟩ p q)).trans ?_
    rw [show (n + 1 + 1) * 5120 = (n + 1) * 5120 + 5120 by omega, Finset.sum_range_add]

/-- All the nodes' terms sum to the pooled entry. -/
theorem full_sum (c : Dev nD) (p q : Fin 64) :
    ∑ i ∈ Finset.range 51200, term V c p q i = poolOH 64 (lab (V c main_v4)) (V c main_v32) (ix2 p q) := by
  unfold poolOH
  show _ = ∑ i : Fin 51200, onehot p.val (lab (V c main_v4) i) * (V c main_v32 : Arr2 51200 64) (ix2 i q)
  rw [← Fin.sum_univ_eq_sum_range (term V c p q) 51200]
  refine Finset.sum_congr rfl fun i _ => ?_
  unfold term
  rw [dif_pos i.isLt]
  rfl

/-- After the last point the buffer holds the pooled sums. -/
theorem outs_last (c : Dev nD) (n : ℕ) (h : n < cfg1.N) (hn : n = 9) :
    (outsAt1 V c n h : Vec Ideal S64x64 .f32) = poolOH 64 (lab (V c main_v4)) (V c main_v32) := by
  subst hn
  funext y
  obtain ⟨p, q, rfl⟩ : ∃ (p : Fin 64) (q : Fin 64), y = ix2 p q := ⟨y 0, y 1, eq_ix2 y⟩
  rw [outsAt_apply V c p q 9 h]
  exact full_sum V c p q

/-- The one write-back, at the last point, writes them: block (0, 0) of the 64×64 array is the array. -/
theorem flushed_eq (c : Dev nD) (t : Fin cfg1.N) (hf : (cfg1.win 2).flush t = true) :
    (dat1 V c).flushed 2 t = ((cfg1.win 2).blk t).view.read (Elt Ideal) (poolOH 64 (lab (V c main_v4)) (V c main_v32)) := by
  have hN : cfg1.N = 10 := N_1
  have h9 : t.val = 9 := by have := (flush1_2 t).mp hf; have := t.isLt; omega
  show (cfg1.win 2).cut (grid1.coords t) ((dat1 V c).after 2 t) = _
  rw [after1_2, outs_last V c t.val t.isLt h9]
  obtain rfl : t = t1_9 := Fin.ext h9
  have hz' : (fun a => win1_2.index t1_9 a * main_v33.ty.shape.size a) = fun _ => 0 := funext fun a => by fin_cases a <;> decide
  exact (Memref.read_access_unit_zero (Elt Ideal) main_v33 hz' (fun a => by rw [congrFun hz' a]; simp)
    (poolOH 64 (lab (V c main_v4)) (V c main_v32))).symm

/-- So the output array ends holding the pooled sums. -/
theorem final (c : Dev nD) : (dat1 V c).arrAt 2 cfg1.N = poolOH 64 (lab (V c main_v4)) (V c main_v32) :=
  (dat1 V c).arrAt_eq_of_cover 2 (poolOH 64 (lab (V c main_v4)) (V c main_v32)) (flushed_eq V c) fun i =>
    ⟨t1_9, (flush1_2 t1_9).mpr rfl, by
      show i ∈ ((View.whole main_v33).slice (win1_2.rect t1_9)).set
      rw [View.set_slice_whole, Rect.mem_set_unit]
      intro a
      have h0 : (i 0 : Nat) < 64 := (i 0).isLt
      have h1 : (i 1 : Nat) < 64 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 64 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 64 from by decide +kernel]; omega⟩

end Acc

end R1

/-- Region 1 (pooling, accumulated over 10 blocks of 5120 nodes): its output array after the region is the one-hot
    product over ALL nodes. -/
theorem arr1 (V : (c : Dev nD) → (b : Ref sig .tc) → Buf (Elt Ideal) ((c : Thread nD τ).loc b)) (c : Dev nD) :
    ((dat1 (F := Ideal) V c).arrAt 2 cfg1.N : Arr2 64 64) = poolOH 64 (lab (V c main_v4)) (V c main_v32) :=
  R1.final V c

end Cert.KernelIdeal.KV

end
-- ==== Proof.Reg2Value.lean ====
import proofs.«431037_j76441827934550_1_alg».proof.Proof.KernelIdealFrameP
import proofs.«431037_j76441827934550_1_alg».proof.Proof.Spec
import Idealize.ShloMosaic.Lib.Pipeline.Value
import Idealize.ShloMosaic.PureOps.Ideal.Laws

set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec

namespace R2

/-! ## The one-hot matrix at an entry -/

theorem cmpi_eq_one_iff {w : Nat} {a b : BitVec w} : IntOp.cmpi .eq a b = 1#1 ↔ a = b := by
  unfold IntOp.cmpi
  by_cases h : a = b
  · simp [h]
  · have hb : (a == b) = false := by simp [h]
    rw [hb]
    show BitVec.ofBool false = 1#1 ↔ a = b
    exact ⟨fun e => absurd e (by decide), fun e => absurd e h⟩

theorem sitofp_one : (FloatOps.sitofp (F := Ideal) .f32 ((1#1 : BitVec 1).setWidth 32) : Ideal .f32) = 1 := by
  show (((((1#1 : BitVec 1).setWidth 32).toInt : ℝ)) : EReal) = 1
  have : ((1#1 : BitVec 1).setWidth 32).toInt = 1 := by decide
  rw [this]; simp

theorem sitofp_zero' : (FloatOps.sitofp (F := Ideal) .f32 ((0#1 : BitVec 1).setWidth 32) : Ideal .f32) = 0 := by
  show (((((0#1 : BitVec 1).setWidth 32).toInt : ℝ)) : EReal) = 0
  have : ((0#1 : BitVec 1).setWidth 32).toInt = 0 := by decide
  rw [this]; simp

/-- Entry (b, p) of the block's one-hot matrix: 1 where node p's label is b, else 0. -/
theorem onehot_entry (x0 : Vec Ideal S1x5120 .i32) (b : Fin 64) (p : Fin 5120) :
    (truncf .bf16 (sitofp (F := Ideal) .f32 (extui 32 (cmpi .eq (iota .tc S64x5120 32 [0] iota_S64x5120_d0_w32)
      (broadcastTo S64x5120 (shapeCast S1x5120 x0 shapeCasts_S1x5120_S1x5120) broadcasts_S1x5120_S64x5120)) natLt_1_32))
      bitsLt_bf16_f32 : FVec Ideal S64x5120 .bf16) (ix2 b p) = onehot b.val (x0 (ix2 0 p)) := by
  rw [truncf_apply, sitofp_apply, extui_apply]
  show FloatOps.sitofp .f32 ((IntOp.cmpi .eq (iota .tc S64x5120 32 [0] iota_S64x5120_d0_w32 (ix2 b p))
      (broadcastTo S64x5120 (shapeCast S1x5120 x0 shapeCasts_S1x5120_S1x5120) broadcasts_S1x5120_S64x5120 (ix2 b p))).setWidth 32) = _
  rw [iota_single_apply, shapeCast_self,
    broadcastTo_apply x0 broadcasts_S1x5120_S64x5120 (ix2 b p) (ix2 0 p) (fun a => by
      match a with
      | ⟨0, _⟩ => rfl
      | ⟨1, _⟩ => rfl)]
  unfold onehot
  by_cases h : BitVec.ofNat 32 b.val = x0 (ix2 0 p)
  · rw [if_pos h, show IntOp.cmpi .eq (BitVec.ofNat 32 ((ix2 b p : S64x5120.Idx) 0).val) (x0 (ix2 0 p)) = 1#1 from cmpi_eq_one_iff.mpr h]
    exact sitofp_one
  · rw [if_neg h, eq_zero_of_ne_one (fun e => h (cmpi_eq_one_iff.mp e))]
    exact sitofp_zero'

/-! ## The read-back product at an entry -/

theorem lhs_back_0 (i : S5120x64.Idx) (q : dot_S64x5120_S64x64_S5120x64_0_0_1_1_n_n.contr.Idx) :
    (dot_S64x5120_S64x64_S5120x64_0_0_1_1_n_n.lhsIdx i q 0).val = (q ⟨0, by decide⟩).val :=
  dot_S64x5120_S64x64_S5120x64_0_0_1_1_n_n.lhsIdx_val_of_single rfl i q
theorem lhs_back_1 (i : S5120x64.Idx) (q : dot_S64x5120_S64x64_S5120x64_0_0_1_1_n_n.contr.Idx) :
    (dot_S64x5120_S64x64_S5120x64_0_0_1_1_n_n.lhsIdx i q 1).val = (i 0).val := by
  unfold DotDims.lhsIdx
  rw [dif_neg (show ¬(1 : Fin S64x5120.rank) ∈ dot_S64x5120_S64x64_S5120x64_0_0_1_1_n_n.lhsBatch by decide), dif_pos (show (1 : Fin S64x5120.rank) ∈ dot_S64x5120_S64x64_S5120x64_0_0_1_1_n_n.lhsNonContracting by decide)]
  rfl
theorem rhs_back_0 (i : S5120x64.Idx) (q : dot_S64x5120_S64x64_S5120x64_0_0_1_1_n_n.contr.Idx) :
    (dot_S64x5120_S64x64_S5120x64_0_0_1_1_n_n.rhsIdx i q 0).val = (q ⟨0, by decide⟩).val :=
  dot_S64x5120_S64x64_S5120x64_0_0_1_1_n_n.rhsIdx_val_of_single rfl i q
theorem rhs_back_1 (i : S5120x64.Idx) (q : dot_S64x5120_S64x64_S5120x64_0_0_1_1_n_n.contr.Idx) :
    (dot_S64x5120_S64x64_S5120x64_0_0_1_1_n_n.rhsIdx i q 1).val = (i 1).val := by
  unfold DotDims.rhsIdx
  rw [dif_neg (show ¬(1 : Fin S64x64.rank) ∈ dot_S64x5120_S64x64_S5120x64_0_0_1_1_n_n.rhsBatch by decide), dif_pos (show (1 : Fin S64x64.rank) ∈ dot_S64x5120_S64x64_S5120x64_0_0_1_1_n_n.rhsNonContracting by decide)]
  rfl

/-- The product contracting the label axis of both operands, into the zero splat, at entry (p, j): the sum over the
    64 labels b of lhs[b, p] · rhs[b, j]. -/
theorem back_matmul_apply (L : FVec Ideal S64x5120 .bf16) (R : FVec Ideal S64x64 .bf16) (p : Fin 5120) (j : Fin 64) :
    matmul (F := Ideal) dot_S64x5120_S64x64_S5120x64_0_0_1_1_n_n none L R (constant (F := Ideal) S5120x64 .f32 0x00000000#32) (ix2 p j)
      = ∑ b : Fin 64, L (ix2 b p) * R (ix2 b j) := by
  simp only [matmul]
  rw [Ideal.matmul_constant_zero_apply, ← Equiv.sum_comp (ValueIdx.contrEquiv1 dot_S64x5120_S64x64_S5120x64_0_0_1_1_n_n 64 rfl rfl).symm]
  refine Finset.sum_congr rfl fun k _ => ?_
  have hk := ValueIdx.contrEquiv1_symm_val dot_S64x5120_S64x64_S5120x64_0_0_1_1_n_n 64 rfl rfl k
  have el : dot_S64x5120_S64x64_S5120x64_0_0_1_1_n_n.lhsIdx (ix2 p j) ((ValueIdx.contrEquiv1 dot_S64x5120_S64x64_S5120x64_0_0_1_1_n_n 64 rfl rfl).symm k) = ix2 k p := funext fun a => Fin.ext (by
    match a with
    | ⟨0, _⟩ => exact (lhs_back_0 _ _).trans hk
    | ⟨1, _⟩ => exact lhs_back_1 _ _)
  have er : dot_S64x5120_S64x64_S5120x64_0_0_1_1_n_n.rhsIdx (ix2 p j) ((ValueIdx.contrEquiv1 dot_S64x5120_S64x64_S5120x64_0_0_1_1_n_n 64 rfl rfl).symm k) = ix2 k j := funext fun a => Fin.ext (by
    match a with
    | ⟨0, _⟩ => exact (rhs_back_0 _ _).trans hk
    | ⟨1, _⟩ => exact rhs_back_1 _ _)
  rw [el, er]

/-! ## The body's arithmetic at an entry of the block -/

/-- Entry (p, q) of the block the body stores: the feature block's entry in the first 64 columns, and in the last 64 the
    one-hot read-back of the pooled matrix, the sum over the labels b of onehot[b, label p] · pooled[b, q − 64]. -/
theorem pay_apply (x0 : Vec Ideal S1x5120 .i32) (x2 : Vec Ideal S64x64 .f32) (x1 : Vec Ideal S5120x64 .f32) (p : Fin 5120) (q : Fin 128) :
    k2_pay1 (F := Ideal) x0 x2 x1 (ix2 p q) = if h : q.val < 64 then x1 (ix2 p ⟨q.val, h⟩)
      else ∑ b : Fin 64, onehot b.val (x0 (ix2 0 p)) * x2 (ix2 b ⟨q.val - 64, by omega⟩) := by
  unfold k2_pay1
  by_cases h : q.val < 64
  · rw [dif_pos h]
    exact concatenate_pair_apply_left (1 : Fin S5120x128.rank) x1 _ concatenates_S5120x64_S5120x64_S5120x128_d1 (ix2 p q) rfl (ix2 p ⟨q.val, h⟩) (fun b => by
      match b with
      | ⟨0, _⟩ => rfl
      | ⟨1, _⟩ => rfl)
  · rw [dif_neg h]
    refine (concatenate_pair_apply_right (1 : Fin S5120x128.rank) x1 _ concatenates_S5120x64_S5120x64_S5120x128_d1 (ix2 p q) rfl rfl (ix2 p ⟨q.val - 64, by omega⟩) (fun b hb => by
      match b, hb with
      | ⟨0, _⟩, _ => rfl
      | ⟨1, _⟩, hb => exact absurd rfl hb) (by show (q.val - 64) + 64 = q.val; omega)).trans ?_
    refine (back_matmul_apply _ _ p ⟨q.val - 64, by omega⟩).trans ?_
    refine Finset.sum_congr rfl fun b _ => ?_
    rw [onehot_entry, truncf_apply, shapeCast_self]

/-! ## The spec's whole-array function at an index -/

/-- The read-back side by side with the features, at an index: the features in the first 64 columns, the one-hot
    read-back of the pooled matrix in the last 64. -/
theorem catBack_apply (A : Arr2 51200 64) (L : S1x51200.Idx → BitVec 32) (P : Arr2 64 64) (y : S51200x128.Idx) :
    catCols 128 A (backOH (lab L) P) y = if h : (y 1).val < 64 then A (ix2 (r0 y) ⟨(y 1).val, h⟩)
      else ∑ b : Fin 64, onehot b.val (L (ix2 0 (r0 y))) * P (ix2 b ⟨(y 1).val - 64, by have := idx2_lt1 y; omega⟩) := by
  unfold catCols
  by_cases h : (y 1).val < 64
  · rw [dif_pos h, dif_pos h]
  · have h' : (y 1).val - 64 < 64 := by have := idx2_lt1 y; omega
    rw [dif_neg h, dif_neg h, dif_pos h']
    rfl

/-! ## The blocks, read where the grid point puts them -/

theorem hz : (![0, 0] : Fin 2 → Nat) = fun _ => 0 := funext fun a => by fin_cases a <;> rfl

/-- The printed index maps over the grid: the label block moves along the columns, the feature and output blocks along
    the rows, with the point; the pooled block stays. -/
theorem idx_facts : ∀ t : Fin cfg2.N,
    win2_0.index t (0 : Fin 2) = 0 ∧ win2_0.index t (1 : Fin 2) = t.val
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b)) (c : Dev nD) (t : Fin cfg2.N)

/-- Entry p of the label block at point t is label t·5120 + p. -/
theorem labels_at (p : Fin 5120) (i : S1x51200.Idx) (h0 : (i 0).val = 0) (h1 : (i 1).val = t.val * 5120 + p.val) :
    iblk2 (F := Ideal) V c 0 t (ix2 0 p) = (V c main_v4 : S1x51200.Idx → BitVec 32) i := by
  obtain ⟨e00, e01, e10, e11, e20, e21, e30, e31⟩ := idx_facts t
  show (V c main_v4 : S1x51200.Idx → BitVec 32) (((cfg2.win 0).blk t).view.emb (ix2 0 p)) = _
  refine congrArg _ (funext fun a => Fin.ext ?_)
  match a with
  | ⟨0, _⟩ => show win2_0.index t (0 : Fin 2) * 1 + 1 * 0 = (i 0).val; omega
  | ⟨1, _⟩ => show win2_0.index t (1 : Fin 2) * 5120 + 1 * p.val = (i 1).val; omega

/-- Entry (p, q) of the feature block at point t is feature row t·5120 + p. -/
theorem feats_at (p : Fin 5120) (q : Fin 64) (i : S51200x64.Idx) (h0 : (i 0).val = t.val * 5120 + p.val) (h1 : (i 1).val = q.val) :
    iblk2 (F := Ideal) V c 1 t (ix2 p q) = (V c main_arg0 : Arr2 51200 64) i := by
  obtain ⟨e00, e01, e10, e11, e20, e21, e30, e31⟩ := idx_facts t
  show (V c main_arg0 : Arr2 51200 64) (((cfg2.win 1).blk t).view.emb (ix2 p q)) = _
  refine congrArg _ (funext fun a => Fin.ext ?_)
  match a with
  | ⟨0, _⟩ => show win2_1.index t (0 : Fin 2) * 5120 + 1 * p.val = (i 0).val; omega
  | ⟨1, _⟩ => show win2_1.index t (1 : Fin 2) * 64 + 1 * q.val = (i 1).val; omega

/-- The pooled block at every point is the pooled matrix. -/
theorem pooled_at (b q : Fin 64) :
    iblk2 (F := Ideal) V c 2 t (ix2 b q) = (V c main_v33 : Arr2 64 64) (ix2 b q) := by
  obtain ⟨e00, e01, e10, e11, e20, e21, e30, e31⟩ := idx_facts t
  show (V c main_v33 : Arr2 64 64) (((cfg2.win 2).blk t).view.emb (ix2 b q)) = _
  refine congrArg _ (funext fun a => Fin.ext ?_)
  match a with
  | ⟨0, _⟩ => show win2_2.index t (0 : Fin 2) * 64 + 1 * b.val = b.val; omega
  | ⟨1, _⟩ => show win2_2.index t (1 : Fin 2) * 64 + 1 * q.val = q.val; omega

end

section
variable (V : (c : Dev nD) → (b : Ref sig .tc) → Buf (Elt Ideal) ((c : Thread nD τ).loc b)) (c : Dev nD)

/-- What point t writes back is block t of the features side by side with the one-hot read-back of the pooled matrix. -/
theorem flushed_eq (t : Fin cfg2.N) :
    (dat2 (F := Ideal) V c).flushed 3 t = ((cfg2.win 3).blk t).view.read (Elt Ideal)
      (catCols 128 (V c main_arg0 : Arr2 51200 64) (backOH (lab (V c main_v4)) (V c main_v33 : Arr2 64 64)) : Arr2 51200 128) := by
  show (cfg2.win 3).cut (grid2.coords t) ((dat2 V c).after 3 t) = _
  rw [after2_3]
  unfold out2_3
  rw [View.canon_unit_zero hz]
  simp only [View.ld_unit_zero (S := S1x5120) hz, View.ld_unit_zero (S := S64x64) hz, View.ld_unit_zero (S := S5120x64) hz]
  obtain ⟨e00, e01, e10, e11, e20, e21, e30, e31⟩ := idx_facts t
  funext j
  obtain ⟨p, q, rfl⟩ : ∃ (p : Fin 5120) (q : Fin 128), j = ix2 p q := ⟨j 0, j 1, eq_ix2 j⟩
  obtain ⟨y, hy, hy0, hy1⟩ : ∃ y : S51200x128.Idx, ((cfg2.win 3).blk t).view.emb (ix2 p q) = y
      ∧ (y 0).val = t.val * 5120 + p.val ∧ (y 1).val = q.val :=
    ⟨_, rfl, by show win2_3.index t (0 : Fin 2) * 5120 + 1 * p.val = _; omega,
      by show win2_3.index t (1 : Fin 2) * 128 + 1 * q.val = _; omega⟩
  show k2_pay1 (F := Ideal) (iblk2 V c 0 t) (iblk2 V c 2 t) (iblk2 V c 1 t) (ix2 p q)
    = (catCols 128 (V c main_arg0 : Arr2 51200 64) (backOH (lab (V c main_v4)) (V c main_v33 : Arr2 64 64)) : Arr2 51200 128)
        (((cfg2.win 3).blk t).view.emb (ix2 p q))
  rw [hy, pay_apply, catBack_apply]
  by_cases hq : q.val < 64
  · have hq' : (y 1).val < 64 := by omega
    rw [dif_pos hq, dif_pos hq']
    exact feats_at V c t p ⟨q.val, hq⟩ (ix2 (r0 y) ⟨(y 1).val, hq'⟩) hy0 hy1
  · have hq' : ¬ (y 1).val < 64 := by omega
    rw [dif_neg hq, dif_neg hq']
    refine Finset.sum_congr rfl fun b _ => ?_
    rw [labels_at V c t p (ix2 0 (r0 y)) rfl hy0, pooled_at V c t b]
    refine congrArg _ (congrArg _ (funext fun a => Fin.ext ?_))
    match a with
    | ⟨0, _⟩ => rfl
    | ⟨1, _⟩ => show q.val - 64 = (y 1).val - 64; omega

/-- An index of the output array is in point t's block iff each coordinate is in the block's range on its axis. -/
theorem mem_blk (t : Fin cfg2.N) (i : S51200x128.Idx) :
    i ∈ ((cfg2.win 3).blk t).view.set ↔ ∀ a : Fin 2, win2_3.index t a * S5120x128.size a ≤ (i a).val ∧ (i a).val < win2_3.index t a * S5120x128.size a + S5120x128.size a := by
  show i ∈ ((View.whole main_v34).slice (win2_3.rect t)).set ↔ _
  rw [View.set_slice_whole, Rect.mem_set_unit]
  exact Iff.rfl

/-- Every index of the output array is in the block of the point its row falls in: row r in block r / 5120. -/
theorem cover (i : S51200x128.Idx) :
    ∃ t : Fin cfg2.N, (cfg2.win 3).flush t = true ∧ i ∈ ((cfg2.win 3).blk t).view.set := by
  have hi0 : (i 0).val < 51200 := idx2_lt0 i
  have hi1 : (i 1).val < 128 := idx2_lt1 i
  obtain ⟨t, ht⟩ : ∃ t : Fin cfg2.N, t.val = (i 0).val / 5120 :=
    ⟨⟨(i 0).val / 5120, lt_of_lt_of_eq (by omega : (i 0).val / 5120 < 10) N_2.symm⟩, rfl⟩
  obtain ⟨e00, e01, e10, e11, e20, e21, e30, e31⟩ := idx_facts t
  refine ⟨t, flush2_3 t, ?_⟩
  rw [mem_blk]
  intro a
  match a with
  | ⟨0, _⟩ => show win2_3.index t (0 : Fin 2) * 5120 ≤ (i 0).val ∧ (i 0).val < win2_3.index t (0 : Fin 2) * 5120 + 5120; omega
  | ⟨1, _⟩ => show win2_3.index t (1 : Fin 2) * 128 ≤ (i 1).val ∧ (i 1).val < win2_3.index t (1 : Fin 2) * 128 + 128; omega

end

end R2

open R2 in
/-- Region 2 (read-back and concatenation, 10 blocks of 5120 nodes): its output array after the region. -/
theorem arr2 (V : (c : Dev nD) → (b : Ref sig .tc) → Buf (Elt Ideal) ((c : Thread nD τ).loc b)) (c : Dev nD) :
    ((dat2 (F := Ideal) V c).arrAt 3 cfg2.N : Arr2 51200 128) =
      catCols 128 (V c main_arg0 : Arr2 51200 64) (backOH (lab (V c main_v4)) (V c main_v33 : Arr2 64 64)) :=
  (dat2 (F := Ideal) V c).arrAt_eq_of_cover 3 _ (fun t _ => flushed_eq V c t) cover

end Cert.KernelIdeal.KV

end
-- ==== Proof.Reg3Value.lean ====
import proofs.«431037_j76441827934550_1_alg».proof.Proof.KernelIdealFrameP
import proofs.«431037_j76441827934550_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec

namespace R3

/-! ## The body's two products, read at an index -/

theorem lhsA_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhsA_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhsA_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhsA_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The first product at row `p`, column `b`: the sum over the 256 contracted columns. -/
theorem prodA_apply (l : FVec Ideal S4096x256 .bf16) (r : FVec Ideal S256x128 .bf16) (p : Fin 4096) (b : Fin 128) :
    matmul dot_S4096x256_S256x128_S4096x128_1_0_0_1_n_n none l r (constant (F := Ideal) S4096x128 .f32 0x00000000#32) (ix2 p b)
      = ∑ a : Fin 256, l (ix2 p a) * r (ix2 a b) := by
  simp only [matmul]
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 p b) ((ValueIdx.contrEquiv1 dot_S4096x256_S256x128_S4096x128_1_0_0_1_n_n 256 rfl rfl).symm k) = ix2 p k := funext fun a => Fin.ext (by
    match a with
    | ⟨0, _⟩ => exact lhsA_0 _ _
    | ⟨1, _⟩ => exact (lhsA_1 _ _).trans hk)
  have er : dot_S4096x256_S256x128_S4096x128_1_0_0_1_n_n.rhsIdx (ix2 p b) ((ValueIdx.contrEquiv1 dot_S4096x256_S256x128_S4096x128_1_0_0_1_n_n 256 rfl rfl).symm k) = ix2 k b := funext fun a => Fin.ext (by
    match a with
    | ⟨0, _⟩ => exact (rhsA_0 _ _).trans hk
    | ⟨1, _⟩ => exact rhsA_1 _ _)
  rw [el, er]

theorem lhsB_0 (i : S4096x1.Idx) (q : dot_S4096x128_S128x1_S4096x1_1_0_0_1_n_n.contr.Idx) :
    (dot_S4096x128_S128x1_S4096x1_1_0_0_1_n_n.lhsIdx i q 0).val = (i 0).val := by
  unfold DotDims.lhsIdx
  rw [dif_neg (show ¬(0 : Fin S4096x128.rank) ∈ dot_S4096x128_S128x1_S4096x1_1_0_0_1_n_n.lhsBatch by decide), dif_pos (show (0 : Fin S4096x128.rank) ∈ dot_S4096x128_S128x1_S4096x1_1_0_0_1_n_n.lhsNonContracting by decide)]
  rfl
theorem lhsB_1 (i : S4096x1.Idx) (q : dot_S4096x128_S128x1_S4096x1_1_0_0_1_n_n.contr.Idx) :
    (dot_S4096x128_S128x1_S4096x1_1_0_0_1_n_n.lhsIdx i q 1).val = (q ⟨0, by decide⟩).val :=
  dot_S4096x128_S128x1_S4096x1_1_0_0_1_n_n.lhsIdx_val_of_single rfl i q
theorem rhsB_0 (i : S4096x1.Idx) (q : dot_S4096x128_S128x1_S4096x1_1_0_0_1_n_n.contr.Idx) :
    (dot_S4096x128_S128x1_S4096x1_1_0_0_1_n_n.rhsIdx i q 0).val = (q ⟨0, by decide⟩).val :=
  dot_S4096x128_S128x1_S4096x1_1_0_0_1_n_n.rhsIdx_val_of_single rfl i q
theorem rhsB_1 (i : S4096x1.Idx) (q : dot_S4096x128_S128x1_S4096x1_1_0_0_1_n_n.contr.Idx) :
    (dot_S4096x128_S128x1_S4096x1_1_0_0_1_n_n.rhsIdx i q 1).val = (i 1).val := by
  unfold DotDims.rhsIdx
  rw [dif_neg (show ¬(1 : Fin S128x1.rank) ∈ dot_S4096x128_S128x1_S4096x1_1_0_0_1_n_n.rhsBatch by decide), dif_pos (show (1 : Fin S128x1.rank) ∈ dot_S4096x128_S128x1_S4096x1_1_0_0_1_n_n.rhsNonContracting by decide)]
  rfl

/-- The second product at row `p`, column `q`: the sum over the 128 contracted columns. -/
theorem prodB_apply (l : FVec Ideal S4096x128 .bf16) (r : FVec Ideal S128x1 .bf16) (p : Fin 4096) (q : Fin 1) :
    matmul dot_S4096x128_S128x1_S4096x1_1_0_0_1_n_n none l r (constant (F := Ideal) S4096x1 .f32 0x00000000#32) (ix2 p q)
      = ∑ b : Fin 128, l (ix2 p b) * r (ix2 b q) := by
  simp only [matmul]
  rw [Ideal.matmul_constant_zero_apply, ← Equiv.sum_comp (ValueIdx.contrEquiv1 dot_S4096x128_S128x1_S4096x1_1_0_0_1_n_n 128 rfl rfl).symm]
  refine Finset.sum_congr rfl fun k _ => ?_
  have hk := ValueIdx.contrEquiv1_symm_val dot_S4096x128_S128x1_S4096x1_1_0_0_1_n_n 128 rfl rfl k
  have el : dot_S4096x128_S128x1_S4096x1_1_0_0_1_n_n.lhsIdx (ix2 p q) ((ValueIdx.contrEquiv1 dot_S4096x128_S128x1_S4096x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S4096x128_S128x1_S4096x1_1_0_0_1_n_n.rhsIdx (ix2 p q) ((ValueIdx.contrEquiv1 dot_S4096x128_S128x1_S4096x1_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-- A one-row vector spread over the rows: every row reads the one row. -/
theorem spreadRow128_apply (v : FVec Ideal S1x128 .f32) (h : S1x128.Broadcasts S4096x128) (p : Fin 4096) (b : Fin 128) :
    broadcastTo S4096x128 v h (ix2 p b) = v (ix2 0 b) :=
  broadcastTo_apply v h _ _ fun a => by
    match a with
    | ⟨0, _⟩ => rfl
    | ⟨1, _⟩ => rfl
theorem spreadRow1_apply (v : FVec Ideal S1x1 .f32) (h : S1x1.Broadcasts S4096x1) (p : Fin 4096) (q : Fin 1) :
    broadcastTo S4096x1 v h (ix2 p q) = v (ix2 0 0) :=
  broadcastTo_apply v h _ _ fun a => by
    match a with
    | ⟨0, _⟩ => rfl
    | ⟨1, _⟩ => rfl

/-- The body's arithmetic at row `p`, column `q` of its block: the two-layer perceptron of the block's row. -/
theorem pay_apply (x0 : Vec Ideal S4096x256 .f32) (x1 : Vec Ideal S256x128 .f32) (x3 : Vec Ideal S128x1 .f32)
    (x2 : Vec Ideal S1x128 .f32) (x4 : Vec Ideal S1x1 .f32) (p : Fin 4096) (q : Fin 1) :
    k3_pay1 x0 x1 x3 x2 x4 (ix2 p q)
      = (∑ b : Fin 128, max ((∑ a : Fin 256, x0 (ix2 p a) * x1 (ix2 a b)) + x2 (ix2 0 b)) 0 * x3 (ix2 b q)) + x4 (ix2 0 0) := by
  unfold k3_pay1
  simp only [shapeCast_self, addf_apply, prodB_apply, truncf_apply, maximumf_apply, prodA_apply, spreadRow128_apply,
    spreadRow1_apply, broadcast_apply]
  refine congrArg (· + x4 (ix2 0 0)) (Finset.sum_congr rfl fun b _ => ?_)
  show max _ (Ideal.ofBits .f32 0x00000000#32) * _ = _
  rw [Ideal.ofBits_zero_f32]

/-! ## From the blocks to the array -/

theorem zeroOff : (![0, 0] : Fin 2 → Nat) = fun _ => 0 := funext fun a => by fin_cases a <;> rfl

/-- The printed index maps, decided once over the 200 points: the rows' window and the output's step by the point,
    the four parameter windows stay at block 0. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

section
variable (V : (c : Dev nD) → (b : Ref sig .tc) → Buf (Elt Ideal) ((c : Thread nD τ).loc b)) (c : Dev nD)

/-- Block `t` of the rows' window is rows `4096 t … 4096 t + 4095` of its array. -/
theorem blk0_apply (t : Fin cfg3.N) (p : Fin 4096) (a : Fin 256) (k : Fin 819200) (hk : k.val = t.val * 4096 + p.val) :
    (iblk3 V c 0 t : Vec Ideal S4096x256 .f32) (ix2 p a) = (V c main_v49 : Arr2 819200 256) (ix2 k a) := by
  obtain ⟨e0, e1, -⟩ := idx_facts3 t
  unfold iblk3
  rw [View.read_apply]
  show V c main_v49 _ = V c main_v49 _
  congr 1
  funext ax
  apply Fin.ext
  match ax with
  | ⟨0, _⟩ => show win3_0.index t (0 : Fin 2) * 4096 + 1 * p.val = k.val; rw [e0, hk]; omega
  | ⟨1, _⟩ => show win3_0.index t (1 : Fin 2) * 256 + 1 * a.val = a.val; rw [e1]; omega

end

section
variable (V : (c : Dev nD) → (b : Ref sig .tc) → Buf (Elt Ideal) ((c : Thread nD τ).loc b)) (c : Dev nD)

/-- The four parameter windows' one block is the whole array. -/
theorem blk1_apply (t : Fin cfg3.N) (a : Fin 256) (b : Fin 128) :
    (iblk3 V c 1 t : Vec Ideal S256x128 .f32) (ix2 a b) = (V c main_arg8 : Arr2 256 128) (ix2 a b) := by
  obtain ⟨-, -, e0, e1, -⟩ := idx_facts3 t
  unfold iblk3
  rw [View.read_apply]
  show V c main_arg8 _ = V c main_arg8 _
  congr 1
  funext ax
  apply Fin.ext
  match ax with
  | ⟨0, _⟩ => show win3_1.index t (0 : Fin 2) * 256 + 1 * a.val = a.val; rw [e0]; omega
  | ⟨1, _⟩ => show win3_1.index t (1 : Fin 2) * 128 + 1 * b.val = b.val; rw [e1]; omega

theorem blk2_apply (t : Fin cfg3.N) (b : Fin 128) :
    (iblk3 V c 2 t : Vec Ideal S1x128 .f32) (ix2 0 b) = (V c main_v50 : Arr2 1 128) (ix2 0 b) := by
  obtain ⟨-, -, -, -, e0, e1, -⟩ := idx_facts3 t
  unfold iblk3
  rw [View.read_apply]
  show V c main_v50 _ = V c main_v50 _
  congr 1
  funext ax
  apply Fin.ext
  match ax with
  | ⟨0, _⟩ => show win3_2.index t (0 : Fin 2) * 1 + 1 * 0 = 0; rw [e0]
  | ⟨1, _⟩ => show win3_2.index t (1 : Fin 2) * 128 + 1 * b.val = b.val; rw [e1]; omega

theorem blk3_apply (t : Fin cfg3.N) (b : Fin 128) (q : Fin 1) :
    (iblk3 V c 3 t : Vec Ideal S128x1 .f32) (ix2 b q) = (V c main_arg10 : Arr2 128 1) (ix2 b q) := by
  obtain ⟨-, -, -, -, -, -, e0, e1, -⟩ := idx_facts3 t
  unfold iblk3
  rw [View.read_apply]
  show V c main_arg10 _ = V c main_arg10 _
  congr 1
  funext ax
  apply Fin.ext
  match ax with
  | ⟨0, _⟩ => show win3_3.index t (0 : Fin 2) * 128 + 1 * b.val = b.val; rw [e0]; omega
  | ⟨1, _⟩ => show win3_3.index t (1 : Fin 2) * 1 + 1 * q.val = q.val; rw [e1]; omega

theorem blk4_apply (t : Fin cfg3.N) :
    (iblk3 V c 4 t : Vec Ideal S1x1 .f32) (ix2 0 0) = (V c main_v51 : Arr2 1 1) (ix2 0 0) := by
  obtain ⟨-, -, -, -, -, -, -, -, e0, e1, -⟩ := idx_facts3 t
  unfold iblk3
  rw [View.read_apply]
  show V c main_v51 _ = V c main_v51 _
  congr 1
  funext ax
  apply Fin.ext
  match ax with
  | ⟨0, _⟩ => show win3_4.index t (0 : Fin 2) * 1 + 1 * 0 = 0; rw [e0]
  | ⟨1, _⟩ => show win3_4.index t (1 : Fin 2) * 1 + 1 * 0 = 0; rw [e1]

/-- The region's output as one function of the five arrays it finds: the perceptron of every row. -/
abbrev out3 : Arr2 819200 1 :=
  mlp (V c main_v49) (V c main_arg8) (row1 (V c main_v50)) (V c main_arg10) (row1 (V c main_v51))

/-- What point `t` writes back is block `t` of that function. -/
theorem flushed3_eq (t : Fin cfg3.N) :
    (dat3 (F := Ideal) V c).flushed 5 t = ((cfg3.win 5).blk t).view.read (Elt Ideal) (out3 V c) := by
  show (cfg3.win 5).cut (grid3.coords t) ((dat3 V c).after 5 t) = _
  rw [after3_5]
  unfold out3_5
  rw [View.canon_unit_zero zeroOff]
  simp only [View.ld_unit_zero (S := S4096x256) zeroOff, View.ld_unit_zero (S := S256x128) zeroOff,
    View.ld_unit_zero (S := S128x1) zeroOff, View.ld_unit_zero (S := S1x128) zeroOff, View.ld_unit_zero (S := S1x1) zeroOff]
  obtain ⟨-, -, -, -, -, -, -, -, -, -, e0, e1⟩ := idx_facts3 t
  have ht : t.val < 200 := lt_of_lt_of_eq t.isLt N_3
  funext j
  obtain ⟨p, q, rfl⟩ : ∃ (p : Fin 4096) (q : Fin 1), j = ix2 p q := ⟨j 0, j 1, eq_ix2 j⟩
  have hq : q = 0 := Subsingleton.elim _ _
  subst hq
  refine (pay_apply (iblk3 V c 0 t) (iblk3 V c 1 t) (iblk3 V c 3 t) (iblk3 V c 2 t) (iblk3 V c 4 t) p 0).trans ?_
  rw [View.read_apply]
  have hp : p.val < 4096 := p.isLt
  have hemb : ((cfg3.win 5).blk t).view.emb (ix2 p 0) = (ix2 (⟨t.val * 4096 + p.val, by omega⟩ : Fin 819200) (0 : Fin 1) : S819200x1.Idx) :=
    funext fun ax => Fin.ext (by
      match ax with
      | ⟨0, _⟩ => show win3_5.index t (0 : Fin 2) * 4096 + 1 * p.val = t.val * 4096 + p.val; rw [e0]; omega
      | ⟨1, _⟩ => show win3_5.index t (1 : Fin 2) * 1 + 1 * 0 = 0; rw [e1])
  rw [hemb]
  show _ = mlpAt (V c main_v49) (V c main_arg8) (row1 (V c main_v50)) (V c main_arg10) (row1 (V c main_v51)) ⟨t.val * 4096 + p.val, by omega⟩ 0
  unfold mlpAt
  rw [blk4_apply V c t]
  refine congrArg₂ (· + ·) (Finset.sum_congr rfl fun b _ => ?_) rfl
  rw [blk2_apply V c t b, blk3_apply V c t b 0]
  refine congrArg (fun z => max (z + _) 0 * _) (Finset.sum_congr rfl fun a _ => ?_)
  rw [blk0_apply V c t p a ⟨t.val * 4096 + p.val, by omega⟩ rfl, blk1_apply V c t a b]

end

/-- An index of the output array is in point `t`'s block iff each coordinate is in the block's range on its axis. -/
theorem mem_blk5 (t : Fin cfg3.N) (i : S819200x1.Idx) :
    i ∈ ((cfg3.win 5).blk t).view.set ↔ ∀ a : Fin 2, win3_5.index t a * S4096x1.size a ≤ (i a).val ∧ (i a).val < win3_5.index t a * S4096x1.size a + S4096x1.size a := by
  show i ∈ ((View.whole main_v52).slice (win3_5.rect t)).set ↔ _
  rw [View.set_slice_whole, Rect.mem_set_unit]
  exact Iff.rfl

/-- Every row `r` of the output array is in the block of point `r / 4096`. -/
theorem cover3 (i : S819200x1.Idx) :
    ∃ t : Fin cfg3.N, (cfg3.win 5).flush t = true ∧ i ∈ ((cfg3.win 5).blk t).view.set := by
  have hi0 : (i 0).val < 819200 := idx2_lt0 i
  have hi1 : (i 1).val < 1 := idx2_lt1 i
  have hN : cfg3.N = 200 := N_3
  obtain ⟨t, ht⟩ : ∃ t : Fin cfg3.N, t.val = (i 0).val / 4096 := ⟨⟨(i 0).val / 4096, by rw [hN]; omega⟩, rfl⟩
  obtain ⟨-, -, -, -, -, -, -, -, -, -, e0, e1⟩ := idx_facts3 t
  refine ⟨t, flush3_5 t, ?_⟩
  rw [mem_blk5]
  intro a
  match a with
  | ⟨0, _⟩ => show win3_5.index t (0 : Fin 2) * 4096 ≤ (i 0).val ∧ (i 0).val < win3_5.index t (0 : Fin 2) * 4096 + 4096; rw [e0, ht]; omega
  | ⟨1, _⟩ => show win3_5.index t (1 : Fin 2) * 1 ≤ (i 1).val ∧ (i 1).val < win3_5.index t (1 : Fin 2) * 1 + 1; rw [e1]; omega

end R3

open R3 in
/-- Region 3 (the second edge perceptron, 200 blocks of 4096 edges): its output array after the region. -/
theorem arr3 (V : (c : Dev nD) → (b : Ref sig .tc) → Buf (Elt Ideal) ((c : Thread nD τ).loc b)) (c : Dev nD) :
    ((dat3 (F := Ideal) V c).arrAt 5 cfg3.N : Arr2 819200 1) =
      mlp (V c main_v49) (V c main_arg8) (row1 (V c main_v50)) (V c main_arg10) (row1 (V c main_v51)) :=
  (dat3 (F := Ideal) V c).arrAt_eq_of_cover 5 (out3 V c) (fun t _ => flushed3_eq V c t) cover3

end Cert.KernelIdeal.KV

end
-- ==== Proof.LibRows.lean ====
/-
  Row gathers and row scatter-adds of a matrix, read at an index.

  `x[idx]` for a matrix `x : [N, C]` and a column of indices `idx : [R, 1]` lowers to a gather with offset_dims [1],
  collapsed_slice_dims [0], start_index_map [0], index_vector_dim 1 and slice sizes [1, C]: result row `r` is the
  operand's row at `idx[r, 0]` read as a signed integer and clamped into [0, N − 1]. The matching scatter-add
  (update_window_dims [1], inserted_window_dims [0], scatter_dims_to_operand_dims [0], index_vector_dim 1) adds update
  row `r` onto operand row `idx[r, 0]`, read signed and NOT clamped, and drops it when that is no row.
-/
import Idealize.ShloMosaic.PureOps.Ideal
import Idealize.ShloMosaic.PureOps.Ideal.Laws
import Idealize.ShloMosaic.Lib.ValueIdx
import proofs.«431037_j76441827934550_1_alg».proof.Proof.Spec

noncomputable section

namespace Cert.LibRows

open Idealize.ShloMosaic Idealize.ShloMosaic.ValueIdx Cert.Spec

/-- The dimension numbers of a row gather; their conditions `wf` are decided on a program's literal shapes. -/
abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT AN INDEX: row `clamp(idx[r, 0])` of the operand. -/
theorem gather_rows {N C R : Nat} (hN : 0 < N)
    (wf : GatherDims.WF ⟨2, ![N, C]⟩ ⟨2, ![R, 1]⟩ ⟨2, ![R, C]⟩ [1] [0] [] [0] [] 1 ![1, C])
    (x : Arr2 N C) (idx : IdxCol R) : Host.gather (rowGatherDims N C R wf) x idx = rowGather hN x idx := by
  funext y
  unfold Host.gather rowGather
  congr 1
  funext a
  refine Fin.ext ?_
  match a with
  | ⟨0, _⟩ =>
    show (rowGatherDims N C R wf).start y idx 0 + (rowGatherDims N C R wf).batchCoord y 0
      + (rowGatherDims N C R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx y ⟨List.idxOf (0 : Fin 2) (rowGatherDims N C R wf).startIndexMap,
        List.idxOf_lt_length_iff.2 (List.mem_singleton.mpr rfl)⟩ = ix2 (r0 y) 0 := by
      funext b; refine Fin.ext ?_
      match b with
      | ⟨0, _⟩ => rfl
      | ⟨1, _⟩ => rfl
    rw [hsi]
    rfl
  | ⟨1, _⟩ =>
    show (rowGatherDims N C R wf).start y idx 1 + (rowGatherDims N C R wf).batchCoord y 1
      + (rowGatherDims N C R wf).offCoord y 1 = (y 1).val
    rw [GatherDims.batchCoord_eq_zero _ _ _ List.not_mem_nil]
    have hs : (rowGatherDims N C R wf).start y idx 1 = 0 := by
      unfold GatherDims.start
      rw [dif_neg (show (1 : Fin 2) ∉ [(0 : Fin 2)] by decide)]
    have hk : (1 : Fin 2) ∈ (rowGatherDims N C R wf).sKept :=
      (GatherDims.mem_sKept _ _).mpr ⟨(show (1 : Fin 2) ∉ [(0 : Fin 2)] by decide), List.not_mem_nil⟩
    have ho : (rowGatherDims N C R wf).offCoord y 1 = (y 1).val := by
      unfold GatherDims.offCoord
      rw [dif_pos hk]
      rfl
    rw [hs, ho]
    simp only [Nat.add_zero, Nat.zero_add]

/-- The dimension numbers of a row scatter. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start of update `(k, b)`'s window: on the row axis the index of row `k`, read signed; on the column axis zero. -/
theorem start_rows0 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 0 = (idx (ix2 k 0)).toInt := by
  unfold ScatterDims.start
  rw [dif_pos (show (0 : Fin 2) ∈ (rowScatterDims N C R wf).scatterDimsToOperandDims from List.mem_singleton.mpr rfl)]
  have hsi : (rowScatterDims N C R wf).siIdx (ix2 k b) ⟨List.idxOf (0 : Fin 2) (rowScatterDims N C R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

theorem start_rows1 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 1 = 0 := by
  unfold ScatterDims.start
  rw [dif_neg (show (1 : Fin 2) ∉ [(0 : Fin 2)] by decide)]

/-- The window coordinate of update `(k, b)`: zero on the row axis, `b` on the column axis. -/
theorem window_rows0 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 0 = 0 := by
  unfold ScatterDims.window
  rw [dif_neg (show (0 : Fin 2) ∉ (rowScatterDims N C R wf).sKept by
    simp [ScatterDims.sKept, Shape.kept, List.mem_filter])]

theorem window_rows1 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 1 = b.val := by
  unfold ScatterDims.window
  rw [dif_pos (show (1 : Fin 2) ∈ (rowScatterDims N C R wf).sKept by
    simp [ScatterDims.sKept, Shape.kept, List.mem_filter, List.mem_finRange])]
  rfl

/-- Update `(k, b)` lands on `y` exactly when row `k`'s index, read signed, is `y`'s row and `b` is `y`'s column. -/
theorem resultIdx_rows {N C R : Nat} (wf : ScatterDims.WF ⟨2, ![N, C]⟩ ⟨2, ![R, 1]⟩ ⟨2, ![R, C]⟩ [1] [0] [0] 1)
    (idx : IdxCol R) (k : Fin R) (b : Fin C) (y : (⟨2, ![N, C]⟩ : Shape).Idx) :
    ((rowScatterDims N C R wf).resultIdx? (ix2 k b) idx = some y)
      ↔ ((idx (ix2 k 0)).toInt = ((r0 y).val : Int) ∧ r1 y = b) := by
  have hy0 : (y 0).val < N := idx2_lt0 y
  have hb : b.val < C := b.isLt
  unfold ScatterDims.resultIdx?
  split
  · rename_i h
    rw [Option.some.injEq]
    constructor
    · intro hf
      have h0 := congrArg (fun f => (f 0).val) hf
      have h1 := congrArg (fun f => (f 1).val) hf
      have g0 := (h 0).1
      simp only [start_rows0, start_rows1, window_rows0, window_rows1] at h0 h1 g0
      refine ⟨?_, Fin.ext ?_⟩
      · show _ = ((y 0).val : Int)
        omega
      · show (y 1).val = b.val
        omega
    · rintro ⟨h0, h1⟩
      have h1' : (y 1).val = b.val := congrArg Fin.val h1
      have h0' : (idx (ix2 k 0)).toInt = ((y 0).val : Int) := h0
      funext a
      refine Fin.ext ?_
      match a with
      | ⟨0, _⟩ =>
        show ((rowScatterDims N C R wf).start (ix2 k b) idx 0 + ((rowScatterDims N C R wf).window (ix2 k b) 0 : Nat)).toNat = (y 0).val
        rw [start_rows0, window_rows0]
        omega
      | ⟨1, _⟩ =>
        show ((rowScatterDims N C R wf).start (ix2 k b) idx 1 + ((rowScatterDims N C R wf).window (ix2 k b) 1 : Nat)).toNat = (y 1).val
        rw [start_rows1, window_rows1]
        omega
  · rename_i h
    constructor
    · intro hf
      exact absurd hf (by simp)
    · rintro ⟨h0, h1⟩
      have h1' : (y 1).val = b.val := congrArg Fin.val h1
      have h0' : (idx (ix2 k 0)).toInt = ((y 0).val : Int) := h0
      exfalso
      apply h
      intro a
      match a with
      | ⟨0, _⟩ =>
        show 0 ≤ (rowScatterDims N C R wf).start (ix2 k b) idx 0 + ((rowScatterDims N C R wf).window (ix2 k b) 0 : Nat)
          ∧ (rowScatterDims N C R wf).start (ix2 k b) idx 0 + ((rowScatterDims N C R wf).window (ix2 k b) 0 : Nat) < (N : Int)
        rw [start_rows0, window_rows0]
        omega
      | ⟨1, _⟩ =>
        show 0 ≤ (rowScatterDims N C R wf).start (ix2 k b) idx 1 + ((rowScatterDims N C R wf).window (ix2 k b) 1 : Nat)
          ∧ (rowScatterDims N C R wf).start (ix2 k b) idx 1 + ((rowScatterDims N C R wf).window (ix2 k b) 1 : Nat) < (C : Int)
        rw [start_rows1, window_rows1]
        omega

/-- THE ROW SCATTER-ADD READ AT AN INDEX, on the extended reals: the operand's entry plus the sum of the update entries
    of the same column in the rows whose index is this row. -/
theorem scatterAdd_rows {N C R : Nat} (wf : ScatterDims.WF ⟨2, ![N, C]⟩ ⟨2, ![R, 1]⟩ ⟨2, ![R, C]⟩ [1] [0] [0] 1)
    (x : Arr2 N C) (idx : IdxCol R) (u : Arr2 R C) :
    Host.scatterAdd (F := Ideal) (φ := .f32) (rowScatterDims N C R wf) x idx u = fun y => x y + rowScatterSum idx u y := by
  funext y
  show x y + ∑ j ∈ Finset.univ.filter (fun j => (rowScatterDims N C R wf).resultIdx? j idx = some y), u j
    = x y + rowScatterSum idx u y
  congr 1
  unfold rowScatterSum
  rw [Finset.sum_filter, sum_idx2]
  refine Finset.sum_congr rfl fun k _ => ?_
  simp only [resultIdx_rows wf idx k _ y]
  by_cases h : (idx (ix2 k 0)).toInt = ((r0 y).val : Int)
  · simp only [h, true_and, Finset.sum_ite_eq, Finset.mem_univ, if_true]
  · simp only [h, false_and, if_false, Finset.sum_const_zero]

/-- jnp's negative-index wrap, one word: `select (v < 0) (v + n) v`. -/
theorem wrap_word (n : Nat) (v : BitVec 32) :
    Scalar.select (IntOp.cmpi .slt v 0#32) (IntOp.addi v (BitVec.ofNat 32 n)) v = wrapN n v := by
  unfold Scalar.select IntOp.cmpi IntOp.addi wrapN
  by_cases h : v.toInt < 0
  · have hs : v.slt 0#32 = true := by simp [BitVec.slt, h]
    simp only [hs, if_pos h]
    rfl
  · have hs : v.slt 0#32 = false := by simp [BitVec.slt, h]
    simp only [hs, if_neg h]
    rfl

end Cert.LibRows

end
-- ==== Proof.KHostA.lean ====
import proofs.«431037_j76441827934550_1_alg».proof.Proof.KernelIdealFrameP
import proofs.«431037_j76441827934550_1_alg».proof.Proof.Spec
import Idealize.ShloMosaic.Lib.ValueLayout
import proofs.«431037_j76441827934550_1_alg».proof.Proof.LibRows
import Idealize.ShloMosaic.Lib.Pipeline.Value
set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec

/-! The contents of the buffers the first two regions read, through the host operations before region 0 and between
    regions 0 and 1, as functions of the launch memory `m`. (`V1`: at region 0's entry; `V2`: at its exit;
    `V3`: at region 1's entry.) -/

namespace HA

/-! ## The host operations read at an index, over any sizes -/

section Generic

/-- A word vector spread down a column reads, in row `r`, the vector's entry `r`. -/
theorem col_apply {R : Nat} (h : (⟨1, ![R]⟩ : Shape).BroadcastsInDim ⟨2, ![R, 1]⟩ ![0])
    (v : (⟨1, ![R]⟩ : Shape).Idx → BitVec 32) (y : (⟨2, ![R, 1]⟩ : Shape).Idx) :
    broadcastInDim ⟨2, ![R, 1]⟩ ![0] h v y = v (ix1 (r0 y)) :=
  broadcastInDim_apply _ h v y _ (fun a => by
    match a with
    | ⟨0, _⟩ =>
      show (r0 y).val = if R = 1 then 0 else (y 0).val
      split
      · have := idx2_lt0 y; omega
      · rfl)

/-- A constant word spread over a vector reads the word everywhere. -/
theorem splat_apply {R : Nat} (h : (⟨0, ![]⟩ : Shape).BroadcastsInDim ⟨1, ![R]⟩ ![]) (b : BitVec 32)
    (i : (⟨1, ![R]⟩ : Shape).Idx) : broadcastInDim ⟨1, ![R]⟩ ![] h (constantI ⟨0, ![]⟩ 32 b) i = b :=
  broadcastInDim_apply _ h _ i ix0 (fun a => a.elim0)

/-- The negative-index wrap of a word vector, entry by entry. -/
theorem wrap_apply {R : Nat} (h : (⟨0, ![]⟩ : Shape).BroadcastsInDim ⟨1, ![R]⟩ ![]) (n : Nat)
    (v : (⟨1, ![R]⟩ : Shape).Idx → BitVec 32) (i : (⟨1, ![R]⟩ : Shape).Idx) :
    select (cmpi .slt v (broadcastInDim ⟨1, ![R]⟩ ![] h (constantI ⟨0, ![]⟩ 32 0#32)))
      (addi v (broadcastInDim ⟨1, ![R]⟩ ![] h (constantI ⟨0, ![]⟩ 32 (BitVec.ofNat 32 n)))) v i = wrapN n (v i) := by
  show Scalar.select (IntOp.cmpi .slt (v i) (broadcastInDim ⟨1, ![R]⟩ ![] h (constantI ⟨0, ![]⟩ 32 0#32) i))
    (IntOp.addi (v i) (broadcastInDim ⟨1, ![R]⟩ ![] h (constantI ⟨0, ![]⟩ 32 (BitVec.ofNat 32 n)) i)) (v i) = _
  rw [splat_apply, splat_apply]
  exact Cert.LibRows.wrap_word n (v i)

/-- Row `r` of a two-row word matrix, cut out and flattened, reads the matrix's entry `(r, k)`. -/
theorem edge_row {E : Nat} (ei : (⟨2, ![2, E]⟩ : Shape).Idx → BitVec 32) (o : Nat) (r : Fin 2) (hr : r.val = o)
    (hs : (⟨2, ![2, E]⟩ : Shape).Slices ![o, 0] ⟨2, ![1, E]⟩) (hc : (⟨2, ![1, E]⟩ : Shape).ShapeCasts ⟨1, ![E]⟩) (k : Fin E) :
    shapeCast ⟨1, ![E]⟩ (extractStridedSlice ⟨2, ![1, E]⟩ ![o, 0] ei hs) hc (ix1 k) = ei (ix2 r k) :=
  (shapeCast_1a_a_apply _ hc k).trans (slice2_axis0_apply o ei hs (0 : Fin 1) k r (by simp [hr]))

/-- Two matrices joined along the columns. -/
theorem concat_cols {R A B C : Nat}
    (h : Shape.Concatenates [(⟨2, ![R, A]⟩ : Shape), ⟨2, ![R, B]⟩] ⟨2, ![R, C]⟩ 1) (a : Arr2 R A) (b : Arr2 R B) :
    concatenate ⟨2, ![R, C]⟩ 1 [⟨⟨2, ![R, A]⟩, a⟩, ⟨⟨2, ![R, B]⟩, b⟩] h = catCols C a b := by
  funext y
  have hsum : A + B = C := by
    have := h.2.2
    simpa using this
  have hy := idx2_lt1 y
  unfold catCols
  by_cases hlt : (r1 y).val < A
  · rw [dif_pos hlt]
    exact concatenate_pair_apply_left 1 a b h y rfl _ (fun bb => by
      match bb with
      | ⟨0, _⟩ => rfl
      | ⟨1, _⟩ => rfl)
  · rw [dif_neg hlt]
    have h' : (r1 y).val - A < B := by
      show (y 1).val - A < B
      have : ¬ (y 1).val < A := hlt
      omega
    rw [dif_pos h']
    exact concatenate_pair_apply_right 1 a b h y rfl rfl _ (fun bb hb => by
      match bb with
      | ⟨0, _⟩ => rfl
      | ⟨1, _⟩ => exact absurd rfl hb) (by
        show (y 1).val - A + A = (y 1).val
        have : ¬ (y 1).val < A := hlt
        omega)

/-- A word vector cut out of a two-row matrix and spread down a column: row `r` of the matrix, entry by entry. -/
theorem plain_col {E : Nat} (ei : (⟨2, ![2, E]⟩ : Shape).Idx → BitVec 32) (o : Nat) (r : Fin 2) (hr : r.val = o)
    (hs : (⟨2, ![2, E]⟩ : Shape).Slices ![o, 0] ⟨2, ![1, E]⟩) (hc : (⟨2, ![1, E]⟩ : Shape).ShapeCasts ⟨1, ![E]⟩)
    (h1 : (⟨1, ![E]⟩ : Shape).BroadcastsInDim ⟨2, ![E, 1]⟩ ![0]) :
    broadcastInDim ⟨2, ![E, 1]⟩ ![0] h1 (shapeCast ⟨1, ![E]⟩ (extractStridedSlice ⟨2, ![1, E]⟩ ![o, 0] ei hs) hc)
      = fun y => ei (ix2 r (r0 y)) := by
  funext y
  rw [col_apply, edge_row ei o r hr]

/-- The same with the negative entries wrapped. -/
theorem wrapped_col {E : Nat} (n : Nat) (ei : (⟨2, ![2, E]⟩ : Shape).Idx → BitVec 32) (o : Nat) (r : Fin 2) (hr : r.val = o)
    (hs : (⟨2, ![2, E]⟩ : Shape).Slices ![o, 0] ⟨2, ![1, E]⟩) (hc : (⟨2, ![1, E]⟩ : Shape).ShapeCasts ⟨1, ![E]⟩)
    (h0 : (⟨0, ![]⟩ : Shape).BroadcastsInDim ⟨1, ![E]⟩ ![])
    (h1 : (⟨1, ![E]⟩ : Shape).BroadcastsInDim ⟨2, ![E, 1]⟩ ![0]) :
    broadcastInDim ⟨2, ![E, 1]⟩ ![0] h1
      (select (cmpi .slt (shapeCast ⟨1, ![E]⟩ (extractStridedSlice ⟨2, ![1, E]⟩ ![o, 0] ei hs) hc)
          (broadcastInDim ⟨1, ![E]⟩ ![] h0 (constantI ⟨0, ![]⟩ 32 0#32)))
        (addi (shapeCast ⟨1, ![E]⟩ (extractStridedSlice ⟨2, ![1, E]⟩ ![o, 0] ei hs) hc)
          (broadcastInDim ⟨1, ![E]⟩ ![] h0 (constantI ⟨0, ![]⟩ 32 (BitVec.ofNat 32 n))))
        (shapeCast ⟨1, ![E]⟩ (extractStridedSlice ⟨2, ![1, E]⟩ ![o, 0] ei hs) hc))
      = wrapCol n (fun y => ei (ix2 r (r0 y))) := by
  funext y
  rw [col_apply, wrap_apply, edge_row ei o r hr]
  rfl

/-- The zero word of the 32-bit floats spread over an array is the array of zeros. -/
theorem zeros_eq {s : Shape} (h : (⟨0, ![]⟩ : Shape).BroadcastsInDim s ![]) :
    broadcastInDim s ![] h (constant (F := Ideal) ⟨0, ![]⟩ .f32 0x00000000#32) = fun _ => (0 : EReal) := by
  funext y
  exact (broadcastInDim_apply _ h _ y ix0 (fun a => a.elim0)).trans Ideal.ofBits_zero_f32

end Generic

/-! ## The edge list's two rows at region 0's entry -/

section Rows
variable (m : (ℓ : Loc nD τ sig) → Buf (Elt Ideal) ℓ) (ρ : Dev nD → PrngReg) (c : Dev nD)

/-- The destinations' word vector at region 0's entry: row 1 of the edge list, cut out and flattened. -/
theorem v1_dst : (V1 m ρ c main_v3 : S819200.Idx → BitVec 32)
    = shapeCast S819200 (extractStridedSlice S1x819200 ![1, 0] (m ((c.tc : Thread nD τ).loc main_arg2)) slices_S2x819200_S1x819200_1_0)
        shapeCasts_S1x819200_S819200 := by
  dsimp only [V1, W1, hostOps0]; after_results; rfl
/-- The sources' word vector at region 0's entry: row 0 of the edge list, cut out and flattened. -/
theorem v1_src : (V1 m ρ c main_v1 : S819200.Idx → BitVec 32)
    = shapeCast S819200 (extractStridedSlice S1x819200 ![0, 0] (m ((c.tc : Thread nD τ).loc main_arg2)) slices_S2x819200_S1x819200_0_0)
        shapeCasts_S1x819200_S819200 := by
  dsimp only [V1, W1, hostOps0]; after_results; rfl

end Rows

end HA

variable (m : (ℓ : Loc nD τ sig) → Buf (Elt Ideal) ℓ) (ρ : Dev nD → PrngReg) (c : Dev nD)

open HA in
/-- The two biases as one-row matrices. -/
theorem v1_b1 : row1 (V1 m ρ c main_v27) = (m ((c.tc : Thread nD τ).loc main_arg5)) := by
  have e : (V1 m ρ c main_v27 : S1x128.Idx → EReal)
      = shapeCast S1x128 (m ((c.tc : Thread nD τ).loc main_arg5)) shapeCasts_S128_S1x128 := by
    dsimp only [V1, W1, hostOps0]; after_results; rfl
  funext j
  show V1 m ρ c main_v27 (ix2 0 (c0 j)) = _
  rw [e]
  exact (shapeCast_a_1a_apply _ _ 0 (c0 j)).trans (congrArg _ (eq_ix1 j).symm)
open HA in
theorem v1_b2 : row1 (V1 m ρ c main_v28) = (m ((c.tc : Thread nD τ).loc main_arg7)) := by
  have e : (V1 m ρ c main_v28 : S1x64.Idx → EReal)
      = shapeCast S1x64 (m ((c.tc : Thread nD τ).loc main_arg7)) shapeCasts_S64_S1x64 := by
    dsimp only [V1, W1, hostOps0]; after_results; rfl
  funext j
  show V1 m ρ c main_v28 (ix2 0 (c0 j)) = _
  rw [e]
  exact (shapeCast_a_1a_apply _ _ 0 (c0 j)).trans (congrArg _ (eq_ix1 j).symm)
open HA in
/-- The weights, untouched. -/
theorem v1_W1 : V1 m ρ c main_arg4 = (m ((c.tc : Thread nD τ).loc main_arg4)) :=
  calc V1 m ρ c main_arg4
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg4) := rfl
open HA in
theorem v1_W2 : V1 m ρ c main_arg6 = (m ((c.tc : Thread nD τ).loc main_arg6)) :=
  calc V1 m ρ c main_arg6
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg6) := rfl
open HA in
/-- The labels as a one-row matrix. -/
theorem v1_lab : lab (V1 m ρ c main_v4) = fun i => (m ((c.tc : Thread nD τ).loc main_arg3)) (ix1 i) := by
  have e : (V1 m ρ c main_v4 : S1x51200.Idx → BitVec 32)
      = shapeCast S1x51200 (m ((c.tc : Thread nD τ).loc main_arg3)) shapeCasts_S51200_S1x51200 := by
    dsimp only [V1, W1, hostOps0]; after_results; rfl
  funext i
  show V1 m ρ c main_v4 (ix2 0 i) = _
  rw [e]
  exact shapeCast_a_1a_apply _ _ 0 i
open HA in
/-- Region 0's output array at its exit is what the pipeline leaves. -/
theorem v2_m : V2 m ρ c main_v29 = (dat0 (V1 m ρ) c).arrAt 6 cfg0.N :=
  W2_arr m ρ c 6
open HA in
/-- The node sums: a scatter-add of region 0's output rows onto zeros at the destinations. -/
theorem v3_g : (V3 m ρ c main_v32 : Arr2 51200 64) = fun y => 0 + rowScatterSum (dstCol (m ((c.tc : Thread nD τ).loc main_arg2))) (V2 m ρ c main_v29 : Arr2 819200 64) y := by
  have e : (V3 m ρ c main_v32 : Arr2 51200 64)
      = Host.scatterAdd (F := Ideal) (φ := .f32) scatter_S51200x64_S819200x1_S819200x64_1_0_0_1
        (broadcastInDim S51200x64 ![] bcast_S_S51200x64 (constant (F := Ideal) S_ .f32 0x00000000#32))
        (broadcastInDim S819200x1 ![0] bcast_S819200_S819200x1_0 (V2 m ρ c main_v3))
        (V2 m ρ c main_v29) := by
    dsimp only [V3, W3, hostOps1]; after_results
  have h3 : (V2 m ρ c main_v3 : S819200.Idx → BitVec 32) = V1 m ρ c main_v3 := W2_of_ne m ρ c main_v3 (by decide)
  rw [e, h3, v1_dst, zeros_eq, plain_col (m ((c.tc : Thread nD τ).loc main_arg2)) 1 1 rfl]
  exact Cert.LibRows.scatterAdd_rows scatter_S51200x64_S819200x1_S819200x64_1_0_0_1_wf _ _ _
open HA in
/-- The labels reach region 1 unchanged. -/
theorem v3_lab : V3 m ρ c main_v4 = V1 m ρ c main_v4 :=
  calc V3 m ρ c main_v4
    _ = W2 m ρ c (Proc.devRef .tc main_v4) := StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v4) := W2_of_ne m ρ c main_v4 (by decide)

end Cert.KernelIdeal.KV

end
-- ==== Proof.LibCols.lean ====
/-
  Host array operations read at an index, in the forms a gather / scatter / perceptron program uses them: an index
  column out of a vector of words, jnp's negative-index wrap, a row of a two-row word matrix, two matrices side by side,
  a bias spread over the rows, a plain matrix product on the host.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«431037_j76441827934550_1_alg».proof.Proof.Spec
import proofs.«431037_j76441827934550_1_alg».proof.Proof.LibRows

noncomputable section

namespace Cert.LibCols

open Idealize.ShloMosaic Idealize.ShloMosaic.ValueIdx Cert.Spec

variable {α : Type}

/-! ## 1. A vector as a one-column matrix -/

/-- A vector of length `R` spread as an `[R, 1]` column reads, at `(r, 0)`, the vector at `r`. -/
theorem col_of_vec {R : Nat} (hb : (⟨1, ![R]⟩ : Shape).BroadcastsInDim ⟨2, ![R, 1]⟩ (![0] : Fin 1 → Fin 2))
    (v : (⟨1, ![R]⟩ : Shape).Idx → α) :
    broadcastInDim ⟨2, ![R, 1]⟩ ![0] hb v = fun y => v (ix1 (r0 y)) := by
  funext y
  refine broadcastInDim_apply _ hb v y (ix1 (r0 y)) (fun a => ?_)
  match a with
  | ⟨0, _⟩ =>
    show (y 0).val = if R = 1 then 0 else (y 0).val
    have := idx2_lt0 y
    split <;> omega

theorem col_of_vec_apply {R : Nat} (hb : (⟨1, ![R]⟩ : Shape).BroadcastsInDim ⟨2, ![R, 1]⟩ (![0] : Fin 1 → Fin 2))
    (v : (⟨1, ![R]⟩ : Shape).Idx → α) (y : (⟨2, ![R, 1]⟩ : Shape).Idx) :
    broadcastInDim ⟨2, ![R, 1]⟩ ![0] hb v y = v (ix1 (r0 y)) := congrFun (col_of_vec hb v) y

/-! ## 2. The negative-index wrap of an array of words: `select (v < 0) (v + n) v` -/

/-- A scalar spread over any shape reads the scalar everywhere. -/
theorem splat_apply {s : Shape} (h0 : (⟨0, ![]⟩ : Shape).BroadcastsInDim s (![] : Fin 0 → Fin s.rank))
    (c : (⟨0, ![]⟩ : Shape).Idx → α) (j : s.Idx) : broadcastInDim s ![] h0 c j = c ix0 := by
  unfold broadcastInDim
  exact congrArg c (funext fun a => a.elim0)

/-- The wrap of every word of an array of any shape, the added word `w` being the word of `n`. -/
theorem wrap_vec' {s : Shape} (h0 : (⟨0, ![]⟩ : Shape).BroadcastsInDim s (![] : Fin 0 → Fin s.rank)) (n : Nat)
    (w : BitVec 32) (hw : w = BitVec.ofNat 32 n) (v : IVec s 32) :
    select (cmpi .slt v (broadcastInDim s ![] h0 (constantI ⟨0, ![]⟩ 32 0#32)))
      (addi v (broadcastInDim s ![] h0 (constantI ⟨0, ![]⟩ 32 w))) v = fun j => wrapN n (v j) := by
  subst hw
  funext j
  rw [select_apply]
  show Scalar.select (IntOp.cmpi .slt (v j) 0#32) (IntOp.addi (v j) (BitVec.ofNat 32 n)) (v j) = _
  exact Cert.LibRows.wrap_word n (v j)

/-- The same with the added word written `BitVec.ofNat 32 n`, which is what a literal `n#32` is. -/
theorem wrap_vec {s : Shape} (h0 : (⟨0, ![]⟩ : Shape).BroadcastsInDim s (![] : Fin 0 → Fin s.rank)) (n : Nat) (v : IVec s 32) :
    select (cmpi .slt v (broadcastInDim s ![] h0 (constantI ⟨0, ![]⟩ 32 0#32)))
      (addi v (broadcastInDim s ![] h0 (constantI ⟨0, ![]⟩ 32 (BitVec.ofNat 32 n)))) v = fun j => wrapN n (v j) :=
  wrap_vec' h0 n _ rfl v

/-- The wrapped vector as an index column: the wrap of the column of the vector. -/
theorem wrap_col {R : Nat} (h0 : (⟨0, ![]⟩ : Shape).BroadcastsInDim ⟨1, ![R]⟩ (![] : Fin 0 → Fin 1))
    (hb : (⟨1, ![R]⟩ : Shape).BroadcastsInDim ⟨2, ![R, 1]⟩ (![0] : Fin 1 → Fin 2)) (n : Nat) (v : IVec ⟨1, ![R]⟩ 32) :
    broadcastInDim ⟨2, ![R, 1]⟩ ![0] hb
      (select (cmpi .slt v (broadcastInDim ⟨1, ![R]⟩ ![] h0 (constantI ⟨0, ![]⟩ 32 0#32)))
        (addi v (broadcastInDim ⟨1, ![R]⟩ ![] h0 (constantI ⟨0, ![]⟩ 32 (BitVec.ofNat 32 n)))) v)
      = wrapCol n (fun y => v (ix1 (r0 y))) := by
  rw [wrap_vec h0 n v, col_of_vec hb]
  rfl

/-! ## 3. A row of a word matrix as a vector, and the edge list's index columns -/

/-- Row `r` of an `[M, E]` matrix, cut out as `[1, E]` and reshaped to `[E]`, reads at `j` the matrix at `(r, j)`. -/
theorem row_of_mat {M E : Nat} (r : Nat) (hr : r < M) (hs : (⟨2, ![M, E]⟩ : Shape).Slices ![r, 0] ⟨2, ![1, E]⟩)
    (hc : (⟨2, ![1, E]⟩ : Shape).ShapeCasts ⟨1, ![E]⟩) (ei : (⟨2, ![M, E]⟩ : Shape).Idx → α) :
    shapeCast ⟨1, ![E]⟩ (extractStridedSlice ⟨2, ![1, E]⟩ ![r, 0] ei hs) hc = fun j => ei (ix2 ⟨r, hr⟩ (c0 j)) := by
  funext j
  obtain ⟨i, rfl⟩ : ∃ i, j = ix1 i := ⟨j 0, eq_ix1 j⟩
  rw [shapeCast_1a_a_apply _ hc i, slice2_axis0_apply r ei hs 0 i ⟨r, hr⟩ (Nat.add_zero r).symm]
  rfl

/-- Row 0 of a two-row matrix. -/
theorem row0_of_mat {E : Nat} (hs : (⟨2, ![2, E]⟩ : Shape).Slices ![0, 0] ⟨2, ![1, E]⟩)
    (hc : (⟨2, ![1, E]⟩ : Shape).ShapeCasts ⟨1, ![E]⟩) (ei : (⟨2, ![2, E]⟩ : Shape).Idx → α) :
    shapeCast ⟨1, ![E]⟩ (extractStridedSlice ⟨2, ![1, E]⟩ ![0, 0] ei hs) hc = fun j => ei (ix2 0 (c0 j)) :=
  row_of_mat 0 (by decide) hs hc ei

/-- Row 1 of a two-row matrix. -/
theorem row1_of_mat {E : Nat} (hs : (⟨2, ![2, E]⟩ : Shape).Slices ![1, 0] ⟨2, ![1, E]⟩)
    (hc : (⟨2, ![1, E]⟩ : Shape).ShapeCasts ⟨1, ![E]⟩) (ei : (⟨2, ![2, E]⟩ : Shape).Idx → α) :
    shapeCast ⟨1, ![E]⟩ (extractStridedSlice ⟨2, ![1, E]⟩ ![1, 0] ei hs) hc = fun j => ei (ix2 1 (c0 j)) :=
  row_of_mat 1 (by decide) hs hc ei

/-- The scatter's index column: row 1 of the edge list as a column is the destination column. -/
theorem dst_col (hs : (⟨2, ![2, 819200]⟩ : Shape).Slices ![1, 0] ⟨2, ![1, 819200]⟩)
    (hc : (⟨2, ![1, 819200]⟩ : Shape).ShapeCasts ⟨1, ![819200]⟩)
    (hb : (⟨1, ![819200]⟩ : Shape).BroadcastsInDim ⟨2, ![819200, 1]⟩ (![0] : Fin 1 → Fin 2))
    (ei : (⟨2, ![2, 819200]⟩ : Shape).Idx → BitVec 32) :
    broadcastInDim ⟨2, ![819200, 1]⟩ ![0] hb (shapeCast ⟨1, ![819200]⟩ (extractStridedSlice ⟨2, ![1, 819200]⟩ ![1, 0] ei hs) hc)
      = dstCol ei := by
  rw [row1_of_mat hs hc ei, col_of_vec hb]
  rfl

/-- Row 0 of the edge list as a column is the source column. -/
theorem src_col (hs : (⟨2, ![2, 819200]⟩ : Shape).Slices ![0, 0] ⟨2, ![1, 819200]⟩)
    (hc : (⟨2, ![1, 819200]⟩ : Shape).ShapeCasts ⟨1, ![819200]⟩)
    (hb : (⟨1, ![819200]⟩ : Shape).BroadcastsInDim ⟨2, ![819200, 1]⟩ (![0] : Fin 1 → Fin 2))
    (ei : (⟨2, ![2, 819200]⟩ : Shape).Idx → BitVec 32) :
    broadcastInDim ⟨2, ![819200, 1]⟩ ![0] hb (shapeCast ⟨1, ![819200]⟩ (extractStridedSlice ⟨2, ![1, 819200]⟩ ![0, 0] ei hs) hc)
      = srcCol ei := by
  rw [row0_of_mat hs hc ei, col_of_vec hb]
  rfl

/-- A gather's index column: row 1 of the edge list, wrapped by `n`, as a column. -/
theorem dst_wrap_col (hs : (⟨2, ![2, 819200]⟩ : Shape).Slices ![1, 0] ⟨2, ![1, 819200]⟩)
    (hc : (⟨2, ![1, 819200]⟩ : Shape).ShapeCasts ⟨1, ![819200]⟩)
    (h0 : (⟨0, ![]⟩ : Shape).BroadcastsInDim ⟨1, ![819200]⟩ (![] : Fin 0 → Fin 1))
    (hb : (⟨1, ![819200]⟩ : Shape).BroadcastsInDim ⟨2, ![819200, 1]⟩ (![0] : Fin 1 → Fin 2)) (n : Nat)
    (ei : (⟨2, ![2, 819200]⟩ : Shape).Idx → BitVec 32) :
    broadcastInDim ⟨2, ![819200, 1]⟩ ![0] hb
      (select (cmpi .slt (shapeCast ⟨1, ![819200]⟩ (extractStridedSlice ⟨2, ![1, 819200]⟩ ![1, 0] ei hs) hc)
          (broadcastInDim ⟨1, ![819200]⟩ ![] h0 (constantI ⟨0, ![]⟩ 32 0#32)))
        (addi (shapeCast ⟨1, ![819200]⟩ (extractStridedSlice ⟨2, ![1, 819200]⟩ ![1, 0] ei hs) hc)
          (broadcastInDim ⟨1, ![819200]⟩ ![] h0 (constantI ⟨0, ![]⟩ 32 (BitVec.ofNat 32 n))))
        (shapeCast ⟨1, ![819200]⟩ (extractStridedSlice ⟨2, ![1, 819200]⟩ ![1, 0] ei hs) hc))
      = wrapCol n (dstCol ei) := by
  refine (wrap_col h0 hb n _).trans ?_
  rw [row1_of_mat hs hc ei]
  rfl

/-- A gather's index column: row 0 of the edge list, wrapped by `n`, as a column. -/
theorem src_wrap_col (hs : (⟨2, ![2, 819200]⟩ : Shape).Slices ![0, 0] ⟨2, ![1, 819200]⟩)
    (hc : (⟨2, ![1, 819200]⟩ : Shape).ShapeCasts ⟨1, ![819200]⟩)
    (h0 : (⟨0, ![]⟩ : Shape).BroadcastsInDim ⟨1, ![819200]⟩ (![] : Fin 0 → Fin 1))
    (hb : (⟨1, ![819200]⟩ : Shape).BroadcastsInDim ⟨2, ![819200, 1]⟩ (![0] : Fin 1 → Fin 2)) (n : Nat)
    (ei : (⟨2, ![2, 819200]⟩ : Shape).Idx → BitVec 32) :
    broadcastInDim ⟨2, ![819200, 1]⟩ ![0] hb
      (select (cmpi .slt (shapeCast ⟨1, ![819200]⟩ (extractStridedSlice ⟨2, ![1, 819200]⟩ ![0, 0] ei hs) hc)
          (broadcastInDim ⟨1, ![819200]⟩ ![] h0 (constantI ⟨0, ![]⟩ 32 0#32)))
        (addi (shapeCast ⟨1, ![819200]⟩ (extractStridedSlice ⟨2, ![1, 819200]⟩ ![0, 0] ei hs) hc)
          (broadcastInDim ⟨1, ![819200]⟩ ![] h0 (constantI ⟨0, ![]⟩ 32 (BitVec.ofNat 32 n))))
        (shapeCast ⟨1, ![819200]⟩ (extractStridedSlice ⟨2, ![1, 819200]⟩ ![0, 0] ei hs) hc))
      = wrapCol n (srcCol ei) := by
  refine (wrap_col h0 hb n _).trans ?_
  rw [row0_of_mat hs hc ei]
  rfl

/-! ## 4. Two matrices side by side -/

/-- The concatenation of an `[R, A]` and an `[R, B]` matrix along the columns. -/
theorem concat_cols {R A B C : Nat}
    (h : Shape.Concatenates [(⟨2, ![R, A]⟩ : Shape), (⟨2, ![R, B]⟩ : Shape)] ⟨2, ![R, C]⟩ 1) (a : Arr2 R A) (b : Arr2 R B) :
    concatenate ⟨2, ![R, C]⟩ 1 [⟨⟨2, ![R, A]⟩, a⟩, ⟨⟨2, ![R, B]⟩, b⟩] h = catCols C a b := by
  have hC : A + (B + 0) = C := h.2.2
  funext y
  have hy1 : (y 1).val < C := idx2_lt1 y
  unfold catCols
  by_cases hA : (r1 y).val < A
  · rw [dif_pos hA]
    exact concatenate_pair_apply_left 1 a b h y rfl (ix2 (r0 y) ⟨(r1 y).val, hA⟩) (fun c => by
      match c with
      | ⟨0, _⟩ => rfl
      | ⟨1, _⟩ => rfl)
  · have hA' : A ≤ (y 1).val := Nat.not_lt.1 hA
    have hB : (r1 y).val - A < B := by show (y 1).val - A < B; omega
    rw [dif_neg hA, dif_pos hB]
    exact concatenate_pair_apply_right 1 a b h y rfl rfl (ix2 (r0 y) ⟨(r1 y).val - A, hB⟩) (fun c hc => by
      match c with
      | ⟨0, _⟩ => rfl
      | ⟨1, _⟩ => exact absurd rfl hc) (by show (y 1).val - A + A = (y 1).val; omega)

/-! ## 5. A bias over the rows, a column over the columns, the zero splat -/

/-- A vector of length `C` spread over the rows of an `[R, C]` matrix (through `[1, C]`) reads, at `(r, c)`, the vector at `c`. -/
theorem bias_rows_apply {R C : Nat} (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2)) (b : (⟨1, ![C]⟩ : Shape).Idx → α)
    (y : (⟨2, ![R, C]⟩ : Shape).Idx) :
    broadcastInDim ⟨2, ![R, C]⟩ ![0, 1] h2 (broadcastInDim ⟨2, ![1, C]⟩ ![1] h1 b) y = b (ix1 (r1 y)) := by
  rw [broadcastInDim_apply _ h2 _ y (ix2 (0 : Fin 1) (r1 y)) (fun a => by
    match a with
    | ⟨0, _⟩ => show (0 : Nat) = if (1 : Nat) = 1 then 0 else (y 0).val; rw [if_pos rfl]
    | ⟨1, _⟩ => show (y 1).val = if C = 1 then 0 else (y 1).val; have := idx2_lt1 y; split <;> omega)]
  exact broadcastInDim_apply _ h1 b _ (ix1 (r1 y)) (fun a => by
    match a with
    | ⟨0, _⟩ => show (y 1).val = if C = 1 then 0 else (y 1).val; have := idx2_lt1 y; split <;> omega)

theorem bias_rows {R C : Nat} (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2)) (b : (⟨1, ![C]⟩ : Shape).Idx → α) :
    broadcastInDim ⟨2, ![R, C]⟩ ![0, 1] h2 (broadcastInDim ⟨2, ![1, C]⟩ ![1] h1 b) = fun y => b (ix1 (r1 y)) :=
  funext (bias_rows_apply h1 h2 b)

/-- An `[R, 1]` column spread over the columns of an `[R, C]` matrix reads, at `(r, c)`, the column at `(r, 0)`. -/
theorem col_cols_apply {R C : Nat} (h : (⟨2, ![R, 1]⟩ : Shape).BroadcastsInDim ⟨2, ![R, C]⟩ (![0, 1] : Fin 2 → Fin 2))
    (e : (⟨2, ![R, 1]⟩ : Shape).Idx → α) (y : (⟨2, ![R, C]⟩ : Shape).Idx) :
    broadcastInDim ⟨2, ![R, C]⟩ ![0, 1] h e y = e (ix2 (r0 y) 0) := by
  exact broadcastInDim_apply _ h e y (ix2 (r0 y) 0) (fun a => by
    match a with
    | ⟨0, _⟩ => show (y 0).val = if R = 1 then 0 else (y 0).val; have := idx2_lt0 y; split <;> omega
    | ⟨1, _⟩ => show (0 : Nat) = if (1 : Nat) = 1 then 0 else (y 1).val; rw [if_pos rfl])

theorem col_cols {R C : Nat} (h : (⟨2, ![R, 1]⟩ : Shape).BroadcastsInDim ⟨2, ![R, C]⟩ (![0, 1] : Fin 2 → Fin 2))
    (e : (⟨2, ![R, 1]⟩ : Shape).Idx → α) :
    broadcastInDim ⟨2, ![R, C]⟩ ![0, 1] h e = fun y => e (ix2 (r0 y) 0) := funext (col_cols_apply h e)

/-- The single-precision zero spread over any shape is the extended real 0 everywhere. -/
theorem zeros_apply {s : Shape} (h : (⟨0, ![]⟩ : Shape).BroadcastsInDim s (![] : Fin 0 → Fin s.rank)) (y : s.Idx) :
    broadcastInDim s ![] h (constant (F := Ideal) ⟨0, ![]⟩ .f32 0x00000000#32) y = (0 : EReal) := by
  show Ideal.ofBits .f32 0x00000000#32 = 0
  simp [Ideal.ofBits, Ideal.ieee]

theorem zeros {s : Shape} (h : (⟨0, ![]⟩ : Shape).BroadcastsInDim s (![] : Fin 0 → Fin s.rank)) :
    broadcastInDim s ![] h (constant (F := Ideal) ⟨0, ![]⟩ .f32 0x00000000#32) = fun _ => (0 : EReal) :=
  funext (zeros_apply h)

/-! ## 6. A vector reshaped to one row, read back -/

/-- A vector reshaped to `[1, C]` and read as a vector again is the vector. -/
theorem row1_shapeCast {C : Nat} (hc : (⟨1, ![C]⟩ : Shape).ShapeCasts ⟨2, ![1, C]⟩) (b : Arr1 C) :
    row1 (shapeCast ⟨2, ![1, C]⟩ b hc) = b := by
  funext j
  obtain ⟨i, rfl⟩ : ∃ i, j = ix1 i := ⟨j 0, eq_ix1 j⟩
  exact shapeCast_a_1a_apply b hc 0 i

/-- A vector of words reshaped to `[1, N]` and read as a function of the column is the vector. -/
theorem lab_shapeCast {N : Nat} (hc : (⟨1, ![N]⟩ : Shape).ShapeCasts ⟨2, ![1, N]⟩) (v : (⟨1, ![N]⟩ : Shape).Idx → BitVec 32) :
    lab (shapeCast ⟨2, ![1, N]⟩ v hc) = fun i => v (ix1 i) := by
  funext i
  exact shapeCast_a_1a_apply v hc 0 i

/-! ## 7. The host's plain matrix product, and the two-layer perceptron -/

/-- The dimension numbers of a plain product `[R, K] · [K, C]`: contracting `[1] × [0]`, no batch axes. -/
abbrev plainDot (R K C : Nat) (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

/-- The plain product on the host, on the extended reals, at `(r, c)`: `Σ_a l[r, a] · r[a, c]`. -/
theorem dot_apply {R K C : Nat} (wf : DotDims.WF ⟨2, ![R, K]⟩ ⟨2, ![K, C]⟩ ⟨2, ![R, C]⟩ [1] [0] [0] [1] [] [])
    (l : Arr2 R K) (r : Arr2 K C) (y : (⟨2, ![R, C]⟩ : Shape).Idx) :
    Host.dotGeneral (F := Ideal) (φ₁ := .f32) (φ₂ := .f32) (plainDot R K C wf) none l r y
      = ∑ a : Fin K, l (ix2 (r0 y) a) * r (ix2 a (r1 y)) := by
  simp only [Host.dotGeneral]
  rw [Ideal.dotGeneral_apply, ← Equiv.sum_comp (contrEquiv1 (plainDot R K C wf) K rfl rfl).symm]
  refine Finset.sum_congr rfl fun k _ => ?_
  have hk := contrEquiv1_symm_val (plainDot R K C wf) K rfl rfl k
  have el : (plainDot R K C wf).lhsIdx y ((contrEquiv1 (plainDot R K C wf) K rfl rfl).symm k) = ix2 (r0 y) k :=
    funext fun a => Fin.ext (by
      match a with
      | ⟨0, _⟩ =>
        show ((plainDot R K C wf).lhsIdx y _ 0).val = (y 0).val
        unfold DotDims.lhsIdx
        rw [dif_neg (show ¬(0 : Fin 2) ∈ (plainDot R K C wf).lhsBatch from List.not_mem_nil),
          dif_pos (show (0 : Fin 2) ∈ (plainDot R K C wf).lhsNonContracting from List.mem_singleton.mpr rfl)]
        rfl
      | ⟨1, _⟩ => exact ((plainDot R K C wf).lhsIdx_val_of_single rfl y _).trans hk)
  have er : (plainDot R K C wf).rhsIdx y ((contrEquiv1 (plainDot R K C wf) K rfl rfl).symm k) = ix2 k (r1 y) :=
    funext fun a => Fin.ext (by
      match a with
      | ⟨0, _⟩ => exact ((plainDot R K C wf).rhsIdx_val_of_single rfl y _).trans hk
      | ⟨1, _⟩ =>
        show ((plainDot R K C wf).rhsIdx y _ 1).val = (y 1).val
        unfold DotDims.rhsIdx
        rw [dif_neg (show ¬(1 : Fin 2) ∈ (plainDot R K C wf).rhsBatch from List.not_mem_nil),
          dif_pos (show (1 : Fin 2) ∈ (plainDot R K C wf).rhsNonContracting from List.mem_singleton.mpr rfl)]
        rfl)
  rw [el, er]

/-- The whole perceptron `relu(h · W1 + b1) · W2 + b2` as the host computes it. -/
theorem mlp_eq {R Din Dh Dout : Nat}
    (wf1 : DotDims.WF ⟨2, ![R, Din]⟩ ⟨2, ![Din, Dh]⟩ ⟨2, ![R, Dh]⟩ [1] [0] [0] [1] [] [])
    (wf2 : DotDims.WF ⟨2, ![R, Dh]⟩ ⟨2, ![Dh, Dout]⟩ ⟨2, ![R, Dout]⟩ [1] [0] [0] [1] [] [])
    (h1 : (⟨1, ![Dh]⟩ : Shape).BroadcastsInDim ⟨2, ![1, Dh]⟩ (![1] : Fin 1 → Fin 2))
    (h2 : (⟨2, ![1, Dh]⟩ : Shape).BroadcastsInDim ⟨2, ![R, Dh]⟩ (![0, 1] : Fin 2 → Fin 2))
    (hz : (⟨0, ![]⟩ : Shape).BroadcastsInDim ⟨2, ![R, Dh]⟩ (![] : Fin 0 → Fin 2))
    (h1' : (⟨1, ![Dout]⟩ : Shape).BroadcastsInDim ⟨2, ![1, Dout]⟩ (![1] : Fin 1 → Fin 2))
    (h2' : (⟨2, ![1, Dout]⟩ : Shape).BroadcastsInDim ⟨2, ![R, Dout]⟩ (![0, 1] : Fin 2 → Fin 2))
    (h : Arr2 R Din) (W1 : Arr2 Din Dh) (b1 : Arr1 Dh) (W2 : Arr2 Dh Dout) (b2 : Arr1 Dout) :
    addf (F := Ideal) (φ := .f32)
      (Host.dotGeneral (F := Ideal) (φ₁ := .f32) (φ₂ := .f32) (plainDot R Dh Dout wf2) none
        (maximumf (F := Ideal) (φ := .f32)
          (addf (F := Ideal) (φ := .f32) (Host.dotGeneral (F := Ideal) (φ₁ := .f32) (φ₂ := .f32) (plainDot R Din Dh wf1) none h W1)
            (broadcastInDim ⟨2, ![R, Dh]⟩ ![0, 1] h2 (broadcastInDim ⟨2, ![1, Dh]⟩ ![1] h1 b1)))
          (broadcastInDim ⟨2, ![R, Dh]⟩ ![] hz (constant (F := Ideal) ⟨0, ![]⟩ .f32 0x00000000#32)))
        W2)
      (broadcastInDim ⟨2, ![R, Dout]⟩ ![0, 1] h2' (broadcastInDim ⟨2, ![1, Dout]⟩ ![1] h1' b2))
      = mlp h W1 b1 W2 b2 := by
  funext y
  rw [addf_apply, dot_apply, bias_rows_apply]
  unfold mlp mlpAt
  congr 1
  refine Finset.sum_congr rfl fun b _ => ?_
  rw [maximumf_apply, addf_apply, dot_apply, bias_rows_apply, zeros_apply]
  rfl

end Cert.LibCols

end
-- ==== Proof.KHostB.lean ====
import proofs.«431037_j76441827934550_1_alg».proof.Proof.KernelIdealFrameP
import proofs.«431037_j76441827934550_1_alg».proof.Proof.Spec
import proofs.«431037_j76441827934550_1_alg».proof.Proof.LibRows
import proofs.«431037_j76441827934550_1_alg».proof.Proof.LibCols
set_option maxRecDepth 16384
set_option maxHeartbeats 2000000

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec

/-! The contents of the buffers regions 2 and 3 and the last host stretch read, as functions of the launch memory `m`
    and of what the earlier regions leave. (`V3`: region 1's entry; `V4`: its exit = region 2's entry; `V5`:
    region 2's exit; `V6`: region 3's entry; `V7`: its exit; `W8`: the end.) -/

variable (m : (ℓ : Loc nD τ sig) → Buf (Elt Ideal) ℓ) (ρ : Dev nD → PrngReg) (c : Dev nD)

namespace HB

/-- A buffer no operation of a host stretch writes keeps its contents through the stretch. -/
local macro "host_skip" : tactic => `(tactic| (
  refine StableHlo.after_of_forall_not_mem _ _ (List.forall_iff_forall_mem.mp ?_)
  simp only [hostOps0, hostOps1, hostOps3, hostOps4, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## Buffers carried through the regions and the host stretches that do not write them -/

/-- The destination row of the edge list, flattened, is carried from region 0's entry on: nothing after writes it. -/
theorem kb_W5_v3 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by host_skip
    _ = W1 m ρ c (Proc.devRef .tc main_v3) := W2_of_ne m ρ c main_v3 (by decide)

theorem kb_W7_v3 : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by host_skip
    _ = W1 m ρ c (Proc.devRef .tc main_v3) := kb_W5_v3 m ρ c

/-- The source row likewise. -/
theorem kb_W5_v1 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by host_skip
    _ = W1 m ρ c (Proc.devRef .tc main_v1) := W2_of_ne m ρ c main_v1 (by decide)

/-- The second perceptron's biases reach region 2's exit as launched. -/
theorem kb_W5_arg9 : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_skip
    _ = W1 m ρ c (Proc.devRef .tc main_arg9) := W2_of_ne m ρ c main_arg9 (by decide)
    _ = W0 m ρ c (Proc.devRef .tc main_arg9) := by host_skip
    _ = m ((c : Thread nD τ).loc main_arg9) := rfl

theorem kb_W5_arg11 : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := by host_skip
    _ = W1 m ρ c (Proc.devRef .tc main_arg11) := W2_of_ne m ρ c main_arg11 (by decide)
    _ = W0 m ρ c (Proc.devRef .tc main_arg11) := by host_skip
    _ = m ((c : Thread nD τ).loc main_arg11) := rfl

/-- The labels reach region 2 as region 0 found them; the node features and the second perceptron's weights as launched. -/
theorem kb_v4_lab : V4 m ρ c main_v4 = V1 m ρ c main_v4 :=
  calc W4 m ρ c (Proc.devRef .tc main_v4)
    _ = W3 m ρ c (Proc.devRef .tc main_v4) := (W4_arr m ρ c 0).trans (((dat1 (V3 m ρ) c).arrAt_in 0 rfl _).trans (A_eq1 (V3 m ρ) c 0))
    _ = W2 m ρ c (Proc.devRef .tc main_v4) := by host_skip
    _ = W1 m ρ c (Proc.devRef .tc main_v4) := W2_of_ne m ρ c main_v4 (by decide)

theorem kb_v4_x : V4 m ρ c main_arg0 = (m ((c.tc : Thread nD τ).loc main_arg0)) :=
  calc W4 m ρ c (Proc.devRef .tc main_arg0)
    _ = W3 m ρ c (Proc.devRef .tc main_arg0) := W4_of_ne m ρ c main_arg0 (by decide)
    _ = W2 m ρ c (Proc.devRef .tc main_arg0) := by host_skip
    _ = W1 m ρ c (Proc.devRef .tc main_arg0) := W2_of_ne m ρ c main_arg0 (by decide)
    _ = W0 m ρ c (Proc.devRef .tc main_arg0) := by host_skip
    _ = m ((c : Thread nD τ).loc main_arg0) := rfl

theorem kb_v6_W1 : V6 m ρ c main_arg8 = (m ((c.tc : Thread nD τ).loc main_arg8)) :=
  calc W6 m ρ c (Proc.devRef .tc main_arg8)
    _ = W5 m ρ c (Proc.devRef .tc main_arg8) := by host_skip
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_skip
    _ = W1 m ρ c (Proc.devRef .tc main_arg8) := W2_of_ne m ρ c main_arg8 (by decide)
    _ = W0 m ρ c (Proc.devRef .tc main_arg8) := by host_skip
    _ = m ((c : Thread nD τ).loc main_arg8) := rfl

theorem kb_v6_W2 : V6 m ρ c main_arg10 = (m ((c.tc : Thread nD τ).loc main_arg10)) :=
  calc W6 m ρ c (Proc.devRef .tc main_arg10)
    _ = W5 m ρ c (Proc.devRef .tc main_arg10) := by host_skip
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := by host_skip
    _ = W1 m ρ c (Proc.devRef .tc main_arg10) := W2_of_ne m ρ c main_arg10 (by decide)
    _ = W0 m ρ c (Proc.devRef .tc main_arg10) := by host_skip
    _ = m ((c : Thread nD τ).loc main_arg10) := rfl

/-! ## The host stretches' own results, as the operations' terms -/

/-- The two rows of the edge list, each flattened, at region 0's entry. -/
theorem kb_W1_v3 : (W1 m ρ c (Proc.devRef .tc main_v3) : S819200.Idx → BitVec 32) =
    shapeCast S819200 (extractStridedSlice S1x819200 ![1, 0] (m ((c : Thread nD τ).loc main_arg2)) slices_S2x819200_S1x819200_1_0)
      shapeCasts_S1x819200_S819200 := by
  dsimp only [W1, hostOps0]
  after_results_simp
  rfl

theorem kb_W1_v1 : (W1 m ρ c (Proc.devRef .tc main_v1) : S819200.Idx → BitVec 32) =
    shapeCast S819200 (extractStridedSlice S1x819200 ![0, 0] (m ((c : Thread nD τ).loc main_arg2)) slices_S2x819200_S1x819200_0_0)
      shapeCasts_S1x819200_S819200 := by
  dsimp only [W1, hostOps0]
  after_results_simp
  rfl

/-- The biases as one-row matrices at region 3's entry. -/
theorem kb_V6_v50 : (V6 m ρ c main_v50 : S1x128.Idx → EReal) =
    shapeCast S1x128 (m ((c : Thread nD τ).loc main_arg9)) shapeCasts_S128_S1x128 := by
  rw [← kb_W5_arg9 m ρ c]
  dsimp only [V6, W6, hostOps3]
  after_results_simp
  rfl

theorem kb_V6_v51 : (V6 m ρ c main_v51 : S1x1.Idx → EReal) =
    shapeCast S1x1 (m ((c : Thread nD τ).loc main_arg11)) shapeCasts_S1_S1x1 := by
  rw [← kb_W5_arg11 m ρ c]
  dsimp only [V6, W6, hostOps3]
  after_results_simp
  rfl

/-- The negative-index wrap of a word vector (`v + 51200` where `v < 0`), as an index column: the operations' term. -/
abbrev kb_wrapIdx (v : S819200.Idx → BitVec 32) : S819200x1.Idx → BitVec 32 :=
  broadcastInDim S819200x1 ![0] bcast_S819200_S819200x1_0
    (select (cmpi .slt v (broadcastInDim S819200 ![] bcast_S_S819200 (constantI S_ 32 0#32)))
      (addi v (broadcastInDim S819200 ![] bcast_S_S819200 (constantI S_ 32 51200#32))) v)

/-- Region 3's edge inputs: the two gathers of region 2's output at the wrapped destinations and sources, side by side. -/
theorem kb_V6_v49 : (V6 m ρ c main_v49 : S819200x256.Idx → EReal) =
    concatenate S819200x256 1
      [⟨S819200x128, Host.gather gather_S51200x128_S819200x1_S819200x128_1_0_n_n_0_1_1128 (W5 m ρ c (Proc.devRef .tc main_v34))
          (kb_wrapIdx (W5 m ρ c (Proc.devRef .tc main_v3)))⟩,
       ⟨S819200x128, Host.gather gather_S51200x128_S819200x1_S819200x128_1_0_n_n_0_1_1128 (W5 m ρ c (Proc.devRef .tc main_v34))
          (kb_wrapIdx (W5 m ρ c (Proc.devRef .tc main_v1)))⟩]
      concatenates_S819200x128_S819200x128_S819200x256_d1 := by
  dsimp only [V6, W6, hostOps3]
  after_results_simp
  refine congrArg₂ (fun a b => concatenate S819200x256 1 [⟨S819200x128, a⟩, ⟨S819200x128, b⟩]
    concatenates_S819200x128_S819200x128_S819200x256_d1) ?_ ?_
  · after_results_simp
  · after_results_simp

/-- The result buffer: the scatter-add of region 3's output onto zeros at the destination column. -/
theorem kb_W8_v55 : (W8 m ρ c (Proc.devRef .tc main_v55) : S51200x1.Idx → EReal) =
    Host.scatterAdd (F := Ideal) scatter_S51200x1_S819200x1_S819200x1_1_0_0_1
      (broadcastInDim S51200x1 ![] bcast_S_S51200x1 (constant (F := Ideal) S_ FTy.f32 0#32))
      (broadcastInDim S819200x1 ![0] bcast_S819200_S819200x1_0 (W7 m ρ c (Proc.devRef .tc main_v3)))
      (W7 m ρ c (Proc.devRef .tc main_v52)) := by
  dsimp only [W8, hostOps4]
  after_results

theorem kb_v6_b1 : row1 (V6 m ρ c main_v50) = (m ((c.tc : Thread nD τ).loc main_arg9)) := by
  rw [kb_V6_v50]
  exact Cert.LibCols.row1_shapeCast shapeCasts_S128_S1x128 _
theorem kb_v6_b2 : row1 (V6 m ρ c main_v51) = (m ((c.tc : Thread nD τ).loc main_arg11)) := by
  rw [kb_V6_v51]
  exact Cert.LibCols.row1_shapeCast shapeCasts_S1_S1x1 _

end HB

open HB in
/-- Region 2 reads the labels, the node features and region 1's output. -/
theorem v4_lab : V4 m ρ c main_v4 = V1 m ρ c main_v4 := kb_v4_lab m ρ c
open HB in
theorem v4_x : V4 m ρ c main_arg0 = (m ((c.tc : Thread nD τ).loc main_arg0)) := kb_v4_x m ρ c
theorem v4_p : V4 m ρ c main_v33 = (dat1 (V3 m ρ) c).arrAt 2 cfg1.N := W4_arr m ρ c 2
/-- Region 2's output array at its exit. -/
theorem v5_xl : V5 m ρ c main_v34 = (dat2 (V4 m ρ) c).arrAt 3 cfg2.N := W5_arr m ρ c 3
open HB in
theorem v6_W1 : V6 m ρ c main_arg8 = (m ((c.tc : Thread nD τ).loc main_arg8)) := kb_v6_W1 m ρ c
open HB in
theorem v6_W2 : V6 m ρ c main_arg10 = (m ((c.tc : Thread nD τ).loc main_arg10)) := kb_v6_W2 m ρ c
open HB in
theorem v6_b1 : row1 (V6 m ρ c main_v50) = (m ((c.tc : Thread nD τ).loc main_arg9)) := kb_v6_b1 m ρ c
open HB in
theorem v6_b2 : row1 (V6 m ρ c main_v51) = (m ((c.tc : Thread nD τ).loc main_arg11)) := kb_v6_b2 m ρ c
/-- Region 3's output array at its exit. -/
theorem v7_wl : V7 m ρ c main_v52 = (dat3 (V6 m ρ) c).arrAt 5 cfg3.N := W7_arr m ρ c 5

end Cert.KernelIdeal.KV

end
-- ==== Proof.KHostA2.lean ====
import proofs.«431037_j76441827934550_1_alg».proof.Proof.KernelIdealFrameP
import proofs.«431037_j76441827934550_1_alg».proof.Proof.Spec
import proofs.«431037_j76441827934550_1_alg».proof.Proof.LibRows
import proofs.«431037_j76441827934550_1_alg».proof.Proof.KHostA
set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec
open Cert.KernelIdeal.KV.HA

/-! The two large buffers region 0 reads, through the host operations before it (`hostOps0`: the edge list's rows, the
    negative-index wraps, the gathers, the concatenate), as functions of the launch memory `m`. -/

namespace HA2

variable (m : (ℓ : Loc nD τ sig) → Buf (Elt Ideal) ℓ) (c : Dev nD)

/-- Row 1 (the destinations) and row 0 (the sources) of the edge list, cut out and flattened. -/
abbrev dstV : S819200.Idx → BitVec 32 :=
  shapeCast S819200 (extractStridedSlice S1x819200 ![1, 0] (m ((c.tc : Thread nD τ).loc main_arg2)) slices_S2x819200_S1x819200_1_0)
    shapeCasts_S1x819200_S819200
abbrev srcV : S819200.Idx → BitVec 32 :=
  shapeCast S819200 (extractStridedSlice S1x819200 ![0, 0] (m ((c.tc : Thread nD τ).loc main_arg2)) slices_S2x819200_S1x819200_0_0)
    shapeCasts_S1x819200_S819200

/-- A word vector with its negative entries wrapped by 51200, spread down a column. -/
abbrev wcol (v : S819200.Idx → BitVec 32) : S819200x1.Idx → BitVec 32 :=
  broadcastInDim S819200x1 ![0] bcast_S819200_S819200x1_0
    (select (cmpi .slt v (broadcastInDim S819200 ![] bcast_S_S819200 (constantI S_ 32 0#32)))
      (addi v (broadcastInDim S819200 ![] bcast_S_S819200 (constantI S_ 32 51200#32))) v)

/-- The wrapped destinations' column and the wrapped sources' column are the specification's. -/
theorem wcol_dst : wcol (dstV m c) = wrapCol 51200 (dstCol (m ((c.tc : Thread nD τ).loc main_arg2))) :=
  wrapped_col 51200 (m ((c.tc : Thread nD τ).loc main_arg2)) 1 1 rfl _ _ _ _
theorem wcol_src : wcol (srcV m c) = wrapCol 51200 (srcCol (m ((c.tc : Thread nD τ).loc main_arg2))) :=
  wrapped_col 51200 (m ((c.tc : Thread nD τ).loc main_arg2)) 0 0 rfl _ _ _ _

end HA2

variable (m : (ℓ : Loc nD τ sig) → Buf (Elt Ideal) ℓ) (ρ : Dev nD → PrngReg) (c : Dev nD)

open HA2 in
set_option maxHeartbeats 4000000 in
/-- The edge inputs `[x[dst] | x[src]]`. -/
theorem v1_h : (V1 m ρ c main_v19 : Arr2 819200 128) = edgeIn (m ((c.tc : Thread nD τ).loc main_arg0)) (wrapCol 51200 (dstCol (m ((c.tc : Thread nD τ).loc main_arg2)))) (wrapCol 51200 (srcCol (m ((c.tc : Thread nD τ).loc main_arg2)))) := by
  dsimp only [V1, W1, hostOps0]
  after_results_simp
  refine (concat_cols concatenates_S819200x64_S819200x64_S819200x128_d1 _ _).trans ?_
  exact congrArg₂ (catCols 128)
    ((congrArg (Host.gather _ _) (wcol_dst m c)).trans
      (Cert.LibRows.gather_rows (by decide) gather_S51200x64_S819200x1_S819200x64_1_0_n_n_0_1_164_wf _ _))
    ((congrArg (Host.gather _ _) (wcol_src m c)).trans
      (Cert.LibRows.gather_rows (by decide) gather_S51200x64_S819200x1_S819200x64_1_0_n_n_0_1_164_wf _ _))
open HA2 in
set_option maxHeartbeats 4000000 in
/-- The destination's weight, per edge. -/
theorem v1_ed : (V1 m ρ c main_v26 : Arr2 819200 1) = rowGather (by decide) (m ((c.tc : Thread nD τ).loc main_arg1)) (wrapCol 51200 (dstCol (m ((c.tc : Thread nD τ).loc main_arg2)))) := by
  dsimp only [V1, W1, hostOps0]
  after_results_simp
  exact (congrArg (Host.gather _ _) (wcol_dst m c)).trans
    (Cert.LibRows.gather_rows (by decide) gather_S51200x1_S819200x1_S819200x1_1_0_n_n_0_1_11_wf _ _)

end Cert.KernelIdeal.KV

end
-- ==== Proof.KHostB2.lean ====
import proofs.«431037_j76441827934550_1_alg».proof.Proof.KernelIdealFrameP
import proofs.«431037_j76441827934550_1_alg».proof.Proof.Spec
import proofs.«431037_j76441827934550_1_alg».proof.Proof.LibRows
import proofs.«431037_j76441827934550_1_alg».proof.Proof.LibCols
import proofs.«431037_j76441827934550_1_alg».proof.Proof.KHostB
set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec

/-! Region 3's edge inputs, through the host operations between regions 2 and 3 (`hostOps3`: the negative-index wraps
    of the carried edge rows, the two gathers of region 2's array, the concatenate), as a function of the launch memory
    `m` and of region 2's array. -/

variable (m : (ℓ : Loc nD τ sig) → Buf (Elt Ideal) ℓ) (ρ : Dev nD → PrngReg) (c : Dev nD)

namespace HB2

open Cert.KernelIdeal.KV.HB

/-- The program's gather of 128-column rows is the row gather. -/
theorem gather128_rows (x : Arr2 51200 128) (idx : IdxCol 819200) :
    Host.gather gather_S51200x128_S819200x1_S819200x128_1_0_n_n_0_1_1128 x idx = rowGather (by decide) x idx :=
  Cert.LibRows.gather_rows (N := 51200) (C := 128) (R := 819200) (by decide)
    gather_S51200x128_S819200x1_S819200x128_1_0_n_n_0_1_1128_wf x idx

/-- The destination row of the edge list, wrapped, as the first gather's index column. -/
theorem dstIdx : kb_wrapIdx (W5 m ρ c (Proc.devRef .tc main_v3)) = wrapCol 51200 (dstCol (m ((c.tc : Thread nD τ).loc main_arg2))) := by
  rw [kb_W5_v3 m ρ c, kb_W1_v3 m ρ c]
  exact Cert.LibCols.dst_wrap_col slices_S2x819200_S1x819200_1_0 shapeCasts_S1x819200_S819200 bcast_S_S819200
    bcast_S819200_S819200x1_0 51200 _

/-- The source row likewise, for the second gather. -/
theorem srcIdx : kb_wrapIdx (W5 m ρ c (Proc.devRef .tc main_v1)) = wrapCol 51200 (srcCol (m ((c.tc : Thread nD τ).loc main_arg2))) := by
  rw [kb_W5_v1 m ρ c, kb_W1_v1 m ρ c]
  exact Cert.LibCols.src_wrap_col slices_S2x819200_S1x819200_0_0 shapeCasts_S1x819200_S819200 bcast_S_S819200
    bcast_S819200_S819200x1_0 51200 _

end HB2

open HB HB2 in
/-- Region 3's edge inputs `[xl[dst] | xl[src]]`. -/
theorem v6_hl : (V6 m ρ c main_v49 : Arr2 819200 256) =
    catCols 256 (rowGather (by decide) (V5 m ρ c main_v34 : Arr2 51200 128) (wrapCol 51200 (dstCol (m ((c.tc : Thread nD τ).loc main_arg2)))))
      (rowGather (by decide) (V5 m ρ c main_v34 : Arr2 51200 128) (wrapCol 51200 (srcCol (m ((c.tc : Thread nD τ).loc main_arg2))))) := by
  refine (kb_V6_v49 m ρ c).trans ?_
  rw [dstIdx m ρ c, srcIdx m ρ c, gather128_rows, gather128_rows]
  exact Cert.LibCols.concat_cols _ _ _

end Cert.KernelIdeal.KV

end
-- ==== Proof.KHostB3.lean ====
import proofs.«431037_j76441827934550_1_alg».proof.Proof.KernelIdealFrameP
import proofs.«431037_j76441827934550_1_alg».proof.Proof.Spec
import proofs.«431037_j76441827934550_1_alg».proof.Proof.LibRows
import proofs.«431037_j76441827934550_1_alg».proof.Proof.LibCols
import Idealize.ShloMosaic.Lib.StableHlo.Run
set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec

/-! The result buffer, through the host operations after region 3 (zeros, the destinations' index column,
    one scatter-add of region 3's array), as a function of the launch memory and of region 3's array. -/

variable (m : (ℓ : Loc nD τ sig) → Buf (Elt Ideal) ℓ) (ρ : Dev nD → PrngReg) (c : Dev nD)

namespace HB3

/-- The destinations row is written once, before region 0, and no later segment writes it. -/
theorem v3_carried : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- It is row 1 of the edge list, cut out and flattened. -/
theorem v3_W1 : (W1 m ρ c (Proc.devRef .tc main_v3) : S819200.Idx → BitVec 32)
    = shapeCast S819200 (extractStridedSlice S1x819200 ![1, 0] (m ((c.tc : Thread nD τ).loc main_arg2) : S2x819200.Idx → BitVec 32)
        slices_S2x819200_S1x819200_1_0) shapeCasts_S1x819200_S819200 := by
  dsimp only [W1, hostOps0]
  after_results
  rfl

/-- The result buffer after the last stretch: one scatter-add onto the zero splat, at the column of the destinations row,
    of region 3's array. -/
theorem v55_ops : (W8 m ρ c (Proc.devRef .tc main_v55) : S51200x1.Idx → EReal)
    = Host.scatterAdd (F := Ideal) (φ := .f32) scatter_S51200x1_S819200x1_S819200x1_1_0_0_1
        (broadcastInDim S51200x1 ![] bcast_S_S51200x1 (constant (F := Ideal) S_ .f32 0x00000000#32))
        (broadcastInDim S819200x1 ![0] bcast_S819200_S819200x1_0 (W7 m ρ c (Proc.devRef .tc main_v3) : S819200.Idx → BitVec 32))
        (W7 m ρ c (Proc.devRef .tc main_v52) : S819200x1.Idx → EReal) := by
  dsimp only [W8, hostOps4]
  after_results

end HB3

open HB3 in
/-- The result: a scatter-add of region 3's output rows onto zeros at the destinations. -/
theorem v8_out : (W8 m ρ c (Proc.devRef .tc main_v55) : Arr2 51200 1) =
    fun y => 0 + rowScatterSum (dstCol (m ((c.tc : Thread nD τ).loc main_arg2))) (V7 m ρ c main_v52 : Arr2 819200 1) y := by
  refine (v55_ops m ρ c).trans ?_
  rw [v3_carried m ρ c, v3_W1 m ρ c,
    Cert.LibCols.dst_col slices_S2x819200_S1x819200_1_0 shapeCasts_S1x819200_S819200 bcast_S819200_S819200x1_0
      (m ((c.tc : Thread nD τ).loc main_arg2))]
  have hd : scatter_S51200x1_S819200x1_S819200x1_1_0_0_1
      = Cert.LibRows.rowScatterDims 51200 1 819200 scatter_S51200x1_S819200x1_S819200x1_1_0_0_1_wf := rfl
  rw [hd]
  refine (Cert.LibRows.scatterAdd_rows scatter_S51200x1_S819200x1_S819200x1_1_0_0_1_wf _ _ _).trans ?_
  funext y
  rw [Cert.LibCols.zeros_apply]

end Cert.KernelIdeal.KV

end
-- ==== Proof.KValue.lean ====
import proofs.«431037_j76441827934550_1_alg».proof.Proof.KernelIdealFrameP
import proofs.«431037_j76441827934550_1_alg».proof.Proof.Spec
import proofs.«431037_j76441827934550_1_alg».proof.Proof.Reg0Value
import proofs.«431037_j76441827934550_1_alg».proof.Proof.Reg1Value
import proofs.«431037_j76441827934550_1_alg».proof.Proof.Reg2Value
import proofs.«431037_j76441827934550_1_alg».proof.Proof.Reg3Value
import proofs.«431037_j76441827934550_1_alg».proof.Proof.KHostA
import proofs.«431037_j76441827934550_1_alg».proof.Proof.KHostB
import proofs.«431037_j76441827934550_1_alg».proof.Proof.KHostA2
import proofs.«431037_j76441827934550_1_alg».proof.Proof.KHostB2
import proofs.«431037_j76441827934550_1_alg».proof.Proof.KHostB3
set_option maxRecDepth 16384

noncomputable section

namespace Cert.KernelIdeal.KV

open Cert.KernelIdeal Cert.KernelIdeal.Gen Cert.KernelIdeal.GenP
open Idealize.ShloMosaic Idealize.ShloMosaic.TcCoe Idealize.ShloMosaic.ValueIdx Idealize.SL.Sem Cert.Spec

variable (m : (ℓ : Loc nD τ sig) → Buf (Elt Ideal) ℓ) (ρ : Dev nD → PrngReg) (c : Dev nD)

/-- The fold of the program's segments, read at the result buffer: the last host stretch scatter-adds region 3's rows;
    region 3 is the second perceptron on the rows gathered from region 2's array; region 2 concatenates the features
    with the rows read back from region 1's pooled sums; region 1 pools the node sums the first scatter-add makes of
    region 0's weighted messages.
    What the idealized kernel's program leaves in its result buffer: the kernel's function of the launch contents. -/
theorem kernel_value : (W8 m ρ c (Proc.devRef .tc main_v55) : Arr2 51200 1) = KSpec (m ((c.tc : Thread nD τ).loc main_arg0)) (m ((c.tc : Thread nD τ).loc main_arg1)) (dstCol (m ((c.tc : Thread nD τ).loc main_arg2))) (wrapCol 51200 (dstCol (m ((c.tc : Thread nD τ).loc main_arg2)))) (wrapCol 51200 (srcCol (m ((c.tc : Thread nD τ).loc main_arg2)))) (fun i => (m ((c.tc : Thread nD τ).loc main_arg3)) (ix1 i)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [v8_out, v7_wl, arr3, v6_hl, v6_W1, v6_W2, v6_b1, v6_b2, v5_xl, arr2, v4_lab, v4_x, v4_p, arr1, v3_lab, v3_g, v2_m, arr0,
    v1_h, v1_ed, v1_b1, v1_b2, v1_W1, v1_W2, v1_lab]
  rfl

end Cert.KernelIdeal.KV

end
-- ==== Proof.RefTail2.lean ====
import proofs.«431037_j76441827934550_1_alg».proof.Defs
import proofs.«431037_j76441827934550_1_alg».proof.Proof.RefRunP
import proofs.«431037_j76441827934550_1_alg».proof.Proof.RefReadP
import proofs.«431037_j76441827934550_1_alg».proof.Proof.Spec
import proofs.«431037_j76441827934550_1_alg».proof.Proof.LibRows
import proofs.«431037_j76441827934550_1_alg».proof.Proof.LibCols

set_option maxRecDepth 16384

noncomputable section

namespace Cert.ReferenceIdeal.RT2

open Cert.ReferenceIdeal Cert.ReferenceIdeal.Gen Cert.ReferenceIdeal.ReadP
open Idealize.ShloMosaic Idealize.ShloMosaic.TcCoe Idealize.ShloMosaic.ValueIdx Idealize.SL.Sem Cert.Spec

section
variable (x0 : Arr2 51200 64) (x1 : Arr2 51200 1) (x2 : (⟨2, ![2, 819200]⟩ : Shape).Idx → BitVec 32)
  (x3 : (⟨1, ![51200]⟩ : Shape).Idx → BitVec 32) (x4 : Arr2 128 128) (x5 : Arr1 128) (x6 : Arr2 128 64) (x7 : Arr1 64)
  (x8 : Arr2 256 128) (x9 : Arr1 128) (x10 : Arr2 128 1) (x11 : Arr1 1)

/-! ## The index columns -/

/-- The destinations, negative ones wrapped by 51200, as an index column. -/
theorem v53_eq : (val_main_v53 (F := Ideal) x2 : IdxCol 819200) = wrapCol 51200 (dstCol x2) := by
  unfold val_main_v53 val_main_v52 val_main_v49 val_main_v51 val_main_v48 val_main_v50 val_main_c_6 val_main_c_7
    val_main_v47 val_main_v46
  exact Cert.LibCols.dst_wrap_col _ _ _ _ 51200 x2

/-- The sources, negative ones wrapped by 51200, as an index column. -/
theorem v60_eq : (val_main_v60 (F := Ideal) x2 : IdxCol 819200) = wrapCol 51200 (srcCol x2) := by
  unfold val_main_v60 val_main_v59 val_main_v56 val_main_v58 val_main_v55 val_main_v57 val_main_c_8 val_main_c_9
    val_main_v45 val_main_v44
  exact Cert.LibCols.src_wrap_col _ _ _ _ 51200 x2

/-- The destinations as given, as the last scatter's index column. -/
theorem v73_eq : (val_main_v73 (F := Ideal) x2 : IdxCol 819200) = dstCol x2 := by
  unfold val_main_v73 val_main_v47 val_main_v46
  exact Cert.LibCols.dst_col _ _ _ x2

/-! ## The zero operand of the last scatter-add -/

theorem v72_eq : (val_main_v72 (F := Ideal) : Arr2 51200 1) = fun _ => 0 := by
  unfold val_main_v72 val_main_cst_10
  exact Cert.LibCols.zeros _

/-! ## The stages, each from the one before -/

/-- A row gather of the 128-column matrix. -/
theorem gather128 (xl : Arr2 51200 128) (idx : IdxCol 819200) :
    Host.gather gather_S51200x128_S819200x1_S819200x128_1_0_n_n_0_1_1128 xl idx = rowGather (by decide) xl idx :=
  Cert.LibRows.gather_rows (by decide) gather_S51200x128_S819200x1_S819200x128_1_0_n_n_0_1_1128_wf xl idx

/-- The edge inputs: the rows at the wrapped destinations beside the rows at the wrapped sources. -/
theorem v62_eq (xl : Arr2 51200 128) (h43 : val_main_v43 (F := Ideal) x0 x1 x2 x3 x4 x5 x6 x7 = xl) :
    (val_main_v62 (F := Ideal) x0 x1 x2 x3 x4 x5 x6 x7 : Arr2 819200 256)
      = catCols 256 (rowGather (by decide) xl (wrapCol 51200 (dstCol x2))) (rowGather (by decide) xl (wrapCol 51200 (srcCol x2))) := by
  unfold val_main_v62 val_main_v54 val_main_v61
  rw [h43, v53_eq, v60_eq, gather128, gather128]
  exact Cert.LibCols.concat_cols _ _ _

/-- The second perceptron on the edge inputs. -/
theorem v71_eq (h : Arr2 819200 256) (h62 : val_main_v62 (F := Ideal) x0 x1 x2 x3 x4 x5 x6 x7 = h) :
    (val_main_v71 (F := Ideal) x0 x1 x2 x3 x4 x5 x6 x7 x8 x9 x10 x11 : Arr2 819200 1) = mlp h x8 x9 x10 x11 := by
  unfold val_main_v71 val_main_v68 val_main_v67 val_main_v66 val_main_v63 val_main_v65 val_main_v64
    val_main_call1_v0 val_main_call1_cst val_main_v70 val_main_v69
  rw [h62]
  exact Cert.LibCols.mlp_eq _ _ _ _ _ _ _ h x8 x9 x10 x11

/-- The result: the scatter-add of the perceptron's rows onto zeros at the destinations. -/
theorem v74_eq (w : Arr2 819200 1) (h71 : val_main_v71 (F := Ideal) x0 x1 x2 x3 x4 x5 x6 x7 x8 x9 x10 x11 = w) :
    (val_main_v74 (F := Ideal) x0 x1 x2 x3 x4 x5 x6 x7 x8 x9 x10 x11 : Arr2 51200 1) = fun y => 0 + rowScatterSum (dstCol x2) w y := by
  unfold val_main_v74
  rw [h71, v72_eq, v73_eq]
  exact Cert.LibRows.scatterAdd_rows scatter_S51200x1_S819200x1_S819200x1_1_0_0_1_wf (fun _ => 0) _ w

end

/-- The reference from the extended node features `XL = [x | rows read back]` on: gathered at both ends of every edge,
    put through the second perceptron and summed onto the destinations. -/
theorem ref_tail2 (x0 : Arr2 51200 64) (x1 : Arr2 51200 1) (x2 : (⟨2, ![2, 819200]⟩ : Shape).Idx → BitVec 32)
    (x3 : (⟨1, ![51200]⟩ : Shape).Idx → BitVec 32) (x4 : Arr2 128 128) (x5 : Arr1 128) (x6 : Arr2 128 64) (x7 : Arr1 64)
    (x8 : Arr2 256 128) (x9 : Arr1 128) (x10 : Arr2 128 1) (x11 : Arr1 1) (XL : Arr2 51200 128)
    (hXL : val_main_v43 (F := Ideal) x0 x1 x2 x3 x4 x5 x6 x7 = XL) :
    (val_main_v74 (F := Ideal) x0 x1 x2 x3 x4 x5 x6 x7 x8 x9 x10 x11 : Arr2 51200 1) =
      fun y => 0 + rowScatterSum (dstCol x2) (mlp (catCols 256 (rowGather (by decide) XL (wrapCol 51200 (dstCol x2)))
        (rowGather (by decide) XL (wrapCol 51200 (srcCol x2)))) x8 x9 x10 x11) y :=
  v74_eq x0 x1 x2 x3 x4 x5 x6 x7 x8 x9 x10 x11 _
    (v71_eq x0 x1 x2 x3 x4 x5 x6 x7 x8 x9 x10 x11 _ (v62_eq x0 x1 x2 x3 x4 x5 x6 x7 XL hXL))

end Cert.ReferenceIdeal.RT2

end
-- ==== Proof.RefTail.lean ====
import proofs.«431037_j76441827934550_1_alg».proof.Defs
import proofs.«431037_j76441827934550_1_alg».proof.Proof.RefRunP
import proofs.«431037_j76441827934550_1_alg».proof.Proof.RefReadP
import proofs.«431037_j76441827934550_1_alg».proof.Proof.Spec
import proofs.«431037_j76441827934550_1_alg».proof.Proof.LibRows
import proofs.«431037_j76441827934550_1_alg».proof.Proof.LibCols
import proofs.«431037_j76441827934550_1_alg».proof.Proof.RefTail2

set_option maxRecDepth 16384

noncomputable section

namespace Cert.ReferenceIdeal.RT

open Cert.ReferenceIdeal Cert.ReferenceIdeal.Gen Cert.ReferenceIdeal.ReadP
open Idealize.ShloMosaic Idealize.ShloMosaic.TcCoe Idealize.ShloMosaic.ValueIdx Idealize.SL.Sem Cert.Spec

section
variable (x0 : Arr2 51200 64) (x1 : Arr2 51200 1) (x2 : (⟨2, ![2, 819200]⟩ : Shape).Idx → BitVec 32)
  (x3 : (⟨1, ![51200]⟩ : Shape).Idx → BitVec 32) (x4 : Arr2 128 128) (x5 : Arr1 128) (x6 : Arr2 128 64) (x7 : Arr1 64)

/-! ## The two index columns made of the labels -/

/-- The labels as an index column. -/
theorem v34_eq : (val_main_v34 (F := Ideal) x3 : IdxCol 51200) = fun y => x3 (ix1 (r0 y)) := by
  unfold val_main_v34
  exact Cert.LibCols.col_of_vec _ x3

/-- The labels, negative ones wrapped by 64, as an index column. -/
theorem v41_eq : (val_main_v41 (F := Ideal) x3 : IdxCol 51200) = fun u => wrapN 64 (x3 (ix1 (r0 u))) := by
  unfold val_main_v41 val_main_v40 val_main_v37 val_main_v39 val_main_v36 val_main_v38 val_main_c_4 val_main_c_5
  exact Cert.LibCols.wrap_col _ _ 64 x3

/-! ## The zero operand of the pooling scatter-add -/

theorem v33_eq : (val_main_v33 (F := Ideal) : Arr2 64 64) = fun _ => 0 := by
  unfold val_main_v33 val_main_cst_3
  exact Cert.LibCols.zeros _

/-! ## The stages, each from the one before -/

/-- The pooled sums: the scatter-add of the node sums onto zeros at the labels. -/
theorem v35_eq (G : Arr2 51200 64) (hG : val_main_v32 (F := Ideal) x0 x1 x2 x4 x5 x6 x7 = G) :
    (val_main_v35 (F := Ideal) x0 x1 x2 x3 x4 x5 x6 x7 : Arr2 64 64)
      = fun y => 0 + rowScatterSum (fun u => x3 (ix1 (r0 u))) G y := by
  unfold val_main_v35
  rw [hG, v33_eq, v34_eq]
  exact Cert.LibRows.scatterAdd_rows scatter_S64x64_S51200x1_S51200x64_1_0_0_1_wf (fun _ => 0) _ G

/-- The pooled rows read back at the wrapped labels. -/
theorem v42_eq (P : Arr2 64 64) (h35 : val_main_v35 (F := Ideal) x0 x1 x2 x3 x4 x5 x6 x7 = P) :
    (val_main_v42 (F := Ideal) x0 x1 x2 x3 x4 x5 x6 x7 : Arr2 51200 64)
      = rowGather (by decide) P (fun u => wrapN 64 (x3 (ix1 (r0 u)))) := by
  unfold val_main_v42
  rw [h35, v41_eq]
  exact Cert.LibRows.gather_rows (by decide) gather_S64x64_S51200x1_S51200x64_1_0_n_n_0_1_164_wf P _

/-- The features beside the rows read back. -/
theorem v43_eq (sc : Arr2 51200 64) (h42 : val_main_v42 (F := Ideal) x0 x1 x2 x3 x4 x5 x6 x7 = sc) :
    (val_main_v43 (F := Ideal) x0 x1 x2 x3 x4 x5 x6 x7 : Arr2 51200 128) = catCols 128 x0 sc := by
  unfold val_main_v43
  rw [h42]
  exact Cert.LibCols.concat_cols _ x0 sc

/-- From the weighted node sums to the extended node features. -/
theorem v43_of_G (G : Arr2 51200 64) (hG : val_main_v32 (F := Ideal) x0 x1 x2 x4 x5 x6 x7 = G) :
    (val_main_v43 (F := Ideal) x0 x1 x2 x3 x4 x5 x6 x7 : Arr2 51200 128)
      = catCols 128 x0 (rowGather (N := 64) (by decide) (fun y => 0 + rowScatterSum (fun u => x3 (ix1 (r0 u))) G y)
          (fun u => wrapN 64 (x3 (ix1 (r0 u))))) :=
  v43_eq x0 x1 x2 x3 x4 x5 x6 x7 _ (v42_eq x0 x1 x2 x3 x4 x5 x6 x7 _ (v35_eq x0 x1 x2 x3 x4 x5 x6 x7 G hG))

end

/-- The reference from its weighted node sums `G` on: pooled by a scatter-add at the labels, read back by a gather at the
    wrapped labels, set beside the features, gathered at both ends of every edge, put through the second perceptron and
    summed onto the destinations. -/
theorem ref_tail (x0 : Arr2 51200 64) (x1 : Arr2 51200 1) (x2 : (⟨2, ![2, 819200]⟩ : Shape).Idx → BitVec 32)
    (x3 : (⟨1, ![51200]⟩ : Shape).Idx → BitVec 32) (x4 : Arr2 128 128) (x5 : Arr1 128) (x6 : Arr2 128 64) (x7 : Arr1 64)
    (x8 : Arr2 256 128) (x9 : Arr1 128) (x10 : Arr2 128 1) (x11 : Arr1 1) (G : Arr2 51200 64)
    (hG : val_main_v32 (F := Ideal) x0 x1 x2 x4 x5 x6 x7 = G) :
    (val_main_v74 (F := Ideal) x0 x1 x2 x3 x4 x5 x6 x7 x8 x9 x10 x11 : Arr2 51200 1) =
      outOf x0 (dstCol x2) (wrapCol 51200 (dstCol x2)) (wrapCol 51200 (srcCol x2)) x8 x9 x10 x11
        (rowGather (N := 64) (by decide) (fun y => 0 + rowScatterSum (fun u => x3 (ix1 (r0 u))) G y) (fun u => wrapN 64 (x3 (ix1 (r0 u))))) := by
  exact (Cert.ReferenceIdeal.RT2.ref_tail2 x0 x1 x2 x3 x4 x5 x6 x7 x8 x9 x10 x11 _ (v43_of_G x0 x1 x2 x3 x4 x5 x6 x7 G hG)).trans rfl

end Cert.ReferenceIdeal.RT

end
-- ==== Proof.RefValue.lean ====
import proofs.«431037_j76441827934550_1_alg».proof.Defs
import proofs.«431037_j76441827934550_1_alg».proof.Proof.RefRunP
import proofs.«431037_j76441827934550_1_alg».proof.Proof.RefReadP
import proofs.«431037_j76441827934550_1_alg».proof.Proof.Spec
import proofs.«431037_j76441827934550_1_alg».proof.Proof.LibRows
import proofs.«431037_j76441827934550_1_alg».proof.Proof.RefTail
import Idealize.ShloMosaic.Lib.Pipeline.Value

set_option maxRecDepth 16384

noncomputable section

namespace Cert.ReferenceIdeal.RV

open Cert.ReferenceIdeal Cert.ReferenceIdeal.Gen
open Idealize.ShloMosaic Idealize.ShloMosaic.TcCoe Idealize.ShloMosaic.ValueIdx Idealize.SL.Sem Cert.Spec

/-! ## The three row gathers and the three row scatter-adds of the program -/

open Cert.ReferenceIdeal.ReadP

theorem gatherA (x : Arr2 51200 64) (idx : IdxCol 819200) :
    Host.gather gather_S51200x64_S819200x1_S819200x64_1_0_n_n_0_1_164 x idx = rowGather (by decide) x idx :=
  Cert.LibRows.gather_rows (by decide) gather_S51200x64_S819200x1_S819200x64_1_0_n_n_0_1_164_wf x idx

theorem gatherB (x : Arr2 64 64) (idx : IdxCol 51200) :
    Host.gather gather_S64x64_S51200x1_S51200x64_1_0_n_n_0_1_164 x idx = rowGather (by decide) x idx :=
  Cert.LibRows.gather_rows (by decide) gather_S64x64_S51200x1_S51200x64_1_0_n_n_0_1_164_wf x idx

theorem gatherC (x : Arr2 51200 128) (idx : IdxCol 819200) :
    Host.gather gather_S51200x128_S819200x1_S819200x128_1_0_n_n_0_1_1128 x idx = rowGather (by decide) x idx :=
  Cert.LibRows.gather_rows (by decide) gather_S51200x128_S819200x1_S819200x128_1_0_n_n_0_1_1128_wf x idx

theorem scatterA (z : Arr2 51200 64) (hz : ∀ y, z y = 0) (idx : IdxCol 819200) (u : Arr2 819200 64) :
    Host.scatterAdd (F := Ideal) (φ := .f32) scatter_S51200x64_S819200x1_S819200x64_1_0_0_1 z idx u
      = fun y => 0 + rowScatterSum idx u y := by
  refine (Cert.LibRows.scatterAdd_rows scatter_S51200x64_S819200x1_S819200x64_1_0_0_1_wf z idx u).trans ?_
  funext y; rw [hz]

theorem scatterB (z : Arr2 64 64) (hz : ∀ y, z y = 0) (idx : IdxCol 51200) (u : Arr2 51200 64) :
    Host.scatterAdd (F := Ideal) (φ := .f32) scatter_S64x64_S51200x1_S51200x64_1_0_0_1 z idx u
      = fun y => 0 + rowScatterSum idx u y := by
  refine (Cert.LibRows.scatterAdd_rows scatter_S64x64_S51200x1_S51200x64_1_0_0_1_wf z idx u).trans ?_
  funext y; rw [hz]

theorem scatterC (z : Arr2 51200 1) (hz : ∀ y, z y = 0) (idx : IdxCol 819200) (u : Arr2 819200 1) :
    Host.scatterAdd (F := Ideal) (φ := .f32) scatter_S51200x1_S819200x1_S819200x1_1_0_0_1 z idx u
      = fun y => 0 + rowScatterSum idx u y := by
  refine (Cert.LibRows.scatterAdd_rows scatter_S51200x1_S819200x1_S819200x1_1_0_0_1_wf z idx u).trans ?_
  funext y; rw [hz]

/-! ## Two matrices side by side -/

theorem cat_eq {R A B C : Nat} (a : Arr2 R A) (b : Arr2 R B)
    (h : Shape.Concatenates [(⟨2, ![R, A]⟩ : Shape), ⟨2, ![R, B]⟩] ⟨2, ![R, C]⟩ 1) (hC : A + B = C) :
    concatenate (⟨2, ![R, C]⟩ : Shape) 1 [⟨⟨2, ![R, A]⟩, a⟩, ⟨⟨2, ![R, B]⟩, b⟩] h = catCols C a b := by
  funext y
  unfold catCols
  by_cases h1 : (r1 y).val < A
  · rw [dif_pos h1]
    exact concatenate_pair_apply_left 1 a b h y rfl (ix2 (r0 y) ⟨(r1 y).val, h1⟩)
      (fun c => match c with | ⟨0, _⟩ => rfl | ⟨1, _⟩ => rfl)
  · have h2 : (r1 y).val - A < B := by
      have hy : (y 1).val < C := idx2_lt1 y
      have h1' : ¬ (y 1).val < A := h1
      show (y 1).val - A < B
      omega
    rw [dif_neg h1, dif_pos h2]
    exact concatenate_pair_apply_right 1 a b h y rfl rfl (ix2 (r0 y) ⟨(r1 y).val - A, h2⟩)
      (fun c hc => match c, hc with | ⟨0, _⟩, _ => rfl | ⟨1, _⟩, hc => absurd rfl hc)
      (by
        have h1' : ¬ (y 1).val < A := h1
        show (y 1).val - A + A = (y 1).val
        omega)

/-! ## The head of the reference, stage by stage, over variables -/

section Head
variable (x0 : (⟨S51200x64, .f32⟩ : BufTy).Contents (Elt Ideal)) (x1 : (⟨S51200x1, .f32⟩ : BufTy).Contents (Elt Ideal))
  (x2 : (⟨S2x819200, .i32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-- The destinations and the sources with their negative entries wrapped. -/
abbrev Dw : IdxCol 819200 := wrapCol 51200 (dstCol x2)
abbrev Sw : IdxCol 819200 := wrapCol 51200 (srcCol x2)

/-- Row 1 of the edge list read as a vector: entry `i` is the list's entry `(1, i)`. -/
theorem v3_at (i : S819200.Idx) : val_main_v3 (F := Ideal) x2 i = x2 (ix2 1 (c0 i)) := by
  rw [val_main_v3_apply, val_main_v2_apply]
  refine congrArg x2 (funext fun d => ?_)
  match d with
  | ⟨0, _⟩ => rfl
  | ⟨1, _⟩ => exact Fin.ext (Nat.mod_eq_of_lt (i 0).isLt)

/-- Row 0 of the edge list read as a vector. -/
theorem v1_at (i : S819200.Idx) : val_main_v1 (F := Ideal) x2 i = x2 (ix2 0 (c0 i)) := by
  rw [val_main_v1_apply, val_main_v0_apply]
  refine congrArg x2 (funext fun d => ?_)
  match d with
  | ⟨0, _⟩ => rfl
  | ⟨1, _⟩ => exact Fin.ext (Nat.mod_eq_of_lt (i 0).isLt)

/-- The wrapped destination vector. -/
theorem v8_at (i : S819200.Idx) : val_main_v8 (F := Ideal) x2 i = wrapN 51200 (x2 (ix2 1 (c0 i))) := by
  rw [val_main_v8_apply, val_main_v5_apply, val_main_v7_apply, val_main_v4_apply, val_main_v6_apply,
    val_main_c_apply, val_main_c_0_apply, v3_at]
  exact Cert.LibRows.wrap_word 51200 _

/-- The wrapped source vector. -/
theorem v15_at (i : S819200.Idx) : val_main_v15 (F := Ideal) x2 i = wrapN 51200 (x2 (ix2 0 (c0 i))) := by
  rw [val_main_v15_apply, val_main_v12_apply, val_main_v14_apply, val_main_v11_apply, val_main_v13_apply,
    val_main_c_1_apply, val_main_c_2_apply, v1_at]
  exact Cert.LibRows.wrap_word 51200 _

/-- The three index columns. -/
theorem v9_eq : val_main_v9 (F := Ideal) x2 = Dw x2 := by
  funext y
  rw [val_main_v9_apply, v8_at]
  rfl

theorem v16_eq : val_main_v16 (F := Ideal) x2 = Sw x2 := by
  funext y
  rw [val_main_v16_apply, v15_at]
  rfl

theorem v29_eq : val_main_v29 (F := Ideal) x2 = dstCol x2 := by
  funext y
  rw [val_main_v29_apply, v3_at]
  rfl

/-- The two gathers of the features and their concatenation: the edge inputs. -/
theorem v10_eq : val_main_v10 (F := Ideal) x0 x2 = rowGather (by decide) x0 (Dw x2) := by
  unfold val_main_v10
  rw [v9_eq]
  exact gatherA _ _

theorem v17_eq : val_main_v17 (F := Ideal) x0 x2 = rowGather (by decide) x0 (Sw x2) := by
  unfold val_main_v17
  rw [v16_eq]
  exact gatherA _ _

theorem v18_eq : val_main_v18 (F := Ideal) x0 x2 = edgeIn x0 (Dw x2) (Sw x2) := by
  unfold val_main_v18 edgeIn
  rw [v10_eq, v17_eq]
  exact cat_eq _ _ concatenates_S819200x64_S819200x64_S819200x128_d1 rfl

/-- The hidden layer at an entry: the rectified affine image of an edge input row. -/
theorem v23_at (k : Fin 819200) (b : Fin 128) :
    val_main_v23 (F := Ideal) x0 x2 x4 x5 (ix2 k b)
      = max ((∑ a : Fin 128, edgeIn x0 (Dw x2) (Sw x2) (ix2 k a) * x4 (ix2 a b)) + x5 (ix1 b)) 0 := by
  rw [val_main_v23_apply, val_main_v22_apply, val_main_v19_apply, val_main_v21_apply, val_main_v20_apply,
    val_main_call0_v0_apply, val_main_call0_cst_apply, v18_eq]
  have e1 : ∀ a : Fin 128, lidx_main_v19 (ix2 k b) a = ix2 k a := fun a => by
    funext d; match d with | ⟨0, _⟩ => rfl | ⟨1, _⟩ => rfl
  have e2 : ∀ a : Fin 128, ridx_main_v19 (ix2 k b) a = ix2 a b := fun a => by
    funext d; match d with | ⟨0, _⟩ => rfl | ⟨1, _⟩ => rfl
  have e3 : idx_main_v20 (idx_main_v21 (ix2 k b)) = ix1 b := by
    funext d; match d with | ⟨0, _⟩ => rfl
  simp only [e1, e2, e3]
  show max (_ + _) (Ideal.ofBits .f32 0x00000000#32) = _
  rw [Ideal.ofBits_zero_f32]

/-- The first perceptron at an entry. -/
theorem v27_at (k : Fin 819200) (j : Fin 64) :
    val_main_v27 (F := Ideal) x0 x2 x4 x5 x6 x7 (ix2 k j) = mlpAt (edgeIn x0 (Dw x2) (Sw x2)) x4 x5 x6 x7 k j := by
  rw [val_main_v27_apply, val_main_v24_apply, val_main_v26_apply, val_main_v25_apply]
  have e1 : ∀ b : Fin 128, lidx_main_v24 (ix2 k j) b = ix2 k b := fun b => by
    funext d; match d with | ⟨0, _⟩ => rfl | ⟨1, _⟩ => rfl
  have e2 : ∀ b : Fin 128, ridx_main_v24 (ix2 k j) b = ix2 b j := fun b => by
    funext d; match d with | ⟨0, _⟩ => rfl | ⟨1, _⟩ => rfl
  have e3 : idx_main_v25 (idx_main_v26 (ix2 k j)) = ix1 j := by
    funext d; match d with | ⟨0, _⟩ => rfl
  simp only [e1, e2, e3, v23_at]
  rfl

theorem v27_eq : val_main_v27 (F := Ideal) x0 x2 x4 x5 x6 x7 = mlp (edgeIn x0 (Dw x2) (Sw x2)) x4 x5 x6 x7 := by
  funext y
  obtain ⟨p, q, rfl⟩ : ∃ (p : Fin 819200) (q : Fin 64), y = ix2 p q := ⟨y 0, y 1, eq_ix2 y⟩
  exact v27_at x0 x2 x4 x5 x6 x7 p q

/-- The scatter-add of the messages onto zeros at the destinations. -/
theorem v30_eq : val_main_v30 (F := Ideal) x0 x2 x4 x5 x6 x7
    = fun y => 0 + rowScatterSum (dstCol x2) (mlp (edgeIn x0 (Dw x2) (Sw x2)) x4 x5 x6 x7) y := by
  unfold val_main_v30
  rw [v29_eq, v27_eq]
  refine scatterA _ (fun y => ?_) _ _
  rw [val_main_v28_apply, val_main_cst_apply]
  exact Ideal.ofBits_zero_f32

end Head

/-- THE HEAD STAGE: the weighted node sums. -/
theorem ref_g (x0 : Arr2 51200 64) (x1 : Arr2 51200 1) (x2 : (⟨2, ![2, 819200]⟩ : Shape).Idx → BitVec 32)
    (x4 : Arr2 128 128) (x5 : Arr1 128) (x6 : Arr2 128 64) (x7 : Arr1 64) :
    Cert.ReferenceIdeal.ReadP.val_main_v32 (F := Ideal) x0 x1 x2 x4 x5 x6 x7
      = gRef x0 x1 (dstCol x2) (wrapCol 51200 (dstCol x2)) (wrapCol 51200 (srcCol x2)) x4 x5 x6 x7 := by
  funext y
  rw [val_main_v32_apply, val_main_v31_apply, v30_eq]
  have e : idx_main_v31 y = ix2 (r0 y) 0 := by
    funext d; match d with | ⟨0, _⟩ => rfl | ⟨1, _⟩ => rfl
  rw [e]
  rfl

variable (m : (ℓ : Loc nD τ sig) → Buf (Elt Ideal) ℓ) (c : Dev nD)

/-- The reference run's result term is the reference's function of the launch contents. -/
theorem res_eq : (Cert.ReferenceIdeal.ValueP.res_main_v74 (F := Ideal) m c : Arr2 51200 1) = RSpec (m ((c.tc : Thread nD τ).loc main_arg0)) (m ((c.tc : Thread nD τ).loc main_arg1)) (dstCol (m ((c.tc : Thread nD τ).loc main_arg2))) (wrapCol 51200 (dstCol (m ((c.tc : Thread nD τ).loc main_arg2)))) (wrapCol 51200 (srcCol (m ((c.tc : Thread nD τ).loc main_arg2)))) (fun i => (m ((c.tc : Thread nD τ).loc main_arg3)) (ix1 i)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (Cert.ReferenceIdeal.ReadP.val_main_v74_eq (F := Ideal) m c).trans ?_
  exact (Cert.ReferenceIdeal.RT.ref_tail _ _ _ _ _ _ _ _ _ _ _ _ _ (ref_g _ _ _ _ _ _ _)).trans rfl

end Cert.ReferenceIdeal.RV

end
-- ==== Proof.Bridge.lean ====
/-
  The kernel's function is the reference's, on finite inputs with every graph label in range.

  Three facts. (1) Weighting each edge message by its destination's weight before the sum over the edges of a node is
  weighting the sum: every message is a real number when the features and the first perceptron's parameters are, and a
  real factor moves across a finite sum of reals; an edge counted at node i has destination i, which the gather's wrap and
  clamp leave alone. (2) The product with the one-hot matrix of the labels is the scatter-add at the labels: both add
  g[i, j] into row b exactly when node i's label is b — for any g, finite or not. (3) With every label in [0, 64) the
  transposed one-hot product picks the pooled row of the node's label, which is what the gather reads there.
-/
import Idealize.ShloMosaic.PureOps.Ideal
import Idealize.ShloMosaic.Lib.ValueIdx
import proofs.«431037_j76441827934550_1_alg».proof.Proof.Spec

noncomputable section

namespace Cert.Bridge

open Idealize.ShloMosaic Idealize.ShloMosaic.ValueIdx Cert.Spec

/-- A word equals the word of a small number exactly when its signed value is that number. -/
theorem ofNat_eq_iff_toInt (b : Nat) (hb : b < 64) (v : BitVec 32) : BitVec.ofNat 32 b = v ↔ v.toInt = (b : Int) := by
  constructor
  · rintro rfl
    rw [BitVec.toInt_eq_toNat_cond, BitVec.toNat_ofNat]
    split <;> omega
  · intro h
    apply BitVec.eq_of_toNat_eq
    rw [BitVec.toNat_ofNat]
    rw [BitVec.toInt_eq_toNat_cond] at h
    have := v.isLt
    split at h <;> omega

/-- The one-hot entry as an indicator of the signed value. -/
theorem onehot_eq (b : Nat) (hb : b < 64) (v : BitVec 32) : onehot b v = if v.toInt = (b : Int) then 1 else 0 := by
  unfold onehot
  by_cases h : v.toInt = (b : Int)
  · rw [if_pos h, if_pos ((ofNat_eq_iff_toInt b hb v).2 h)]
  · rw [if_neg h, if_neg (fun h' => h ((ofNat_eq_iff_toInt b hb v).1 h'))]

/-! ### Real numbers inside the extended reals -/

theorem isReal_zero : IsReal 0 := ⟨0, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max_zero {a : EReal} (ha : IsReal a) : IsReal (max a 0) := by
  rcases le_total a 0 with h | h
  · rw [max_eq_right h]; exact isReal_zero
  · rw [max_eq_left h]; exact ha

theorem IsReal.sum {ι : Type} (s : Finset ι) (f : ι → EReal) (hf : ∀ k, IsReal (f k)) : IsReal (∑ k ∈ s, f k) := by
  classical
  induction s using Finset.induction_on with
  | empty => rw [Finset.sum_empty]; exact isReal_zero
  | insert a s ha ih => rw [Finset.sum_insert ha]; exact IsReal.add (hf a) ih

/-- The inclusion of the reals commutes with finite sums. -/
theorem coe_sum {ι : Type} (s : Finset ι) (f : ι → ℝ) : ∑ k ∈ s, ((f k : ℝ) : EReal) = ((∑ k ∈ s, f k : ℝ) : EReal) := by
  classical
  induction s using Finset.induction_on with
  | empty => rw [Finset.sum_empty, Finset.sum_empty]; rfl
  | insert a s ha ih => rw [Finset.sum_insert ha, Finset.sum_insert ha, ih, EReal.coe_add]

/-! ### Entries of gathered and concatenated matrices -/

theorem isReal_rowGather {N C R : Nat} (hN : 0 < N) (x : Arr2 N C) (idx : IdxCol R) (hx : ∀ i, IsReal (x i)) (y) :
    IsReal (rowGather hN x idx y) := hx _

theorem isReal_catCols {R A B : Nat} (C : Nat) (a : Arr2 R A) (b : Arr2 R B) (ha : ∀ i, IsReal (a i)) (hb : ∀ i, IsReal (b i)) (y) :
    IsReal (catCols C a b y) := by
  unfold catCols
  split
  · exact ha _
  · split
    · exact hb _
    · exact isReal_zero

theorem isReal_mlpAt {R Din Dh Dout : Nat} (h : Arr2 R Din) (W1 : Arr2 Din Dh) (b1 : Arr1 Dh) (W2 : Arr2 Dh Dout) (b2 : Arr1 Dout)
    (hh : ∀ i, IsReal (h i)) (hW1 : ∀ i, IsReal (W1 i)) (hb1 : ∀ i, IsReal (b1 i)) (hW2 : ∀ i, IsReal (W2 i)) (hb2 : ∀ i, IsReal (b2 i))
    (k : Fin R) (j : Fin Dout) : IsReal (mlpAt h W1 b1 W2 b2 k j) := by
  unfold mlpAt
  refine IsReal.add (IsReal.sum _ _ fun b => IsReal.mul (IsReal.max_zero (IsReal.add (IsReal.sum _ _ fun a => ?_) (hb1 _))) (hW2 _)) (hb2 _)
  exact IsReal.mul (hh _) (hW1 _)

/-- A gather reads the row its index names when that index is a row number. -/
theorem rowGather_at {N C R : Nat} (hN : 0 < N) (x : Arr2 N C) (idx : IdxCol R) (k : Fin R) (c : Fin C) (i : Fin N)
    (h : (idx (ix2 k 0)).toInt = (i.val : Int)) : rowGather hN x idx (ix2 k c) = x (ix2 i c) := by
  show x (ix2 ⟨min (idx (ix2 k 0)).toInt.toNat (N - 1), by omega⟩ c) = x (ix2 i c)
  congr 2
  apply Fin.ext
  show min (idx (ix2 k 0)).toInt.toNat (N - 1) = i.val
  have := i.isLt
  rw [h]
  omega

/-- Wrapping leaves a word with a nonnegative signed value alone. -/
theorem wrapN_of_nonneg (n : Nat) (v : BitVec 32) (h : 0 ≤ v.toInt) : wrapN n v = v := by
  unfold wrapN; rw [if_neg (by omega)]

section
variable (x : Arr2 51200 64) (e : Arr2 51200 1) (D Sw : IdxCol 819200) (bt : Fin 51200 → BitVec 32)
  (gW1 : Arr2 128 128) (gb1 : Arr1 128) (gW2 : Arr2 128 64) (gb2 : Arr1 64)
  (lW1 : Arr2 256 128) (lb1 : Arr1 128) (lW2 : Arr2 128 1) (lb2 : Arr1 1)

/-- (1) The node sums agree. -/
theorem gKer_eq_gRef (hx : ∀ i, IsReal (x i)) (he : ∀ i, IsReal (e i)) (hW1 : ∀ i, IsReal (gW1 i)) (hb1 : ∀ i, IsReal (gb1 i))
    (hW2 : ∀ i, IsReal (gW2 i)) (hb2 : ∀ i, IsReal (gb2 i)) :
    gKer x e D (wrapCol 51200 D) Sw gW1 gb1 gW2 gb2 = gRef x e D (wrapCol 51200 D) Sw gW1 gb1 gW2 gb2 := by
  funext y
  obtain ⟨i, j, rfl⟩ : ∃ (i : Fin 51200) (j : Fin 64), y = ix2 i j := ⟨y 0, y 1, eq_ix2 y⟩
  obtain ⟨r, hr⟩ := he (ix2 i 0)
  have hM : ∀ k : Fin 819200, IsReal (mlpAt (edgeIn x (wrapCol 51200 D) Sw) gW1 gb1 gW2 gb2 k j) := fun k =>
    isReal_mlpAt _ _ _ _ _ (fun u => isReal_catCols _ _ _ (isReal_rowGather _ _ _ hx) (isReal_rowGather _ _ _ hx) u)
      hW1 hb1 hW2 hb2 k j
  choose m hm using hM
  show 0 + ∑ k : Fin 819200, (if (D (ix2 k 0)).toInt = ((i.val : Nat) : Int)
        then mlpAt (edgeIn x (wrapCol 51200 D) Sw) gW1 gb1 gW2 gb2 k j
          * rowGather (by decide) e (wrapCol 51200 D) (ix2 k 0) else 0)
      = e (ix2 i 0) * (0 + ∑ k : Fin 819200, (if (D (ix2 k 0)).toInt = ((i.val : Nat) : Int)
        then mlpAt (edgeIn x (wrapCol 51200 D) Sw) gW1 gb1 gW2 gb2 k j else 0))
  have hL : ∀ k : Fin 819200, (if (D (ix2 k 0)).toInt = ((i.val : Nat) : Int)
        then mlpAt (edgeIn x (wrapCol 51200 D) Sw) gW1 gb1 gW2 gb2 k j
          * rowGather (by decide) e (wrapCol 51200 D) (ix2 k 0) else 0)
      = (((if (D (ix2 k 0)).toInt = ((i.val : Nat) : Int) then r * m k else 0 : ℝ)) : EReal) := by
    intro k
    split
    · next hk =>
      have hwk : (wrapCol 51200 D (ix2 k 0)).toInt = ((i.val : Nat) : Int) := by
        show (wrapN 51200 (D (ix2 k 0))).toInt = _
        rw [wrapN_of_nonneg _ _ (by omega), hk]
      rw [rowGather_at _ e _ k 0 i hwk, hm, hr, mul_comm, EReal.coe_mul]
    · rfl
  have hR : ∀ k : Fin 819200, (if (D (ix2 k 0)).toInt = ((i.val : Nat) : Int)
        then mlpAt (edgeIn x (wrapCol 51200 D) Sw) gW1 gb1 gW2 gb2 k j else 0)
      = (((if (D (ix2 k 0)).toInt = ((i.val : Nat) : Int) then m k else 0 : ℝ)) : EReal) := by
    intro k
    split
    · rw [hm]
    · rfl
  rw [Finset.sum_congr rfl fun k _ => hL k, Finset.sum_congr rfl fun k _ => hR k, coe_sum, coe_sum, zero_add, zero_add, hr,
    ← EReal.coe_mul, Finset.mul_sum]
  refine congrArg _ (Finset.sum_congr rfl fun k _ => ?_)
  split
  · rfl
  · rw [mul_zero]

/-- (2) Pooling by the one-hot product is the scatter-add at the labels. -/
theorem poolOH_eq (g : Arr2 51200 64) : poolOH 64 bt g = fun y => 0 + rowScatterSum (fun u => bt (r0 u)) g y := by
  funext y
  rw [zero_add]
  show ∑ i : Fin 51200, onehot (r0 y).val (bt i) * g (ix2 i (r1 y))
      = ∑ i : Fin 51200, if (bt i).toInt = ((r0 y).val : Int) then g (ix2 i (r1 y)) else 0
  refine Finset.sum_congr rfl fun i _ => ?_
  rw [onehot_eq _ (r0 y).isLt]
  split
  · rw [one_mul]
  · rw [zero_mul]

/-- (3) With the labels in range, the transposed one-hot product is the gather at the (wrapped) labels. -/
theorem backOH_eq (hbt : ∀ i, 0 ≤ (bt i).toInt ∧ (bt i).toInt < 64) (p : Arr2 64 64) :
    backOH bt p = rowGather (by decide) p (fun u => wrapN 64 (bt (r0 u))) := by
  funext y
  obtain ⟨h0, h1⟩ := hbt (r0 y)
  have hw : wrapN 64 (bt (r0 y)) = bt (r0 y) := by
    unfold wrapN; rw [if_neg (by omega)]
  have hc : (bt (r0 y)).toInt.toNat < 64 := by omega
  show ∑ b : Fin 64, onehot b.val (bt (r0 y)) * p (ix2 b (r1 y))
      = p (ix2 ⟨min (wrapN 64 (bt (r0 y))).toInt.toNat (64 - 1), by omega⟩ (r1 y))
  rw [Finset.sum_eq_single (⟨(bt (r0 y)).toInt.toNat, hc⟩ : Fin 64)]
  · rw [onehot_eq _ hc, if_pos (by show (bt (r0 y)).toInt = (((bt (r0 y)).toInt.toNat : Nat) : Int); omega), one_mul]
    congr 2
    apply Fin.ext
    simp only [hw]
    omega
  · intro b _ hb
    rw [onehot_eq _ b.isLt, if_neg, zero_mul]
    intro h
    apply hb
    apply Fin.ext
    show b.val = (bt (r0 y)).toInt.toNat
    omega
  · intro h
    exact absurd (Finset.mem_univ _) h

/-- The two programs' results agree. -/
theorem KSpec_eq_RSpec (hx : ∀ i, IsReal (x i)) (he : ∀ i, IsReal (e i)) (hW1 : ∀ i, IsReal (gW1 i)) (hb1 : ∀ i, IsReal (gb1 i))
    (hW2 : ∀ i, IsReal (gW2 i)) (hb2 : ∀ i, IsReal (gb2 i)) (hbt : ∀ i, 0 ≤ (bt i).toInt ∧ (bt i).toInt < 64) :
    KSpec x e D (wrapCol 51200 D) Sw bt gW1 gb1 gW2 gb2 lW1 lb1 lW2 lb2
      = RSpec x e D (wrapCol 51200 D) Sw bt gW1 gb1 gW2 gb2 lW1 lb1 lW2 lb2 := by
  unfold KSpec RSpec scKer scRef pKer pRef
  rw [poolOH_eq, backOH_eq bt hbt, gKer_eq_gRef x e D Sw gW1 gb1 gW2 gb2 hx he hW1 hb1 hW2 hb2]

end

end Cert.Bridge

end
-- ==== Proof.PreFacts.lean ====
import proofs.«431037_j76441827934550_1_alg».proof.Defs
import proofs.«431037_j76441827934550_1_alg».proof.Proof.Gen.Pre_finite_inputs
import proofs.«431037_j76441827934550_1_alg».proof.Proof.Spec
import Idealize.ShloMosaic.Lib.ReduceAll
import Idealize.ShloMosaic.Lib.StableHlo.Predicate

noncomputable section

namespace Cert.PreFacts

open Idealize.ShloMosaic Idealize.ShloMosaic.ValueIdx Idealize.SL.Sem Cert.Spec

/-- The scalar shape has one index. -/
instance subsingleton_scalar_idx : Subsingleton (⟨0, ![]⟩ : Shape).Idx := ⟨fun a b => funext fun d => d.elim0⟩

/-- The single-precision pattern 0x7F800000 denotes +∞. -/
theorem inf_eq_top : Ideal.ofBits .f32 0x7F800000#32 = (⊤ : EReal) := by simp [Ideal.ofBits, Ideal.ieee]

/-- An extended real whose absolute value max(v, -v) lies strictly below +∞ is a real number: -∞ and +∞ both
    have absolute value +∞. -/
theorem isReal_of_abs_lt (v : EReal)
    (h : Ideal.cmp .olt (max v (-v)) (Ideal.ofBits .f32 0x7F800000#32) = 1#1) : IsReal v := by
  rw [inf_eq_top] at h
  have h' : max v (-v) < ⊤ := by
    simpa [Ideal.cmp, StableHlo.Predicate.ofBool_eq_one_iff] using h
  induction v using EReal.rec with
  | bot => simp at h'
  | coe r => exact ⟨r, rfl⟩
  | top => simp at h'

/-- One float conjunct: when the conjunction over all entries of "|a| < +∞" is 1, every entry of `a` is real. -/
theorem all_real {s : Shape} {axes : List (Fin s.rank)}
    (hb : (⟨0, ![]⟩ : Shape).BroadcastsInDim s (![] : Fin 0 → Fin s.rank))
    (hr : s.ReducesTo axes ⟨0, ![]⟩) (h0 : 0 < (⟨0, ![]⟩ : Shape).numel) (a : s.Idx → EReal)
    (h : Host.reduce IntOp.andi
        (cmpf (F := Ideal) (φ := .f32) .olt (Host.absf (F := Ideal) (φ := .f32) a)
          (broadcastInDim s ![] hb (constant (F := Ideal) ⟨0, ![]⟩ .f32 0x7F800000#32)))
        (constantI ⟨0, ![]⟩ 1 1#1) hr h0 ix0 = 1#1) (i : s.Idx) : IsReal (a i) :=
  isReal_of_abs_lt _ (Host.reduce_andi_all _ _ hr h0 ix0 h i)

/-- A word that compares signed-at-least 0 and signed-below 64 has its signed value in [0, 64). -/
theorem word_range (w : BitVec 32)
    (h : IntOp.andi (IntOp.cmpi .sge w 0#32) (IntOp.cmpi .slt w 64#32) = 1#1) : 0 ≤ w.toInt ∧ w.toInt < 64 := by
  obtain ⟨h1, h2⟩ := IntOp.andi_eq_one.1 h
  have z0 : (0#32 : BitVec 32).toInt = 0 := by decide
  have z64 : (64#32 : BitVec 32).toInt = 64 := by decide
  simp only [IntOp.cmpi, StableHlo.Predicate.ofBool_eq_one_iff, BitVec.sle, BitVec.slt, decide_eq_true_eq, z0, z64] at h1 h2
  exact ⟨h1, h2⟩

/-- The label conjunct: when the conjunction over all nodes of "0 ≤ label and label < 64" is 1, every label is in range. -/
theorem labels_range {n : Nat}
    (hb : (⟨0, ![]⟩ : Shape).BroadcastsInDim ⟨1, ![n]⟩ (![] : Fin 0 → Fin 1))
    (hr : (⟨1, ![n]⟩ : Shape).ReducesTo [0] ⟨0, ![]⟩) (h0 : 0 < (⟨0, ![]⟩ : Shape).numel)
    (bt : (⟨1, ![n]⟩ : Shape).Idx → BitVec 32)
    (h : Host.reduce IntOp.andi
        (andi (cmpi .sge bt (broadcastInDim ⟨1, ![n]⟩ ![] hb (constantI ⟨0, ![]⟩ 32 0#32)))
          (cmpi .slt bt (broadcastInDim ⟨1, ![n]⟩ ![] hb (constantI ⟨0, ![]⟩ 32 64#32))))
        (constantI ⟨0, ![]⟩ 1 1#1) hr h0 ix0 = 1#1) (i : Fin n) :
    0 ≤ (bt (ix1 i)).toInt ∧ (bt (ix1 i)).toInt < 64 :=
  word_range _ (Host.reduce_andi_all _ _ hr h0 ix0 h (ix1 i))

/-- A conjunction of two scalar bits that is 1 has both bits 1. -/
theorem andi_ix0 (a b : (⟨0, ![]⟩ : Shape).Idx → BitVec 1) (h : andi a b ix0 = 1#1) : a ix0 = 1#1 ∧ b ix0 = 1#1 :=
  IntOp.andi_eq_one.1 h

/-- What the precondition says, read off its printed predicate: the node features, the node weights and the first
    perceptron's parameters are real numbers, and every graph label lies in [0, 64). -/
theorem of_fn (x : Arr2 51200 64) (e : Arr2 51200 1) (ei : (⟨2, ![2, 819200]⟩ : Shape).Idx → BitVec 32)
    (bt : (⟨1, ![51200]⟩ : Shape).Idx → BitVec 32) (gW1 : Arr2 128 128) (gb1 : Arr1 128) (gW2 : Arr2 128 64) (gb2 : Arr1 64)
    (lW1 : Arr2 256 128) (lb1 : Arr1 128) (lW2 : Arr2 128 1) (lb2 : Arr1 1)
    (h : Cert.Pre_finite_inputs.fn (F := Ideal) x e ei bt gW1 gb1 gW2 gb2 lW1 lb1 lW2 lb2 = fun _ => 1#1) :
    (∀ i, IsReal (x i)) ∧ (∀ i, IsReal (e i)) ∧ (∀ i, IsReal (gW1 i)) ∧ (∀ i, IsReal (gb1 i)) ∧ (∀ i, IsReal (gW2 i))
      ∧ (∀ i, IsReal (gb2 i)) ∧ (∀ i : Fin 51200, 0 ≤ (bt (ix1 i)).toInt ∧ (bt (ix1 i)).toInt < 64) := by
  have h0 := congrFun h ix0
  unfold Cert.Pre_finite_inputs.fn Cert.Pre_finite_inputs.fn_part1 Cert.Pre_finite_inputs.fn_part2
    Cert.Pre_finite_inputs.fn_part3 at h0
  dsimp only at h0
  obtain ⟨h0, hbt⟩ := andi_ix0 _ _ h0
  obtain ⟨h0, hlb2⟩ := andi_ix0 _ _ h0
  obtain ⟨h0, hlW2⟩ := andi_ix0 _ _ h0
  obtain ⟨h0, hlb1⟩ := andi_ix0 _ _ h0
  obtain ⟨h0, hlW1⟩ := andi_ix0 _ _ h0
  obtain ⟨h0, hgb2⟩ := andi_ix0 _ _ h0
  obtain ⟨h0, hgW2⟩ := andi_ix0 _ _ h0
  obtain ⟨h0, hgb1⟩ := andi_ix0 _ _ h0
  obtain ⟨h0, hgW1⟩ := andi_ix0 _ _ h0
  obtain ⟨hx, he⟩ := andi_ix0 _ _ h0
  exact ⟨all_real _ _ _ _ hx, all_real _ _ _ _ he, all_real _ _ _ _ hgW1, all_real _ _ _ _ hgb1,
    all_real _ _ _ _ hgW2, all_real _ _ _ _ hgb2, labels_range _ _ _ _ hbt⟩

end Cert.PreFacts

end
-- ==== Proof.lean ====
/-
  The kernel computes, per node, a sum over its incoming edges of a two-layer perceptron of the edge's end features,
  weights it by the node's weight, pools the weighted sums per graph, hands each node its graph's pooled row, and runs a
  second perceptron over the edges of the features so extended, summed again per node. The kernel's program does the
  perceptrons, the pooling and the hand-back in four pipelined regions (the pooling and the hand-back as products with
  the one-hot matrix of the graph labels, the weighting per edge before the first sum); the reference does all of it
  with gathers and scatter-adds. On finite inputs with every graph label in [0, 64) the two results are one function
  of the inputs (Proof/Bridge.lean); the kernel's side of that function is read off the run of its four regions
  (Proof/KValue.lean over Proof/Reg*Value.lean and Proof/KHost*.lean), the reference's off its run (Proof/RefValue.lean).
  The three frames are the runs themselves; the idealization rewrote nothing, so `preserves` is trivial.
-/
import proofs.«431037_j76441827934550_1_alg».proof.Defs
import proofs.«431037_j76441827934550_1_alg».proof.Proof.Gen.Kernel
import proofs.«431037_j76441827934550_1_alg».proof.Proof.Gen.KernelIdeal
import proofs.«431037_j76441827934550_1_alg».proof.Proof.Gen.ReferenceIdeal
import proofs.«431037_j76441827934550_1_alg».proof.Proof.Gen.Pre_finite_inputs
import proofs.«431037_j76441827934550_1_alg».proof.Proof.KernelFrameP
import proofs.«431037_j76441827934550_1_alg».proof.Proof.KernelIdealFrameP
import proofs.«431037_j76441827934550_1_alg».proof.Proof.KRun
import proofs.«431037_j76441827934550_1_alg».proof.Proof.RefRunP
import proofs.«431037_j76441827934550_1_alg».proof.Proof.Spec
import proofs.«431037_j76441827934550_1_alg».proof.Proof.KValue
import proofs.«431037_j76441827934550_1_alg».proof.Proof.RefValue
import proofs.«431037_j76441827934550_1_alg».proof.Proof.Bridge
import proofs.«431037_j76441827934550_1_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.GenP.frame m ρ
theorem frame_pi : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the same result array: the kernel's is its function of the launch contents, the
    reference's its own, the launch contents agree, and under the precondition the two functions agree. -/
theorem algebraic : Cert.algebraic_KernelIdeal_ReferenceIdeal := by
  intro m ρ m' ρ' hpre hagree
  refine ⟨fun c => Cert.KernelIdeal.GenP.W8 m ρ c (Proc.devRef .tc Cert.KernelIdeal.main_v55),
    Cert.KernelIdeal.KRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hx, he, hW1, hb1, hW2, hb2, hbt⟩ := Cert.PreFacts.of_fn _ _ _ _ _ _ _ _ _ _ _ _ (hpre c)
  refine (Cert.ReferenceIdeal.RV.res_eq m' c).trans (Eq.trans ?_ (Cert.KernelIdeal.KV.kernel_value m ρ c).symm)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2]
  exact (Cert.Bridge.KSpec_eq_RSpec _ _ _ _ _ _ _ _ _ _ _ _ _ hx he hW1 hb1 hW2 hb2 hbt).symm

theorem claim : Cert.Claim := ⟨Cert.Kernel.Gen.facts, Cert.KernelIdeal.Gen.facts, Cert.ReferenceIdeal.Gen.facts,
  Cert.Pre_finite_inputs.Gen.facts, frame_p, frame_pi, frame_ri, preserves, algebraic⟩

end Cert.Proof

end
